-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x64 : Shape := ⟨3, ![32, 2048, 64]⟩
abbrev S4x2048 : Shape := ⟨2, ![4, 2048]⟩
abbrev S_ : Shape := ⟨0, ![]⟩

class Facts : Prop where
  bcast_S_S32x2048x64 : S_.BroadcastsInDim S32x2048x64 (![] : Fin 0 → Fin S32x2048x64.rank)
  reducesTo_S32x2048x64_S_d0_1_2 : S32x2048x64.ReducesTo [0, 1, 2] S_
  h_S_ : 0 < S_.numel

variable [Facts]

def fn {F : FTy → Type} [FloatOps F] (main_arg0 : FVec F S32x2048x64 .f32) (main_arg1 : FVec F S32x2048x64 .f32) (main_arg2 : FVec F S32x2048x64 .f32) (main_arg3 : IVec S4x2048 32) : IVec S_ 1 :=
  let main_v0 : FVec F S32x2048x64 .f32 := Host.absf main_arg0
  let main_cst : FVec F S_ .f32 := constant S_ .f32 0x7F800000#32
  let main_v1 : FVec F S32x2048x64 .f32 := broadcastInDim S32x2048x64 ![] bcast_S_S32x2048x64 main_cst
  let main_v2 : IVec S32x2048x64 1 := cmpf .olt main_v0 main_v1
  let main_c : IVec S_ 1 := constantI S_ 1 1#1
  let main_v3 : IVec S_ 1 := (fun x v => Host.reduce IntOp.andi x v reducesTo_S32x2048x64_S_d0_1_2 h_S_) main_v2 main_c
  let main_v4 : FVec F S32x2048x64 .f32 := Host.absf main_arg1
  let main_cst_0 : FVec F S_ .f32 := constant S_ .f32 0x7F800000#32
  let main_v5 : FVec F S32x2048x64 .f32 := broadcastInDim S32x2048x64 ![] bcast_S_S32x2048x64 main_cst_0
  let main_v6 : IVec S32x2048x64 1 := cmpf .olt main_v4 main_v5
  let main_c_1 : IVec S_ 1 := constantI S_ 1 1#1
  let main_v7 : IVec S_ 1 := (fun x v => Host.reduce IntOp.andi x v reducesTo_S32x2048x64_S_d0_1_2 h_S_) main_v6 main_c_1
  let main_v8 : IVec S_ 1 := andi main_v3 main_v7
  let main_v9 : FVec F S32x2048x64 .f32 := Host.absf main_arg2
  let main_cst_2 : FVec F S_ .f32 := constant S_ .f32 0x7F800000#32
  let main_v10 : FVec F S32x2048x64 .f32 := broadcastInDim S32x2048x64 ![] bcast_S_S32x2048x64 main_cst_2
  let main_v11 : IVec S32x2048x64 1 := cmpf .olt main_v9 main_v10
  let main_c_3 : IVec S_ 1 := constantI S_ 1 1#1
  let main_v12 : IVec S_ 1 := (fun x v => Host.reduce IntOp.andi x v reducesTo_S32x2048x64_S_d0_1_2 h_S_) main_v11 main_c_3
  let main_v13 : IVec S_ 1 := andi main_v8 main_v12
  main_v13
-- ==== Kernel.lean ====
abbrev S32x2048x64 : Shape := ⟨3, ![32, 2048, 64]⟩
abbrev S4x2048 : Shape := ⟨2, ![4, 2048]⟩
abbrev S4x1x2048 : Shape := ⟨3, ![4, 1, 2048]⟩
abbrev S1x512x64 : Shape := ⟨3, ![1, 512, 64]⟩
abbrev S1x1x512 : Shape := ⟨3, ![1, 1, 512]⟩
abbrev S512x1 : Shape := ⟨2, ![512, 1]⟩
abbrev S512x64 : Shape := ⟨2, ![512, 64]⟩
abbrev S64x512 : Shape := ⟨2, ![64, 512]⟩
abbrev S512x512 : Shape := ⟨2, ![512, 512]⟩
abbrev S1x512 : Shape := ⟨2, ![1, 512]⟩
abbrev S512 : Shape := ⟨1, ![512]⟩
abbrev S64 : Shape := ⟨1, ![64]⟩
abbrev S1x64 : Shape := ⟨2, ![1, 64]⟩

abbrev nBuf : Space → Nat
  | .hbm => 7
  | .vmem => 14
  | .smem => 0
  | _ => 0

abbrev bufTy : (tb : Table) → Fin (tcTables nBuf tb) → BufTy
  | .hbm, ⟨0, _⟩ => ⟨S32x2048x64, .f32⟩
  | .hbm, ⟨1, _⟩ => ⟨S32x2048x64, .f32⟩
  | .hbm, ⟨2, _⟩ => ⟨S32x2048x64, .f32⟩
  | .hbm, ⟨3, _⟩ => ⟨S4x2048, .i32⟩
  | .hbm, ⟨4, _⟩ => ⟨S4x2048, .f32⟩
  | .hbm, ⟨5, _⟩ => ⟨S4x1x2048, .f32⟩
  | .hbm, ⟨6, _⟩ => ⟨S32x2048x64, .f32⟩
  | .local _ .vmem, ⟨0, _⟩ => ⟨S1x512x64, .f32⟩
  | .local _ .vmem, ⟨1, _⟩ => ⟨S1x512x64, .f32⟩
  | .local _ .vmem, ⟨2, _⟩ => ⟨S1x512x64, .f32⟩
  | .local _ .vmem, ⟨3, _⟩ => ⟨S1x512x64, .f32⟩
  | .local _ .vmem, ⟨4, _⟩ => ⟨S1x512x64, .f32⟩
  | .local _ .vmem, ⟨5, _⟩ => ⟨S1x512x64, .f32⟩
  | .local _ .vmem, ⟨6, _⟩ => ⟨S1x1x512, .f32⟩
  | .local _ .vmem, ⟨7, _⟩ => ⟨S1x1x512, .f32⟩
  | .local _ .vmem, ⟨8, _⟩ => ⟨S1x512x64, .f32⟩
  | .local _ .vmem, ⟨9, _⟩ => ⟨S1x512x64, .f32⟩
  | .local _ .vmem, ⟨10, _⟩ => ⟨S512x1, .f32⟩
  | .local _ .vmem, ⟨11, _⟩ => ⟨S512x1, .f32⟩
  | .local _ .vmem, ⟨12, _⟩ => ⟨S512x64, .f32⟩
  | .local _ .vmem, ⟨13, _⟩ => ⟨S512x64, .bf16⟩
  | _, _ => ⟨S32x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![32, 4, 4], ![false, false, false]⟩

def k0_cond4 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_4 : BitVec 32 := 0#32
  let v14 : BitVec 1 := Scalar.cmpi .ne v13 c0_i32_4
  v14

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  bcast_S4x2048_S4x1x2048_0_2 : S4x2048.BroadcastsInDim S4x1x2048 (![0, 2] : Fin 2 → Fin S4x1x2048.rank)
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  bitsLt_bf16_f32 : FTy.bits .bf16 < FTy.bits .f32
  packedbf16_S512x64_S512x64_0_0 : (Rect.unit (s := S512x64) ![0, 0] S512x64.size inb_S512x64_S512x64_0_0).PackedRows (EltTy.packing .bf16)
  transposes_S512x64_p1_0_S64x512 : S512x64.Transposes [1, 0] S64x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S1x512_S512x512 : S1x512.Broadcasts S512x512
  iota_S512x512_d0_w32 : S512x512.Iotas .tc 32 [0]
  iota_S512x512_d1_w32 : S512x512.Iotas .tc 32 [1]
  reduces_S512x512_S512 : S512x512.Reduces [1] S512
  shapeCasts_S512_S512x1 : S512.ShapeCasts S512x1
  broadcasts_S512x1_S512x512 : S512x1.Broadcasts S512x512
  broadcasts_S512x1_S512x64 : S512x1.Broadcasts S512x64
  reduces_S512x64_S64 : S512x64.Reduces [0] S64
  shapeCasts_S64_S1x64 : S64.ShapeCasts S1x64
  broadcasts_S1x64_S512x64 : S1x64.Broadcasts S512x64
  shapeCasts_S512x64_S1x512x64 : S512x64.ShapeCasts S1x512x64
  dot_S512x64_S64x512_S512x512_1_0_0_1_n_n_wf : DotDims.WF S512x64 S64x512 S512x512 [1] [0] [0] [1] [] []
  dot_S512x512_S512x64_S512x64_1_0_0_1_n_n_wf : DotDims.WF S512x512 S512x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S32x2048x64.size a
  hwx0_0 : ∀ i : grid0.Coords, EltTy.bits .f32 = 32 ∨ (Rect.block (s := S32x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x64.size a ≤ S32x2048x64.size a
  hwx0_1 : ∀ i : grid0.Coords, EltTy.bits .f32 = 32 ∨ (Rect.block (s := S32x2048x64) S1x512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x64.size a ≤ S32x2048x64.size a
  hwx0_2 : ∀ i : grid0.Coords, EltTy.bits .f32 = 32 ∨ (Rect.block (s := S32x2048x64) S1x512x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512.size a ≤ S4x1x2048.size a
  hwx0_3 : ∀ i : grid0.Coords, EltTy.bits .f32 = 32 ∨ (Rect.block (s := S4x1x2048) S1x1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x64.size a ≤ S32x2048x64.size a
  hwx0_4 : ∀ i : grid0.Coords, EltTy.bits .f32 = 32 ∨ (Rect.block (s := S32x2048x64) S1x512x64.size (cc0_transform_4 i) (hinb0_4 i)).WholeWords (EltTy.packing .f32)

variable [Facts₀]

def dot_S512x64_S64x512_S512x512_1_0_0_1_n_n : DotDims S512x64 S64x512 S512x512 where
  lhsContracting := [1]
  rhsContracting := [0]
  lhsNonContracting := [0]
  rhsNonContracting := [1]
  lhsBatch := []
  rhsBatch := []
  wf := dot_S512x64_S64x512_S512x512_1_0_0_1_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf

abbrev win0_0 : Pipeline.Window sig grid0 :=
  Pipeline.Window.ofSpec (Memref.whole main_arg0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x512x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond4 i == 1#1) | ⟨_ + 5, h⟩ => absurd h (Nat.not_lt.2 (Nat.le_add_left _ _))

class Facts : Prop extends Facts₀ where

variable [Facts]
-- ==== ReferenceIdeal.lean ====
abbrev S32x2048x64 : Shape := ⟨3, ![32, 2048, 64]⟩
abbrev S4x2048 : Shape := ⟨2, ![4, 2048]⟩
abbrev S32x2048x2048 : Shape := ⟨3, ![32, 2048, 2048]⟩
abbrev S_ : Shape := ⟨0, ![]⟩
abbrev S1x4x1x2048 : Shape := ⟨4, ![1, 4, 1, 2048]⟩
abbrev S8x4x1x2048 : Shape := ⟨4, ![8, 4, 1, 2048]⟩
abbrev S32x2048 : Shape := ⟨2, ![32, 2048]⟩
abbrev S32x1x2048 : Shape := ⟨3, ![32, 1, 2048]⟩
abbrev S2048x2048 : Shape := ⟨2, ![2048, 2048]⟩
abbrev S32x2048x1 : Shape := ⟨3, ![32, 2048, 1]⟩

abbrev nBuf : Space → Nat
  | .hbm => 51
  | .vmem => 0
  | .smem => 0
  | _ => 0

abbrev bufTy : (tb : Table) → Fin (tcTables nBuf tb) → BufTy
  | .hbm, ⟨0, _⟩ => ⟨S32x2048x64, .f32⟩
  | .hbm, ⟨1, _⟩ => ⟨S32x2048x64, .f32⟩
  | .hbm, ⟨2, _⟩ => ⟨S32x2048x64, .f32⟩
  | .hbm, ⟨3, _⟩ => ⟨S4x2048, .i32⟩
  | .hbm, ⟨4, _⟩ => ⟨S32x2048x2048, .f32⟩
  | .hbm, ⟨5, _⟩ => ⟨S_, .f32⟩
  | .hbm, ⟨6, _⟩ => ⟨S32x2048x2048, .f32⟩
  | .hbm, ⟨7, _⟩ => ⟨S32x2048x2048, .f32⟩
  | .hbm, ⟨8, _⟩ => ⟨S4x2048, .f32⟩
  | .hbm, ⟨9, _⟩ => ⟨S1x4x1x2048, .f32⟩
  | .hbm, ⟨10, _⟩ => ⟨S8x4x1x2048, .f32⟩
  | .hbm, ⟨11, _⟩ => ⟨S32x2048, .f32⟩
  | .hbm, ⟨12, _⟩ => ⟨S32x1x2048, .f32⟩
  | .hbm, ⟨13, _⟩ => ⟨S_, .f32⟩
  | .hbm, ⟨14, _⟩ => ⟨S32x1x2048, .f32⟩
  | .hbm, ⟨15, _⟩ => ⟨S32x1x2048, .f32⟩
  | .hbm, ⟨16, _⟩ => ⟨S32x2048x2048, .f32⟩
  | .hbm, ⟨17, _⟩ => ⟨S32x2048x2048, .f32⟩
  | .hbm, ⟨18, _⟩ => ⟨S_, .f32⟩
  | .hbm, ⟨19, _⟩ => ⟨S2048x2048, .f32⟩
  | .hbm, ⟨20, _⟩ => ⟨S2048x2048, .i32⟩
  | .hbm, ⟨21, _⟩ => ⟨S_, .i32⟩
  | .hbm, ⟨22, _⟩ => ⟨S2048x2048, .i32⟩
  | .hbm, ⟨23, _⟩ => ⟨S2048x2048, .i32⟩
  | .hbm, ⟨24, _⟩ => ⟨S2048x2048, .i32⟩
  | .hbm, ⟨25, _⟩ => ⟨S2048x2048, .i1⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048x2048, .f32⟩
  | .hbm, ⟨31, _⟩ => ⟨S2048x2048, .i1⟩
  | .hbm, ⟨32, _⟩ => ⟨S_, .f32⟩
  | .hbm, ⟨33, _⟩ => ⟨S32x2048x2048, .i1⟩
  | .hbm, ⟨34, _⟩ => ⟨S32x2048x2048, .f32⟩
  | .hbm, ⟨35, _⟩ => ⟨S32x2048x2048, .f32⟩
  | .hbm, ⟨36, _⟩ => ⟨S_, .f32⟩
  | .hbm, ⟨37, _⟩ => ⟨S32x2048, .f32⟩
  | .hbm, ⟨38, _⟩ => ⟨S_, .f32⟩
  | .hbm, ⟨39, _⟩ => ⟨S32x2048, .f32⟩
  | .hbm, ⟨40, _⟩ => ⟨S32x2048, .f32⟩
  | .hbm, ⟨41, _⟩ => ⟨S32x2048x1, .f32⟩
  | .hbm, ⟨42, _⟩ => ⟨S32x2048x2048, .f32⟩
  | .hbm, ⟨43, _⟩ => ⟨S32x2048x2048, .f32⟩
  | .hbm, ⟨44, _⟩ => ⟨S32x2048x2048, .f32⟩
  | .hbm, ⟨45, _⟩ => ⟨S_, .f32⟩
  | .hbm, ⟨46, _⟩ => ⟨S32x2048, .f32⟩
  | .hbm, ⟨47, _⟩ => ⟨S32x2048x1, .f32⟩
  | .hbm, ⟨48, _⟩ => ⟨S32x2048x2048, .f32⟩
  | .hbm, ⟨49, _⟩ => ⟨S32x2048x2048, .f32⟩
  | .hbm, ⟨50, _⟩ => ⟨S32x2048x64, .f32⟩
  | _, _ => ⟨S32x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_call0_v0 : Ref sig .tc := ⟨.hbm, 20, rfl⟩
abbrev main_call0_c : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_cst : Ref sig .tc := ⟨.hbm, 26, rfl⟩
abbrev main_call0_v5 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_call1_v0 : Ref sig .tc := ⟨.hbm, 33, rfl⟩
abbrev main_call1_v1 : Ref sig .tc := ⟨.hbm, 34, rfl⟩
abbrev main_v16 : Ref sig .tc := ⟨.hbm, 35, rfl⟩
abbrev main_cst_4 : Ref sig .tc := ⟨.hbm, 36, rfl⟩
abbrev main_v17 : Ref sig .tc := ⟨.hbm, 37, rfl⟩
abbrev main_cst_5 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_6 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩

abbrev nD : Nat := 1
abbrev τ : Topo := Topo.v7x

variable {F : FTy → Type} [FloatOps F]

class Facts₀ : Prop where
  bcast_S_S32x2048x2048 : S_.BroadcastsInDim S32x2048x2048 (![] : Fin 0 → Fin S32x2048x2048.rank)
  shapeCasts_S4x2048_S1x4x1x2048 : S4x2048.ShapeCasts S1x4x1x2048
  bcast_S1x4x1x2048_S8x4x1x2048_0_1_2_3 : S1x4x1x2048.BroadcastsInDim S8x4x1x2048 (![0, 1, 2, 3] : Fin 4 → Fin S8x4x1x2048.rank)
  shapeCasts_S8x4x1x2048_S32x2048 : S8x4x1x2048.ShapeCasts S32x2048
  bcast_S32x2048_S32x1x2048_0_2 : S32x2048.BroadcastsInDim S32x1x2048 (![0, 2] : Fin 2 → Fin S32x1x2048.rank)
  bcast_S_S32x1x2048 : S_.BroadcastsInDim S32x1x2048 (![] : Fin 0 → Fin S32x1x2048.rank)
  bcast_S32x1x2048_S32x2048x2048_0_1_2 : S32x1x2048.BroadcastsInDim S32x2048x2048 (![0, 1, 2] : Fin 3 → Fin S32x2048x2048.rank)
  bcast_S_S2048x2048 : S_.BroadcastsInDim S2048x2048 (![] : Fin 0 → Fin S2048x2048.rank)
  bcast_S2048x2048_S32x2048x2048_1_2 : S2048x2048.BroadcastsInDim S32x2048x2048 (![1, 2] : Fin 2 → Fin S32x2048x2048.rank)
  reducesTo_S32x2048x2048_S32x2048_d2 : S32x2048x2048.ReducesTo [2] S32x2048
  h_S_ : 0 < S_.numel
  bcast_S_S32x2048 : S_.BroadcastsInDim S32x2048 (![] : Fin 0 → Fin S32x2048.rank)
  bcast_S32x2048_S32x2048x1_0_1 : S32x2048.BroadcastsInDim S32x2048x1 (![0, 1] : Fin 2 → Fin S32x2048x1.rank)
  bcast_S32x2048x1_S32x2048x2048_0_1_2 : S32x2048x1.BroadcastsInDim S32x2048x2048 (![0, 1, 2] : Fin 3 → Fin S32x2048x2048.rank)
  dot_S32x2048x64_S32x2048x64_S32x2048x2048_2_2_1_1_0_0_wf : DotDims.WF S32x2048x64 S32x2048x64 S32x2048x2048 [2] [2] [1] [1] [0] [0]
  dot_S32x2048x2048_S32x2048x64_S32x2048x64_2_1_1_2_0_0_wf : DotDims.WF S32x2048x2048 S32x2048x64 S32x2048x64 [2] [1] [1] [2] [0] [0]

variable [Facts₀]

def dot_S32x2048x64_S32x2048x64_S32x2048x2048_2_2_1_1_0_0 : DotDims S32x2048x64 S32x2048x64 S32x2048x2048 where
  lhsContracting := [2]
  rhsContracting := [2]
  lhsNonContracting := [1]
  rhsNonContracting := [1]
  lhsBatch := [0]
  rhsBatch := [0]
  wf := dot_S32x2048x64_S32x2048x64_S32x2048x2048_2_2_1_1_0_0_wf
def dot_S32x2048x2048_S32x2048x64_S32x2048x64_2_1_1_2_0_0 : DotDims S32x2048x2048 S32x2048x64 S32x2048x64 where
  lhsContracting := [2]
  rhsContracting := [1]
  lhsNonContracting := [1]
  rhsNonContracting := [2]
  lhsBatch := [0]
  rhsBatch := [0]
  wf := dot_S32x2048x2048_S32x2048x64_S32x2048x64_2_1_1_2_0_0_wf

class Facts : Prop extends Facts₀ where

variable [Facts]
-- ==== Proof.KernelRuns.lean ====
/- The attention kernel's body, case by case: what the five control cases of its four conditionals are over the
   grid (32 heads, 4 query tiles, 4 key tiles; point t = 16·head + 4·qtile + ktile), where the output window is
   idle, and the names of the staging and scratch memrefs the per-case runs are stated over.
   First key tile (ktile = 0): the running maximum, denominator and accumulator are reset and the query tile is
   kept; a key tile is "active" when it meets the causal triangle of the query tile (ktile ≤ qtile) and is otherwise
   wholly in the causal future; the output is written at the last key tile (ktile = 3). -/
import proofs.«425486_j403726926205_3_alg».proof.Proof.Gen.Kernel.Frame
import proofs.«425486_j403726926205_3_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's four conditions, from the grid coordinates -/

/-- First key tile: `ktile = 0`. -/
abbrev cond0_0 (i : grid0.Coords) : Prop := (Scalar.cmpi .ne (Scalar.extui (Scalar.cmpi .eq (BitVec.ofNat 32 (i 2).val) 0#32)) 0#32) = 1#1
/-- The key tile meets the causal triangle: `512·ktile < 512·(qtile + 1)`. -/
abbrev cond0_1 (i : grid0.Coords) : Prop := (Scalar.cmpi .ne (Scalar.extui (Scalar.cmpi .slt (Scalar.muli (BitVec.ofNat 32 (i 2).val) 512#32) (Scalar.muli (Scalar.addi (BitVec.ofNat 32 (i 1).val) 1#32) 512#32))) 0#32) = 1#1
/-- The key tile lies wholly in the causal future: the negation of the comparison above. -/
abbrev cond0_2 (i : grid0.Coords) : Prop := (Scalar.cmpi .ne (Scalar.extui (Scalar.xori (Scalar.cmpi .slt (Scalar.muli (BitVec.ofNat 32 (i 2).val) 512#32) (Scalar.muli (Scalar.addi (BitVec.ofNat 32 (i 1).val) 1#32) 512#32)) 1#1)) 0#32) = 1#1
/-- Last key tile: `ktile = 3`. -/
abbrev cond0_3 (i : grid0.Coords) : Prop := k0_cond4 i = 1#1

theorem hcond0_0 : ∀ t : Fin cfg0.N, cond0_0 (grid0.coords t) ↔ t.val % 4 = 0 :=
  (by decide +kernel : ∀ t : Fin grid0.N, cond0_0 (grid0.coords t) ↔ t.val % 4 = 0)
theorem hcond0_1 : ∀ t : Fin cfg0.N, cond0_1 (grid0.coords t) ↔ t.val % 4 ≤ t.val / 4 % 4 :=
  (by decide +kernel : ∀ t : Fin grid0.N, cond0_1 (grid0.coords t) ↔ t.val % 4 ≤ t.val / 4 % 4)
theorem hcond0_2 : ∀ t : Fin cfg0.N, cond0_2 (grid0.coords t) ↔ ¬ t.val % 4 ≤ t.val / 4 % 4 :=
  (by decide +kernel : ∀ t : Fin grid0.N, cond0_2 (grid0.coords t) ↔ ¬ t.val % 4 ≤ t.val / 4 % 4)
theorem hcond0_3 : ∀ t : Fin cfg0.N, cond0_3 (grid0.coords t) ↔ t.val % 4 = 3 :=
  (by decide +kernel : ∀ t : Fin grid0.N, cond0_3 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last key tile nothing is stored into the output window: it is idle and not written back. -/
theorem idleAt0_4 : ∀ t : Fin cfg0.N, ¬cond0_3 (grid0.coords t) → cfg0.idle 4 (grid0.coords t) = true := by decide +kernel
theorem noFlush0_4 : ∀ t : Fin cfg0.N, ¬cond0_3 (grid0.coords t) → (cfg0.win 4).flush t = false := by decide +kernel
/-- At the last key tile the output window is live. -/
theorem liveAt0_4 : ∀ t : Fin cfg0.N, cond0_3 (grid0.coords t) → cfg0.idle 4 (grid0.coords t) = false := by decide +kernel

/-! ## The memrefs the runs are stated over -/

abbrev VO0_4 : View sig .tc .vmem S1x512x64 .f32 := (Memref.whole cc0_stg4_0 : Memref sig .tc .vmem S1x512x64 .f32).view
abbrev ms0_0 (t : Fin cfg0.N) : Memref sig .tc .vmem S1x512x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512x64 .f32 := win0_4.stage (cfg0.slots t 4)
abbrev hs0_4 (t : Fin cfg0.N) : (ms0_4 t).IsWhole := hstage0_4 ((cfg0.slots t 4).cast nbuf0_4)
/-- The four scratch operands: the running maximum, the running denominator, the accumulator, the kept query tile. -/
abbrev scM0_0 : Memref sig .tc .vmem S512x1 .f32 := Memref.whole cc0_scratch0
abbrev scM0_1 : Memref sig .tc .vmem S512x1 .f32 := Memref.whole cc0_scratch1
abbrev scM0_2 : Memref sig .tc .vmem S512x64 .f32 := Memref.whole cc0_scratch2
abbrev scM0_3 : Memref sig .tc .vmem S512x64 .bf16 := Memref.whole cc0_scratch3
abbrev VS0_0 : View sig .tc .vmem S512x1 .f32 := scM0_0.view
abbrev VS0_1 : View sig .tc .vmem S512x1 .f32 := scM0_1.view
abbrev VS0_2 : View sig .tc .vmem S512x64 .f32 := scM0_2.view
abbrev VS0_3 : View sig .tc .vmem S512x64 .bf16 := scM0_3.view

/-- The class invariant with the four scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Gen

end
-- ==== Proof.KernelRunA.lean ====
/- The body's run at the first key tile (ktile = 0): the running maximum is reset to −∞, the denominator and the accumulator to 0, the query tile is kept, and then the active-tile update runs; nothing is stored into the output window. What each scratch buffer ends with is found by the run as a list of stored pieces. -/
import proofs.«425486_j403726926205_3_alg».proof.Proof.KernelRuns

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg3 : Memref sig .tc .vmem S1x512x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x1x512 .f32) (harg6 : arg6.IsWhole) (arg7 : Memref sig .tc .vmem S1x512x64 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x64 .bf16) (harg11 : arg11.IsWhole) (hc0 : cond0_0 i) (hc1 : cond0_1 i) (hc2 : ¬cond0_2 i) (hc3 : ¬cond0_3 i)
    (x0 : Vec F S1x512x64 .f32) (x1 : Vec F S1x512x64 .f32) (x2 : Vec F S1x512x64 .f32) (x3 : Vec F S1x1x512 .f32) :
    Σ' (LS0 : List (View.Piece (Elt F) S512x1 .f32)) (LS1 : List (View.Piece (Elt F) S512x1 .f32)) (LS2 : List (View.Piece (Elt F) S512x64 .f32)), { LS3 : List (View.Piece (Elt F) S512x64 .bf16) //
      ∀ (xi4 : Vec F S1x512x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
            ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc0__attn_kernel i arg3 harg3 arg4 harg4 arg5 harg5 arg6 harg6 arg7 harg7 arg8 harg8 arg9 harg9 arg10 harg10 arg11 harg11) K } := by
  refine ⟨?_, ?_, ?_, ?_, fun xi4 E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    isplitl [HS2]; · iexists _; iexact HS2
    iexists _; iexact HS3

end Cert.Kernel.Gen

end
-- ==== Proof.KernelRunB.lean ====
/- The body's run at a later key tile that meets the causal triangle (0 < ktile ≤ qtile, ktile < 3): the active-tile update of the running maximum, denominator and accumulator from what the tile before left; the kept query tile is read and left as it was; nothing is stored into the output window. -/
import proofs.«425486_j403726926205_3_alg».proof.Proof.KernelRunA

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg3 : Memref sig .tc .vmem S1x512x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x1x512 .f32) (harg6 : arg6.IsWhole) (arg7 : Memref sig .tc .vmem S1x512x64 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x64 .bf16) (harg11 : arg11.IsWhole) (hc0 : ¬cond0_0 i) (hc1 : cond0_1 i) (hc2 : ¬cond0_2 i) (hc3 : ¬cond0_3 i)
    (x0 : Vec F S1x512x64 .f32) (x1 : Vec F S1x512x64 .f32) (x2 : Vec F S1x512x64 .f32) (x3 : Vec F S1x1x512 .f32) (xs0 : Vec F S512x1 .f32) (xs1 : Vec F S512x1 .f32) (xs2 : Vec F S512x64 .f32) (xs3 : Vec F S512x64 .bf16) :
    Σ' (LS0 : List (View.Piece (Elt F) S512x1 .f32)) (LS1 : List (View.Piece (Elt F) S512x1 .f32)), { LS2 : List (View.Piece (Elt F) S512x64 .f32) //
      ∀ (xi4 : Vec F S1x512x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
            ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ owns (c : Thread nD τ) arg11 fullShare xs3) -∗ K ⟨⟩))
          ⊢ wp frame (wpE (defs₀ (F := F)) Variants.none c none) E (cc0__attn_kernel i arg3 harg3 arg4 harg4 arg5 harg5 arg6 harg6 arg7 harg7 arg8 harg8 arg9 harg9 arg10 harg10 arg11 harg11) K } := by
  refine ⟨?_, ?_, ?_, fun xi4 E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4
    obtain rfl := harg8.eq_unread hfs0; obtain rfl := harg9.eq_unread hfs1; obtain rfl := harg10.eq_unread hfs2; obtain rfl := harg11.eq_unread hfs3
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    isplitl [HS2]; · iexists _; iexact HS2
    iexists _; isplitr; · ipureintro; exact harg11.read_unread _
    iexact HS3

end Cert.Kernel.Gen

end
-- ==== Proof.KernelRunC.lean ====
/- The body's run at a key tile wholly in the causal future (qtile < ktile < 3): the closed-form update that folds 512 scores equal to the masking constant into the running maximum, denominator and accumulator; nothing is stored into the output window. -/
import proofs.«425486_j403726926205_3_alg».proof.Proof.KernelRunB

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg3 : Memref sig .tc .vmem S1x512x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x1x512 .f32) (harg6 : arg6.IsWhole) (arg7 : Memref sig .tc .vmem S1x512x64 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x64 .bf16) (harg11 : arg11.IsWhole) (hc0 : ¬cond0_0 i) (hc1 : ¬cond0_1 i) (hc2 : cond0_2 i) (hc3 : ¬cond0_3 i)
    (x0 : Vec F S1x512x64 .f32) (x1 : Vec F S1x512x64 .f32) (x2 : Vec F S1x512x64 .f32) (x3 : Vec F S1x1x512 .f32) (xs0 : Vec F S512x1 .f32) (xs1 : Vec F S512x1 .f32) (xs2 : Vec F S512x64 .f32) (xs3 : Vec F S512x64 .bf16) :
    Σ' (LS0 : List (View.Piece (Elt F) S512x1 .f32)) (LS1 : List (View.Piece (Elt F) S512x1 .f32)), { LS2 : List (View.Piece (Elt F) S512x64 .f32) //
      ∀ (xi4 : Vec F S1x512x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
            ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ owns (c : Thread nD τ) arg11 fullShare xs3) -∗ K ⟨⟩))
          ⊢ wp frame (wpE (defs₀ (F := F)) Variants.none c none) E (cc0__attn_kernel i arg3 harg3 arg4 harg4 arg5 harg5 arg6 harg6 arg7 harg7 arg8 harg8 arg9 harg9 arg10 harg10 arg11 harg11) K } := by
  refine ⟨?_, ?_, ?_, fun xi4 E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4
    obtain rfl := harg8.eq_unread hfs0; obtain rfl := harg9.eq_unread hfs1; obtain rfl := harg10.eq_unread hfs2; obtain rfl := harg11.eq_unread hfs3
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    isplitl [HS2]; · iexists _; iexact HS2
    iexists _; isplitr; · ipureintro; exact harg11.read_unread _
    iexact HS3

end Cert.Kernel.Gen

end
-- ==== Proof.KernelRunD.lean ====
/- The body's run at the last key tile when it meets the causal triangle (ktile = qtile = 3): the active-tile update, then the output block stored as accumulator / denominator. -/
import proofs.«425486_j403726926205_3_alg».proof.Proof.KernelRunC

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_D (c : Dev nD) (i : grid0.Coords) (arg3 : Memref sig .tc .vmem S1x512x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x1x512 .f32) (harg6 : arg6.IsWhole) (arg7 : Memref sig .tc .vmem S1x512x64 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x64 .bf16) (harg11 : arg11.IsWhole) (hc0 : ¬cond0_0 i) (hc1 : cond0_1 i) (hc2 : ¬cond0_2 i) (hc3 : cond0_3 i)
    (x0 : Vec F S1x512x64 .f32) (x1 : Vec F S1x512x64 .f32) (x2 : Vec F S1x512x64 .f32) (x3 : Vec F S1x1x512 .f32) (xs0 : Vec F S512x1 .f32) (xs1 : Vec F S512x1 .f32) (xs2 : Vec F S512x64 .f32) (xs3 : Vec F S512x64 .bf16) :
    Σ' (L4 : List (View.Piece (Elt F) S1x512x64 .f32)) (LS0 : List (View.Piece (Elt F) S512x1 .f32)) (LS1 : List (View.Piece (Elt F) S512x1 .f32)), { LS2 : List (View.Piece (Elt F) S512x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
            ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ owns (c : Thread nD τ) arg11 fullShare xs3) -∗ K ⟨⟩))
          ⊢ wp frame (wpE (defs₀ (F := F)) Variants.none c none) E (cc0__attn_kernel i arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3
    obtain rfl := harg8.eq_unread hfs0; obtain rfl := harg9.eq_unread hfs1; obtain rfl := harg10.eq_unread hfs2; obtain rfl := harg11.eq_unread hfs3
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]; · iexists _; iexact HS0
    isplitl [HS1]; · iexists _; iexact HS1
    isplitl [HS2]; · iexists _; iexact HS2
    iexists _; isplitr; · ipureintro; exact harg11.read_unread _
    iexact HS3

end Cert.Kernel.Gen

end
-- ==== Proof.KernelRunE.lean ====
/- The body's run at the last key tile when it lies in the causal future (ktile = 3 > qtile): the closed-form update, then the output block stored as accumulator / denominator. -/
import proofs.«425486_j403726926205_3_alg».proof.Proof.KernelRunD

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_E (c : Dev nD) (i : grid0.Coords) (arg3 : Memref sig .tc .vmem S1x512x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x1x512 .f32) (harg6 : arg6.IsWhole) (arg7 : Memref sig .tc .vmem S1x512x64 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x64 .bf16) (harg11 : arg11.IsWhole) (hc0 : ¬cond0_0 i) (hc1 : ¬cond0_1 i) (hc2 : cond0_2 i) (hc3 : cond0_3 i)
    (x0 : Vec F S1x512x64 .f32) (x1 : Vec F S1x512x64 .f32) (x2 : Vec F S1x512x64 .f32) (x3 : Vec F S1x1x512 .f32) (xs0 : Vec F S512x1 .f32) (xs1 : Vec F S512x1 .f32) (xs2 : Vec F S512x64 .f32) (xs3 : Vec F S512x64 .bf16) :
    Σ' (L4 : List (View.Piece (Elt F) S1x512x64 .f32)) (LS0 : List (View.Piece (Elt F) S512x1 .f32)) (LS1 : List (View.Piece (Elt F) S512x1 .f32)), { LS2 : List (View.Piece (Elt F) S512x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
            ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ owns (c : Thread nD τ) arg11 fullShare xs3) -∗ K ⟨⟩))
          ⊢ wp frame (wpE (defs₀ (F := F)) Variants.none c none) E (cc0__attn_kernel i arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3
    obtain rfl := harg8.eq_unread hfs0; obtain rfl := harg9.eq_unread hfs1; obtain rfl := harg10.eq_unread hfs2; obtain rfl := harg11.eq_unread hfs3
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]; · iexists _; iexact HS0
    isplitl [HS1]; · iexists _; iexact HS1
    isplitl [HS2]; · iexists _; iexact HS2
    iexists _; isplitr; · ipureintro; exact harg11.read_unread _
    iexact HS3

end Cert.Kernel.Gen

end
-- ==== Proof.KernelState.lean ====
/- What the attention kernel's body leaves behind, point by point. After the body at a grid point the output window's
   staging buffer and the four scratch buffers (running maximum, running denominator, accumulator, kept query tile)
   hold what the point's control case stored — read back from the pieces its run found — the later cases starting
   from what the point before left in the scratch. `outsAt0` is that recursion over the points, `dats` the pipeline's
   proof data built on it, `PhiS` the region invariant that carries the scratch contents from one point to the next. -/
import proofs.«425486_j403726926205_3_alg».proof.Proof.KernelRunE

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The control case of a point, from the closed forms -/

theorem cA1 (t : Fin cfg0.N) (h0 : t.val % 4 = 0) : cond0_1 (grid0.coords t) := (hcond0_1 t).mpr (by omega)
theorem cA2 (t : Fin cfg0.N) (h0 : t.val % 4 = 0) : ¬cond0_2 (grid0.coords t) := fun h => (hcond0_2 t).mp h (by omega)
theorem cA3 (t : Fin cfg0.N) (h0 : t.val % 4 = 0) : ¬cond0_3 (grid0.coords t) := fun h => by have := (hcond0_3 t).mp h; omega
theorem cN0 (t : Fin cfg0.N) (h0 : ¬t.val % 4 = 0) : ¬cond0_0 (grid0.coords t) := fun h => h0 ((hcond0_0 t).mp h)
theorem cP1 (t : Fin cfg0.N) (h1 : t.val % 4 ≤ t.val / 4 % 4) : cond0_1 (grid0.coords t) := (hcond0_1 t).mpr h1
theorem cN2 (t : Fin cfg0.N) (h1 : t.val % 4 ≤ t.val / 4 % 4) : ¬cond0_2 (grid0.coords t) := fun h => (hcond0_2 t).mp h h1
theorem cN1 (t : Fin cfg0.N) (h1 : ¬t.val % 4 ≤ t.val / 4 % 4) : ¬cond0_1 (grid0.coords t) := fun h => h1 ((hcond0_1 t).mp h)
theorem cP2 (t : Fin cfg0.N) (h1 : ¬t.val % 4 ≤ t.val / 4 % 4) : cond0_2 (grid0.coords t) := (hcond0_2 t).mpr h1
theorem cP3 (t : Fin cfg0.N) (h3 : t.val % 4 = 3) : cond0_3 (grid0.coords t) := (hcond0_3 t).mpr h3
theorem cN3 (t : Fin cfg0.N) (h3 : ¬t.val % 4 = 3) : ¬cond0_3 (grid0.coords t) := fun h => h3 ((hcond0_3 t).mp h)

/-! ## What a point leaves: the output's staging buffer and the four scratch buffers -/

/-- The output window's staging buffer and the scratch buffers after the body at a point. -/
structure St (F : FTy → Type) [FloatOps F] where
  o : Vec F S1x512x64 .f32
  sm : Vec F S512x1 .f32
  sl : Vec F S512x1 .f32
  sa : Vec F S512x64 .f32
  sq : Vec F S512x64 .bf16

/-- Stored pieces read back, buffer by buffer. -/
abbrev rbO (L : List (View.Piece (Elt F) S1x512x64 .f32)) : Vec F S1x512x64 .f32 := VO0_4.read (Elt F) (VO0_4.writes (Elt F) VO0_4.junk L)
abbrev rb0 (L : List (View.Piece (Elt F) S512x1 .f32)) : Vec F S512x1 .f32 := VS0_0.read (Elt F) (VS0_0.writes (Elt F) VS0_0.junk L)
abbrev rb1 (L : List (View.Piece (Elt F) S512x1 .f32)) : Vec F S512x1 .f32 := VS0_1.read (Elt F) (VS0_1.writes (Elt F) VS0_1.junk L)
abbrev rb2 (L : List (View.Piece (Elt F) S512x64 .f32)) : Vec F S512x64 .f32 := VS0_2.read (Elt F) (VS0_2.writes (Elt F) VS0_2.junk L)
abbrev rb3 (L : List (View.Piece (Elt F) S512x64 .bf16)) : Vec F S512x64 .bf16 := VS0_3.read (Elt F) (VS0_3.writes (Elt F) VS0_3.junk L)

/-- The five runs at a point's memrefs and input blocks. -/
abbrev runA (c : Dev nD) (t : Fin cfg0.N) (h0 : t.val % 4 = 0) :=
  kernelRun0_A (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (cA1 t h0) (cA2 t h0) (cA3 t h0) (iblk m c 0 t) (iblk m c 1 t) (iblk m c 2 t) (iblk m c 3 t)
abbrev runB (c : Dev nD) (t : Fin cfg0.N) (h0 : ¬t.val % 4 = 0) (h1 : t.val % 4 ≤ t.val / 4 % 4) (h3 : ¬t.val % 4 = 3) (s : St F) :=
  kernelRun0_B (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (cN0 t h0) (cP1 t h1) (cN2 t h1) (cN3 t h3) (iblk m c 0 t) (iblk m c 1 t) (iblk m c 2 t) (iblk m c 3 t) s.sm s.sl s.sa s.sq
abbrev runC (c : Dev nD) (t : Fin cfg0.N) (h0 : ¬t.val % 4 = 0) (h1 : ¬t.val % 4 ≤ t.val / 4 % 4) (h3 : ¬t.val % 4 = 3) (s : St F) :=
  kernelRun0_C (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (cN0 t h0) (cN1 t h1) (cP2 t h1) (cN3 t h3) (iblk m c 0 t) (iblk m c 1 t) (iblk m c 2 t) (iblk m c 3 t) s.sm s.sl s.sa s.sq
abbrev runD (c : Dev nD) (t : Fin cfg0.N) (h0 : ¬t.val % 4 = 0) (h1 : t.val % 4 ≤ t.val / 4 % 4) (h3 : t.val % 4 = 3) (s : St F) :=
  kernelRun0_D (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (cN0 t h0) (cP1 t h1) (cN2 t h1) (cP3 t h3) (iblk m c 0 t) (iblk m c 1 t) (iblk m c 2 t) (iblk m c 3 t) s.sm s.sl s.sa s.sq
abbrev runE (c : Dev nD) (t : Fin cfg0.N) (h0 : ¬t.val % 4 = 0) (h1 : ¬t.val % 4 ≤ t.val / 4 % 4) (h3 : t.val % 4 = 3) (s : St F) :=
  kernelRun0_E (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (cN0 t h0) (cN1 t h1) (cP2 t h1) (cP3 t h3) (iblk m c 0 t) (iblk m c 1 t) (iblk m c 2 t) (iblk m c 3 t) s.sm s.sl s.sa s.sq

/-- First key tile: every scratch buffer is stored whole; the output window is left alone (a placeholder nothing consults). -/
def stA (c : Dev nD) (t : Fin cfg0.N) (h0 : t.val % 4 = 0) : St F :=
  ⟨rbO [], rb0 (runA m c t h0).1, rb1 (runA m c t h0).2.1, rb2 (runA m c t h0).2.2.1, rb3 (runA m c t h0).2.2.2.1⟩
/-- A later active key tile: maximum, denominator and accumulator updated; the kept query tile stays. -/
def stB (c : Dev nD) (t : Fin cfg0.N) (h0 : ¬t.val % 4 = 0) (h1 : t.val % 4 ≤ t.val / 4 % 4) (h3 : ¬t.val % 4 = 3) (s : St F) : St F :=
  ⟨rbO [], rb0 (runB m c t h0 h1 h3 s).1, rb1 (runB m c t h0 h1 h3 s).2.1, rb2 (runB m c t h0 h1 h3 s).2.2.1, s.sq⟩
/-- A key tile in the causal future: the closed-form update. -/
def stC (c : Dev nD) (t : Fin cfg0.N) (h0 : ¬t.val % 4 = 0) (h1 : ¬t.val % 4 ≤ t.val / 4 % 4) (h3 : ¬t.val % 4 = 3) (s : St F) : St F :=
  ⟨rbO [], rb0 (runC m c t h0 h1 h3 s).1, rb1 (runC m c t h0 h1 h3 s).2.1, rb2 (runC m c t h0 h1 h3 s).2.2.1, s.sq⟩
/-- The last key tile, active: the update, then the output block. -/
def stD (c : Dev nD) (t : Fin cfg0.N) (h0 : ¬t.val % 4 = 0) (h1 : t.val % 4 ≤ t.val / 4 % 4) (h3 : t.val % 4 = 3) (s : St F) : St F :=
  ⟨rbO (runD m c t h0 h1 h3 s).1, rb0 (runD m c t h0 h1 h3 s).2.1, rb1 (runD m c t h0 h1 h3 s).2.2.1, rb2 (runD m c t h0 h1 h3 s).2.2.2.1, s.sq⟩
/-- The last key tile, in the causal future: the closed-form update, then the output block. -/
def stE (c : Dev nD) (t : Fin cfg0.N) (h0 : ¬t.val % 4 = 0) (h1 : ¬t.val % 4 ≤ t.val / 4 % 4) (h3 : t.val % 4 = 3) (s : St F) : St F :=
  ⟨rbO (runE m c t h0 h1 h3 s).1, rb0 (runE m c t h0 h1 h3 s).2.1, rb1 (runE m c t h0 h1 h3 s).2.2.1, rb2 (runE m c t h0 h1 h3 s).2.2.2.1, s.sq⟩

/-! ## Each case's stored pieces cover the buffer they were stored into -/

theorem covA0 (c : Dev nD) (t : Fin cfg0.N) (h0 : t.val % 4 = 0) (y : S512x1.Idx) : ∃ pc ∈ (runA m c t h0).1, y ∈ pc.1.set :=
  View.cover_of_tiledL (runA m c t h0).1 S512x1.size (by sl_kernel_rfl) y
theorem covA1 (c : Dev nD) (t : Fin cfg0.N) (h0 : t.val % 4 = 0) (y : S512x1.Idx) : ∃ pc ∈ (runA m c t h0).2.1, y ∈ pc.1.set :=
  View.cover_of_tiledL (runA m c t h0).2.1 S512x1.size (by sl_kernel_rfl) y
theorem covA2 (c : Dev nD) (t : Fin cfg0.N) (h0 : t.val % 4 = 0) (y : S512x64.Idx) : ∃ pc ∈ (runA m c t h0).2.2.1, y ∈ pc.1.set :=
  View.cover_of_tiledL (runA m c t h0).2.2.1 S512x64.size (by sl_kernel_rfl) y
theorem covA3 (c : Dev nD) (t : Fin cfg0.N) (h0 : t.val % 4 = 0) (y : S512x64.Idx) : ∃ pc ∈ (runA m c t h0).2.2.2.1, y ∈ pc.1.set :=
  View.cover_of_tiledL (runA m c t h0).2.2.2.1 S512x64.size (by sl_kernel_rfl) y
theorem covB0 (c : Dev nD) (t : Fin cfg0.N) (h0 : ¬t.val % 4 = 0) (h1 : t.val % 4 ≤ t.val / 4 % 4) (h3 : ¬t.val % 4 = 3) (s : St F) (y : S512x1.Idx) : ∃ pc ∈ (runB m c t h0 h1 h3 s).1, y ∈ pc.1.set :=
  View.cover_of_tiledL (runB m c t h0 h1 h3 s).1 S512x1.size (by sl_kernel_rfl) y
theorem covB1 (c : Dev nD) (t : Fin cfg0.N) (h0 : ¬t.val % 4 = 0) (h1 : t.val % 4 ≤ t.val / 4 % 4) (h3 : ¬t.val % 4 = 3) (s : St F) (y : S512x1.Idx) : ∃ pc ∈ (runB m c t h0 h1 h3 s).2.1, y ∈ pc.1.set :=
  View.cover_of_tiledL (runB m c t h0 h1 h3 s).2.1 S512x1.size (by sl_kernel_rfl) y
theorem covB2 (c : Dev nD) (t : Fin cfg0.N) (h0 : ¬t.val % 4 = 0) (h1 : t.val % 4 ≤ t.val / 4 % 4) (h3 : ¬t.val % 4 = 3) (s : St F) (y : S512x64.Idx) : ∃ pc ∈ (runB m c t h0 h1 h3 s).2.2.1, y ∈ pc.1.set :=
  View.cover_of_tiledL (runB m c t h0 h1 h3 s).2.2.1 S512x64.size (by sl_kernel_rfl) y
theorem covC0 (c : Dev nD) (t : Fin cfg0.N) (h0 : ¬t.val % 4 = 0) (h1 : ¬t.val % 4 ≤ t.val / 4 % 4) (h3 : ¬t.val % 4 = 3) (s : St F) (y : S512x1.Idx) : ∃ pc ∈ (runC m c t h0 h1 h3 s).1, y ∈ pc.1.set :=
  View.cover_of_tiledL (runC m c t h0 h1 h3 s).1 S512x1.size (by sl_kernel_rfl) y
theorem covC1 (c : Dev nD) (t : Fin cfg0.N) (h0 : ¬t.val % 4 = 0) (h1 : ¬t.val % 4 ≤ t.val / 4 % 4) (h3 : ¬t.val % 4 = 3) (s : St F) (y : S512x1.Idx) : ∃ pc ∈ (runC m c t h0 h1 h3 s).2.1, y ∈ pc.1.set :=
  View.cover_of_tiledL (runC m c t h0 h1 h3 s).2.1 S512x1.size (by sl_kernel_rfl) y
theorem covC2 (c : Dev nD) (t : Fin cfg0.N) (h0 : ¬t.val % 4 = 0) (h1 : ¬t.val % 4 ≤ t.val / 4 % 4) (h3 : ¬t.val % 4 = 3) (s : St F) (y : S512x64.Idx) : ∃ pc ∈ (runC m c t h0 h1 h3 s).2.2.1, y ∈ pc.1.set :=
  View.cover_of_tiledL (runC m c t h0 h1 h3 s).2.2.1 S512x64.size (by sl_kernel_rfl) y
theorem covD4 (c : Dev nD) (t : Fin cfg0.N) (h0 : ¬t.val % 4 = 0) (h1 : t.val % 4 ≤ t.val / 4 % 4) (h3 : t.val % 4 = 3) (s : St F) (y : S1x512x64.Idx) : ∃ pc ∈ (runD m c t h0 h1 h3 s).1, y ∈ pc.1.set :=
  View.cover_of_tiledL (runD m c t h0 h1 h3 s).1 S1x512x64.size (by sl_kernel_rfl) y
theorem covD0 (c : Dev nD) (t : Fin cfg0.N) (h0 : ¬t.val % 4 = 0) (h1 : t.val % 4 ≤ t.val / 4 % 4) (h3 : t.val % 4 = 3) (s : St F) (y : S512x1.Idx) : ∃ pc ∈ (runD m c t h0 h1 h3 s).2.1, y ∈ pc.1.set :=
  View.cover_of_tiledL (runD m c t h0 h1 h3 s).2.1 S512x1.size (by sl_kernel_rfl) y
theorem covD1 (c : Dev nD) (t : Fin cfg0.N) (h0 : ¬t.val % 4 = 0) (h1 : t.val % 4 ≤ t.val / 4 % 4) (h3 : t.val % 4 = 3) (s : St F) (y : S512x1.Idx) : ∃ pc ∈ (runD m c t h0 h1 h3 s).2.2.1, y ∈ pc.1.set :=
  View.cover_of_tiledL (runD m c t h0 h1 h3 s).2.2.1 S512x1.size (by sl_kernel_rfl) y
theorem covD2 (c : Dev nD) (t : Fin cfg0.N) (h0 : ¬t.val % 4 = 0) (h1 : t.val % 4 ≤ t.val / 4 % 4) (h3 : t.val % 4 = 3) (s : St F) (y : S512x64.Idx) : ∃ pc ∈ (runD m c t h0 h1 h3 s).2.2.2.1, y ∈ pc.1.set :=
  View.cover_of_tiledL (runD m c t h0 h1 h3 s).2.2.2.1 S512x64.size (by sl_kernel_rfl) y
theorem covE4 (c : Dev nD) (t : Fin cfg0.N) (h0 : ¬t.val % 4 = 0) (h1 : ¬t.val % 4 ≤ t.val / 4 % 4) (h3 : t.val % 4 = 3) (s : St F) (y : S1x512x64.Idx) : ∃ pc ∈ (runE m c t h0 h1 h3 s).1, y ∈ pc.1.set :=
  View.cover_of_tiledL (runE m c t h0 h1 h3 s).1 S1x512x64.size (by sl_kernel_rfl) y
theorem covE0 (c : Dev nD) (t : Fin cfg0.N) (h0 : ¬t.val % 4 = 0) (h1 : ¬t.val % 4 ≤ t.val / 4 % 4) (h3 : t.val % 4 = 3) (s : St F) (y : S512x1.Idx) : ∃ pc ∈ (runE m c t h0 h1 h3 s).2.1, y ∈ pc.1.set :=
  View.cover_of_tiledL (runE m c t h0 h1 h3 s).2.1 S512x1.size (by sl_kernel_rfl) y
theorem covE1 (c : Dev nD) (t : Fin cfg0.N) (h0 : ¬t.val % 4 = 0) (h1 : ¬t.val % 4 ≤ t.val / 4 % 4) (h3 : t.val % 4 = 3) (s : St F) (y : S512x1.Idx) : ∃ pc ∈ (runE m c t h0 h1 h3 s).2.2.1, y ∈ pc.1.set :=
  View.cover_of_tiledL (runE m c t h0 h1 h3 s).2.2.1 S512x1.size (by sl_kernel_rfl) y
theorem covE2 (c : Dev nD) (t : Fin cfg0.N) (h0 : ¬t.val % 4 = 0) (h1 : ¬t.val % 4 ≤ t.val / 4 % 4) (h3 : t.val % 4 = 3) (s : St F) (y : S512x64.Idx) : ∃ pc ∈ (runE m c t h0 h1 h3 s).2.2.2.1, y ∈ pc.1.set :=
  View.cover_of_tiledL (runE m c t h0 h1 h3 s).2.2.2.1 S512x64.size (by sl_kernel_rfl) y

/-! ## Point by point -/

/-- What the output's staging buffer and the scratch hold after the body at position `n`: the case the closed forms
    select, the later cases over what position `n − 1` left. -/
def outsAt0 (c : Dev nD) : (n : ℕ) → n < cfg0.N → St F
  | 0, hn => stA m c ⟨0, hn⟩ (Nat.zero_mod _)
  | n + 1, hn =>
    if h0 : (n + 1) % 4 = 0 then stA m c ⟨n + 1, hn⟩ h0
    else if h1 : (n + 1) % 4 ≤ (n + 1) / 4 % 4 then
      (if h3 : (n + 1) % 4 = 3 then stD m c ⟨n + 1, hn⟩ h0 h1 h3 (outsAt0 c n (Nat.lt_of_succ_lt hn))
       else stB m c ⟨n + 1, hn⟩ h0 h1 h3 (outsAt0 c n (Nat.lt_of_succ_lt hn)))
    else
      (if h3 : (n + 1) % 4 = 3 then stE m c ⟨n + 1, hn⟩ h0 h1 h3 (outsAt0 c n (Nat.lt_of_succ_lt hn))
       else stC m c ⟨n + 1, hn⟩ h0 h1 h3 (outsAt0 c n (Nat.lt_of_succ_lt hn)))

theorem outsAt0_A (c : Dev nD) (t : Fin cfg0.N) (h0 : t.val % 4 = 0) :
    outsAt0 m c t.val t.isLt = stA m c t h0 := by
  obtain ⟨n, hn⟩ := t
  cases n with
  | zero => rfl
  | succ n => exact dif_pos h0

theorem outsAt0_B (c : Dev nD) (t : Fin cfg0.N) (h0 : ¬t.val % 4 = 0) (h1 : t.val % 4 ≤ t.val / 4 % 4) (h3 : ¬t.val % 4 = 3) :
    outsAt0 m c t.val t.isLt = stB m c t h0 h1 h3 (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans (dif_neg h3))

theorem outsAt0_C (c : Dev nD) (t : Fin cfg0.N) (h0 : ¬t.val % 4 = 0) (h1 : ¬t.val % 4 ≤ t.val / 4 % 4) (h3 : ¬t.val % 4 = 3) :
    outsAt0 m c t.val t.isLt = stC m c t h0 h1 h3 (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans (dif_neg h3))

theorem outsAt0_D (c : Dev nD) (t : Fin cfg0.N) (h0 : ¬t.val % 4 = 0) (h1 : t.val % 4 ≤ t.val / 4 % 4) (h3 : t.val % 4 = 3) :
    outsAt0 m c t.val t.isLt = stD m c t h0 h1 h3 (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans (dif_pos h3))

theorem outsAt0_E (c : Dev nD) (t : Fin cfg0.N) (h0 : ¬t.val % 4 = 0) (h1 : ¬t.val % 4 ≤ t.val / 4 % 4) (h3 : t.val % 4 = 3) :
    outsAt0 m c t.val t.isLt = stE m c t h0 h1 h3 (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans (dif_pos h3))

/-! ## The region invariant and the proof data -/

/-- Before the first point the scratch holds anything; afterwards each scratch buffer holds what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).sm) ∗ owns (c : Thread nD τ) scM0_1 fullShare ((outsAt0 m c n hn).sl) ∗ owns (c : Thread nD τ) scM0_2 fullShare ((outsAt0 m c n hn).sa) ∗ owns (c : Thread nD τ) scM0_3 fullShare ((outsAt0 m c n hn).sq)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).sm) ∗ owns (c : Thread nD τ) scM0_1 fullShare ((outsAt0 m c n hn).sl) ∗ owns (c : Thread nD τ) scM0_2 fullShare ((outsAt0 m c n hn).sa) ∗ owns (c : Thread nD τ) scM0_3 fullShare ((outsAt0 m c n hn).sq)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).sm) ∗ owns (c : Thread nD τ) scM0_1 fullShare ((outsAt0 m c (n - 1) (by omega)).sl) ∗ owns (c : Thread nD τ) scM0_2 fullShare ((outsAt0 m c (n - 1) (by omega)).sa) ∗ owns (c : Thread nD τ) scM0_3 fullShare ((outsAt0 m c (n - 1) (by omega)).sq)) ∗ (∃ r, prngReg c r)) := by
  cases n with
  | zero => exact absurd rfl hz
  | succ n => rfl

/-- The pipeline's proof data on core `c`: the arrays as the region finds them; each input's buffer at its block after the
    body; the output's at `outsAt0`'s first component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).o
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).o := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

end Cert.Kernel.Gen

end
-- ==== Proof.KernelFrame.lean ====
/- The attention kernel's body obligation, its run and its frame. At every grid point the body is called with the
   region invariant, the four input windows at their blocks and the output window at whatever it held; the closed
   forms of the four conditions say which of the five control cases the point is in, that case's whole-body run
   applies, and what it hands back is the invariant at the next point: each scratch buffer at what the case stored,
   read back from stored pieces that cover it, the kept query tile untouched after the first key tile. The output
   window is idle away from the last key tile and holds the stored block there. From the obligation the pipeline's
   frame run follows, and from it the frame claim: the four argument arrays are left as launched. -/
import proofs.«425486_j403726926205_3_alg».proof.Proof.KernelState

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- What the body is called with at point `t`: the invariant, what is owed, and the five windows' current buffers. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- What the body returns: the invariant at the next point, the same debt, and each window's buffer as the point leaves it. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4000000 in
/-- First key tile: every scratch buffer is handed over at whatever it holds and taken back stored whole; the output window is idle. -/
theorem sound_body_A (c : Dev nD) (t : Fin cfg0.N) (h0 : t.val % 4 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by unfold Dat.leavesExact; rw [liveAt0_0 t], after0_0]
  rw [show (dats m 0 c).leavesExact 1 t = owns (c : Thread nD τ) (ms0_1 t) fullShare ((dats m 0 c).after 1 t) from by unfold Dat.leavesExact; rw [liveAt0_1 t], after0_1]
  rw [show (dats m 0 c).leavesExact 2 t = owns (c : Thread nD τ) (ms0_2 t) fullShare ((dats m 0 c).after 2 t) from by unfold Dat.leavesExact; rw [liveAt0_2 t], after0_2]
  rw [show (dats m 0 c).leavesExact 3 t = owns (c : Thread nD τ) (ms0_3 t) fullShare ((dats m 0 c).after 3 t) from by unfold Dat.leavesExact; rw [liveAt0_3 t], after0_3]
  rw [Dat.leavesExact_idle (dats m 0 c) 4 t (idleAt0_4 t (cA3 t h0)) (noFlush0_4 t (cA3 t h0))]
  rw [outsAt0_A m c t h0]
  unfold stA; dsimp only
  by_cases hz : t.val = 0
  · rw [PhiS_castSucc m c t, PhiS_zero m c _ _ hz, PhiA0_eq]
    iintro ⟨⟨⟨HS0, HS1, HS2, HS3⟩, Hg⟩, Ho, ⟨%d0, H0⟩, ⟨%d1, H1⟩, ⟨%d2, H2⟩, ⟨%d3, H3⟩, ⟨%d4, H4⟩⟩
    iapply ((runA m c t h0).2.2.2.2 _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    isplitl [HS3]; · iexact HS3
    iintro ⟨H0, H1, H2, H3, H4, ⟨%e0, HS0⟩, ⟨%e1, HS1⟩, ⟨%e2, HS2⟩, ⟨%e3, HS3⟩⟩
    isplitl [HS0 HS1 HS2 HS3 Hg]
    · isplitl [HS0 HS1 HS2 HS3]
      · isplitl [HS0]
        · unfold owns; iexists _; isplitr
          swap; · iexact HS0
          ipureintro; exact View.read_writes_of_cover _ _ _ _ _ (covA0 m c t h0)
        isplitl [HS1]
        · unfold owns; iexists _; isplitr
          swap; · iexact HS1
          ipureintro; exact View.read_writes_of_cover _ _ _ _ _ (covA1 m c t h0)
        isplitl [HS2]
        · unfold owns; iexists _; isplitr
          swap; · iexact HS2
          ipureintro; exact View.read_writes_of_cover _ _ _ _ _ (covA2 m c t h0)
        unfold owns; iexists _; isplitr
        swap; · iexact HS3
        ipureintro; exact View.read_writes_of_cover _ _ _ _ _ (covA3 m c t h0)
      iexact Hg
    isplitl [Ho]; · iexact Ho
    isplitl [H0]; · iexact H0
    isplitl [H1]; · iexact H1
    isplitl [H2]; · iexact H2
    isplitl [H3]; · iexact H3
    iexists _; iexact H4
  · rw [PhiS_castSucc m c t, PhiS_pos m c _ _ hz]
    iintro ⟨⟨⟨HS0, HS1, HS2, HS3⟩, Hg⟩, Ho, ⟨%d0, H0⟩, ⟨%d1, H1⟩, ⟨%d2, H2⟩, ⟨%d3, H3⟩, ⟨%d4, H4⟩⟩
    iapply ((runA m c t h0).2.2.2.2 _ Set.univ _)
    isplitl [H0]; · iexact H0
    isplitl [H1]; · iexact H1
    isplitl [H2]; · iexact H2
    isplitl [H3]; · iexact H3
    isplitl [H4]; · iexact H4
    isplitl [HS0]; · iexists _; iexact HS0
    isplitl [HS1]; · iexists _; iexact HS1
    isplitl [HS2]; · iexists _; iexact HS2
    isplitl [HS3]; · iexists _; iexact HS3
    iintro ⟨H0, H1, H2, H3, H4, ⟨%e0, HS0⟩, ⟨%e1, HS1⟩, ⟨%e2, HS2⟩, ⟨%e3, HS3⟩⟩
    isplitl [HS0 HS1 HS2 HS3 Hg]
    · isplitl [HS0 HS1 HS2 HS3]
      · isplitl [HS0]
        · unfold owns; iexists _; isplitr
          swap; · iexact HS0
          ipureintro; exact View.read_writes_of_cover _ _ _ _ _ (covA0 m c t h0)
        isplitl [HS1]
        · unfold owns; iexists _; isplitr
          swap; · iexact HS1
          ipureintro; exact View.read_writes_of_cover _ _ _ _ _ (covA1 m c t h0)
        isplitl [HS2]
        · unfold owns; iexists _; isplitr
          swap; · iexact HS2
          ipureintro; exact View.read_writes_of_cover _ _ _ _ _ (covA2 m c t h0)
        unfold owns; iexists _; isplitr
        swap; · iexact HS3
        ipureintro; exact View.read_writes_of_cover _ _ _ _ _ (covA3 m c t h0)
      iexact Hg
    isplitl [Ho]; · iexact Ho
    isplitl [H0]; · iexact H0
    isplitl [H1]; · iexact H1
    isplitl [H2]; · iexact H2
    isplitl [H3]; · iexact H3
    iexists _; iexact H4

set_option maxHeartbeats 4000000 in
/-- A later key tile meeting the causal triangle, not the last: the three running quantities are handed over at what the point before left and taken back updated; the kept query tile comes back as it was; the output window is idle. -/
theorem sound_body_B (c : Dev nD) (t : Fin cfg0.N) (h0 : ¬t.val % 4 = 0) (h1 : t.val % 4 ≤ t.val / 4 % 4) (h3 : ¬t.val % 4 = 3) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by unfold Dat.leavesExact; rw [liveAt0_0 t], after0_0]
  rw [show (dats m 0 c).leavesExact 1 t = owns (c : Thread nD τ) (ms0_1 t) fullShare ((dats m 0 c).after 1 t) from by unfold Dat.leavesExact; rw [liveAt0_1 t], after0_1]
  rw [show (dats m 0 c).leavesExact 2 t = owns (c : Thread nD τ) (ms0_2 t) fullShare ((dats m 0 c).after 2 t) from by unfold Dat.leavesExact; rw [liveAt0_2 t], after0_2]
  rw [show (dats m 0 c).leavesExact 3 t = owns (c : Thread nD τ) (ms0_3 t) fullShare ((dats m 0 c).after 3 t) from by unfold Dat.leavesExact; rw [liveAt0_3 t], after0_3]
  rw [Dat.leavesExact_idle (dats m 0 c) 4 t (idleAt0_4 t (cN3 t h3)) (noFlush0_4 t (cN3 t h3))]
  rw [outsAt0_B m c t h0 h1 h3]
  unfold stB; dsimp only
  have hz : t.val ≠ 0 := by omega
  rw [PhiS_castSucc m c t, PhiS_pos m c _ _ hz]
  iintro ⟨⟨⟨HS0, HS1, HS2, HS3⟩, Hg⟩, Ho, ⟨%d0, H0⟩, ⟨%d1, H1⟩, ⟨%d2, H2⟩, ⟨%d3, H3⟩, ⟨%d4, H4⟩⟩
  iapply ((runB m c t h0 h1 h3 (outsAt0 m c (t.val - 1) (Nat.lt_of_le_of_lt (Nat.sub_le _ _) t.isLt))).2.2.2 _ Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  isplitl [HS3]; · iexact HS3
  iintro ⟨H0, H1, H2, H3, H4, ⟨%e0, HS0⟩, ⟨%e1, HS1⟩, ⟨%e2, HS2⟩, HS3⟩
  isplitl [HS0 HS1 HS2 HS3 Hg]
  · isplitl [HS0 HS1 HS2 HS3]
    · isplitl [HS0]
      · unfold owns; iexists _; isplitr
        swap; · iexact HS0
        ipureintro; exact View.read_writes_of_cover _ _ _ _ _ (covB0 m c t h0 h1 h3 (outsAt0 m c (t.val - 1) (Nat.lt_of_le_of_lt (Nat.sub_le _ _) t.isLt)))
      isplitl [HS1]
      · unfold owns; iexists _; isplitr
        swap; · iexact HS1
        ipureintro; exact View.read_writes_of_cover _ _ _ _ _ (covB1 m c t h0 h1 h3 (outsAt0 m c (t.val - 1) (Nat.lt_of_le_of_lt (Nat.sub_le _ _) t.isLt)))
      isplitl [HS2]
      · unfold owns; iexists _; isplitr
        swap; · iexact HS2
        ipureintro; exact View.read_writes_of_cover _ _ _ _ _ (covB2 m c t h0 h1 h3 (outsAt0 m c (t.val - 1) (Nat.lt_of_le_of_lt (Nat.sub_le _ _) t.isLt)))
      iexact HS3
    iexact Hg
  isplitl [Ho]; · iexact Ho
  isplitl [H0]; · iexact H0
  isplitl [H1]; · iexact H1
  isplitl [H2]; · iexact H2
  isplitl [H3]; · iexact H3
  iexists _; iexact H4

set_option maxHeartbeats 4000000 in
/-- A key tile wholly in the causal future, not the last: as the case before, with the closed-form update. -/
theorem sound_body_C (c : Dev nD) (t : Fin cfg0.N) (h0 : ¬t.val % 4 = 0) (h1 : ¬t.val % 4 ≤ t.val / 4 % 4) (h3 : ¬t.val % 4 = 3) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by unfold Dat.leavesExact; rw [liveAt0_0 t], after0_0]
  rw [show (dats m 0 c).leavesExact 1 t = owns (c : Thread nD τ) (ms0_1 t) fullShare ((dats m 0 c).after 1 t) from by unfold Dat.leavesExact; rw [liveAt0_1 t], after0_1]
  rw [show (dats m 0 c).leavesExact 2 t = owns (c : Thread nD τ) (ms0_2 t) fullShare ((dats m 0 c).after 2 t) from by unfold Dat.leavesExact; rw [liveAt0_2 t], after0_2]
  rw [show (dats m 0 c).leavesExact 3 t = owns (c : Thread nD τ) (ms0_3 t) fullShare ((dats m 0 c).after 3 t) from by unfold Dat.leavesExact; rw [liveAt0_3 t], after0_3]
  rw [Dat.leavesExact_idle (dats m 0 c) 4 t (idleAt0_4 t (cN3 t h3)) (noFlush0_4 t (cN3 t h3))]
  rw [outsAt0_C m c t h0 h1 h3]
  unfold stC; dsimp only
  have hz : t.val ≠ 0 := by omega
  rw [PhiS_castSucc m c t, PhiS_pos m c _ _ hz]
  iintro ⟨⟨⟨HS0, HS1, HS2, HS3⟩, Hg⟩, Ho, ⟨%d0, H0⟩, ⟨%d1, H1⟩, ⟨%d2, H2⟩, ⟨%d3, H3⟩, ⟨%d4, H4⟩⟩
  iapply ((runC m c t h0 h1 h3 (outsAt0 m c (t.val - 1) (Nat.lt_of_le_of_lt (Nat.sub_le _ _) t.isLt))).2.2.2 _ Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  isplitl [HS3]; · iexact HS3
  iintro ⟨H0, H1, H2, H3, H4, ⟨%e0, HS0⟩, ⟨%e1, HS1⟩, ⟨%e2, HS2⟩, HS3⟩
  isplitl [HS0 HS1 HS2 HS3 Hg]
  · isplitl [HS0 HS1 HS2 HS3]
    · isplitl [HS0]
      · unfold owns; iexists _; isplitr
        swap; · iexact HS0
        ipureintro; exact View.read_writes_of_cover _ _ _ _ _ (covC0 m c t h0 h1 h3 (outsAt0 m c (t.val - 1) (Nat.lt_of_le_of_lt (Nat.sub_le _ _) t.isLt)))
      isplitl [HS1]
      · unfold owns; iexists _; isplitr
        swap; · iexact HS1
        ipureintro; exact View.read_writes_of_cover _ _ _ _ _ (covC1 m c t h0 h1 h3 (outsAt0 m c (t.val - 1) (Nat.lt_of_le_of_lt (Nat.sub_le _ _) t.isLt)))
      isplitl [HS2]
      · unfold owns; iexists _; isplitr
        swap; · iexact HS2
        ipureintro; exact View.read_writes_of_cover _ _ _ _ _ (covC2 m c t h0 h1 h3 (outsAt0 m c (t.val - 1) (Nat.lt_of_le_of_lt (Nat.sub_le _ _) t.isLt)))
      iexact HS3
    iexact Hg
  isplitl [Ho]; · iexact Ho
  isplitl [H0]; · iexact H0
  isplitl [H1]; · iexact H1
  isplitl [H2]; · iexact H2
  isplitl [H3]; · iexact H3
  iexists _; iexact H4

set_option maxHeartbeats 4000000 in
/-- The last key tile, meeting the causal triangle: the update, and the output window taken back at the stored block. -/
theorem sound_body_D (c : Dev nD) (t : Fin cfg0.N) (h0 : ¬t.val % 4 = 0) (h1 : t.val % 4 ≤ t.val / 4 % 4) (h3 : t.val % 4 = 3) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by unfold Dat.leavesExact; rw [liveAt0_0 t], after0_0]
  rw [show (dats m 0 c).leavesExact 1 t = owns (c : Thread nD τ) (ms0_1 t) fullShare ((dats m 0 c).after 1 t) from by unfold Dat.leavesExact; rw [liveAt0_1 t], after0_1]
  rw [show (dats m 0 c).leavesExact 2 t = owns (c : Thread nD τ) (ms0_2 t) fullShare ((dats m 0 c).after 2 t) from by unfold Dat.leavesExact; rw [liveAt0_2 t], after0_2]
  rw [show (dats m 0 c).leavesExact 3 t = owns (c : Thread nD τ) (ms0_3 t) fullShare ((dats m 0 c).after 3 t) from by unfold Dat.leavesExact; rw [liveAt0_3 t], after0_3]
  rw [show (dats m 0 c).leavesExact 4 t = owns (c : Thread nD τ) (ms0_4 t) fullShare ((dats m 0 c).after 4 t) from by unfold Dat.leavesExact; rw [liveAt0_4 t (cP3 t h3)], after0_4]
  rw [outsAt0_D m c t h0 h1 h3]
  unfold stD; dsimp only
  have hz : t.val ≠ 0 := by omega
  rw [PhiS_castSucc m c t, PhiS_pos m c _ _ hz]
  iintro ⟨⟨⟨HS0, HS1, HS2, HS3⟩, Hg⟩, Ho, ⟨%d0, H0⟩, ⟨%d1, H1⟩, ⟨%d2, H2⟩, ⟨%d3, H3⟩, ⟨%d4, H4⟩⟩
  iapply ((runD m c t h0 h1 h3 (outsAt0 m c (t.val - 1) (Nat.lt_of_le_of_lt (Nat.sub_le _ _) t.isLt))).2.2.2.2 Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HS2]; · iexact HS2
  isplitl [HS3]; · iexact HS3
  iintro ⟨H0, H1, H2, H3, ⟨%e4, H4⟩, ⟨%e0, HS0⟩, ⟨%e1, HS1⟩, ⟨%e2, HS2⟩, HS3⟩
  isplitl [HS0 HS1 HS2 HS3 Hg]
  · isplitl [HS0 HS1 HS2 HS3]
    · isplitl [HS0]
      · unfold owns; iexists _; isplitr
        swap; · iexact HS0
        ipureintro; exact View.read_writes_of_cover _ _ _ _ _ (covD0 m c t h0 h1 h3 (outsAt0 m c (t.val - 1) (Nat.lt_of_le_of_lt (Nat.sub_le _ _) t.isLt)))
      isplitl [HS1]
      · unfold owns; iexists _; isplitr
        swap; · iexact HS1
        ipureintro; exact View.read_writes_of_cover _ _ _ _ _ (covD1 m c t h0 h1 h3 (outsAt0 m c (t.val - 1) (Nat.lt_of_le_of_lt (Nat.sub_le _ _) t.isLt)))
      isplitl [HS2]
      · unfold owns; iexists _; isplitr
        swap; · iexact HS2
        ipureintro; exact View.read_writes_of_cover _ _ _ _ _ (covD2 m c t h0 h1 h3 (outsAt0 m c (t.val - 1) (Nat.lt_of_le_of_lt (Nat.sub_le _ _) t.isLt)))
      iexact HS3
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (covD4 m c t h0 h1 h3 (outsAt0 m c (t.val - 1) (Nat.lt_of_le_of_lt (Nat.sub_le _ _) t.isLt)))

set_option maxHeartbeats 4000000 in
/-- The last key tile, wholly in the causal future: the closed-form update, and the output window taken back at the stored block. -/
theorem sound_body_E (c : Dev nD) (t : Fin cfg0.N) (h0 : ¬t.val % 4 = 0) (h1 : ¬t.val % 4 ≤ t.val / 4 % 4) (h3 : t.val % 4 = 3) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by unfold Dat.leavesExact; rw [liveAt0_0 t], after0_0]
  rw [show (dats m 0 c).leavesExact 1 t = owns (c : Thread nD τ) (ms0_1 t) fullShare ((dats m 0 c).after 1 t) from by unfold Dat.leavesExact; rw [liveAt0_1 t], after0_1]
  rw [show (dats m 0 c).leavesExact 2 t = owns (c : Thread nD τ) (ms0_2 t) fullShare ((dats m 0 c).after 2 t) from by unfold Dat.leavesExact; rw [liveAt0_2 t], after0_2]
  rw [show (dats m 0 c).leavesExact 3 t = owns (c : Thread nD τ) (ms0_3 t) fullShare ((dats m 0 c).after 3 t) from by unfold Dat.leavesExact; rw [liveAt0_3 t], after0_3]
  rw [show (dats m 0 c).leavesExact 4 t = owns (c : Thread nD τ) (ms0_4 t) fullShare ((dats m 0 c).after 4 t) from by unfold Dat.leavesExact; rw [liveAt0_4 t (cP3 t h3)], after0_4]
  rw [outsAt0_E m c t h0 h1 h3]
  unfold stE; dsimp only
  have hz : t.val ≠ 0 := by omega
  rw [PhiS_castSucc m c t, PhiS_pos m c _ _ hz]
  iintro ⟨⟨⟨HS0, HS1, HS2, HS3⟩, Hg⟩, Ho, ⟨%d0, H0⟩, ⟨%d1, H1⟩, ⟨%d2, H2⟩, ⟨%d3, H3⟩, ⟨%d4, H4⟩⟩
  iapply ((runE m c t h0 h1 h3 (outsAt0 m c (t.val - 1) (Nat.lt_of_le_of_lt (Nat.sub_le _ _) t.isLt))).2.2.2.2 Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HS2]; · iexact HS2
  isplitl [HS3]; · iexact HS3
  iintro ⟨H0, H1, H2, H3, ⟨%e4, H4⟩, ⟨%e0, HS0⟩, ⟨%e1, HS1⟩, ⟨%e2, HS2⟩, HS3⟩
  isplitl [HS0 HS1 HS2 HS3 Hg]
  · isplitl [HS0 HS1 HS2 HS3]
    · isplitl [HS0]
      · unfold owns; iexists _; isplitr
        swap; · iexact HS0
        ipureintro; exact View.read_writes_of_cover _ _ _ _ _ (covE0 m c t h0 h1 h3 (outsAt0 m c (t.val - 1) (Nat.lt_of_le_of_lt (Nat.sub_le _ _) t.isLt)))
      isplitl [HS1]
      · unfold owns; iexists _; isplitr
        swap; · iexact HS1
        ipureintro; exact View.read_writes_of_cover _ _ _ _ _ (covE1 m c t h0 h1 h3 (outsAt0 m c (t.val - 1) (Nat.lt_of_le_of_lt (Nat.sub_le _ _) t.isLt)))
      isplitl [HS2]
      · unfold owns; iexists _; isplitr
        swap; · iexact HS2
        ipureintro; exact View.read_writes_of_cover _ _ _ _ _ (covE2 m c t h0 h1 h3 (outsAt0 m c (t.val - 1) (Nat.lt_of_le_of_lt (Nat.sub_le _ _) t.isLt)))
      iexact HS3
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (covE4 m c t h0 h1 h3 (outsAt0 m c (t.val - 1) (Nat.lt_of_le_of_lt (Nat.sub_le _ _) t.isLt)))

/-- The body at any point: the closed forms select the control case, and that case's lemma applies. -/
theorem sound_body (c : Dev nD) (t : Fin cfg0.N) :
    bodyPre m c t ⊢ wp frame (wpE (defs₀ (F := F)) Variants.none c none) Set.univ (bodyAt0 t) (fun _ => bodyPost m c t) := by
  by_cases h0 : t.val % 4 = 0
  · exact sound_body_A m c t h0
  · by_cases h1 : t.val % 4 ≤ t.val / 4 % 4
    · by_cases h3 : t.val % 4 = 3
      · exact sound_body_D m c t h0 h1 h3
      · exact sound_body_B m c t h0 h1 h3
    · by_cases h3 : t.val % 4 = 3
      · exact sound_body_E m c t h0 h1 h3
      · exact sound_body_C m c t h0 h1 h3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the launch's back: the scratch buffers' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 512 := N_0; omega)

/-! ## The run and the frame -/

set_option backward.isDefEq.respectTransparency.types false in
/-- From any memory with zero counters every weakly fair execution of the program on the TensorCores terminates, with every
    array of the pipeline at what the proof data computes and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := hin m) (hout := hout m)

/-- The frame: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Gen

end
-- ==== Proof.KernelIdealRuns.lean ====
/- The attention kernel's body, case by case: what the five control cases of its four conditionals are over the
   grid (32 heads, 4 query tiles, 4 key tiles; point t = 16·head + 4·qtile + ktile), where the output window is
   idle, and the names of the staging and scratch memrefs the per-case runs are stated over.
   First key tile (ktile = 0): the running maximum, denominator and accumulator are reset and the query tile is
   kept; a key tile is "active" when it meets the causal triangle of the query tile (ktile ≤ qtile) and is otherwise
   wholly in the causal future; the output is written at the last key tile (ktile = 3). -/
import proofs.«425486_j403726926205_3_alg».proof.Proof.Gen.KernelIdeal.Frame
import proofs.«425486_j403726926205_3_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's four conditions, from the grid coordinates -/

/-- First key tile: `ktile = 0`. -/
abbrev cond0_0 (i : grid0.Coords) : Prop := (Scalar.cmpi .ne (Scalar.extui (Scalar.cmpi .eq (BitVec.ofNat 32 (i 2).val) 0#32)) 0#32) = 1#1
/-- The key tile meets the causal triangle: `512·ktile < 512·(qtile + 1)`. -/
abbrev cond0_1 (i : grid0.Coords) : Prop := (Scalar.cmpi .ne (Scalar.extui (Scalar.cmpi .slt (Scalar.muli (BitVec.ofNat 32 (i 2).val) 512#32) (Scalar.muli (Scalar.addi (BitVec.ofNat 32 (i 1).val) 1#32) 512#32))) 0#32) = 1#1
/-- The key tile lies wholly in the causal future: the negation of the comparison above. -/
abbrev cond0_2 (i : grid0.Coords) : Prop := (Scalar.cmpi .ne (Scalar.extui (Scalar.xori (Scalar.cmpi .slt (Scalar.muli (BitVec.ofNat 32 (i 2).val) 512#32) (Scalar.muli (Scalar.addi (BitVec.ofNat 32 (i 1).val) 1#32) 512#32)) 1#1)) 0#32) = 1#1
/-- Last key tile: `ktile = 3`. -/
abbrev cond0_3 (i : grid0.Coords) : Prop := k0_cond4 i = 1#1

theorem hcond0_0 : ∀ t : Fin cfg0.N, cond0_0 (grid0.coords t) ↔ t.val % 4 = 0 :=
  (by decide +kernel : ∀ t : Fin grid0.N, cond0_0 (grid0.coords t) ↔ t.val % 4 = 0)
theorem hcond0_1 : ∀ t : Fin cfg0.N, cond0_1 (grid0.coords t) ↔ t.val % 4 ≤ t.val / 4 % 4 :=
  (by decide +kernel : ∀ t : Fin grid0.N, cond0_1 (grid0.coords t) ↔ t.val % 4 ≤ t.val / 4 % 4)
theorem hcond0_2 : ∀ t : Fin cfg0.N, cond0_2 (grid0.coords t) ↔ ¬ t.val % 4 ≤ t.val / 4 % 4 :=
  (by decide +kernel : ∀ t : Fin grid0.N, cond0_2 (grid0.coords t) ↔ ¬ t.val % 4 ≤ t.val / 4 % 4)
theorem hcond0_3 : ∀ t : Fin cfg0.N, cond0_3 (grid0.coords t) ↔ t.val % 4 = 3 :=
  (by decide +kernel : ∀ t : Fin grid0.N, cond0_3 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last key tile nothing is stored into the output window: it is idle and not written back. -/
theorem idleAt0_4 : ∀ t : Fin cfg0.N, ¬cond0_3 (grid0.coords t) → cfg0.idle 4 (grid0.coords t) = true := by decide +kernel
theorem noFlush0_4 : ∀ t : Fin cfg0.N, ¬cond0_3 (grid0.coords t) → (cfg0.win 4).flush t = false := by decide +kernel
/-- At the last key tile the output window is live. -/
theorem liveAt0_4 : ∀ t : Fin cfg0.N, cond0_3 (grid0.coords t) → cfg0.idle 4 (grid0.coords t) = false := by decide +kernel

/-! ## The memrefs the runs are stated over -/

abbrev VO0_4 : View sig .tc .vmem S1x512x64 .f32 := (Memref.whole cc0_stg4_0 : Memref sig .tc .vmem S1x512x64 .f32).view
abbrev ms0_0 (t : Fin cfg0.N) : Memref sig .tc .vmem S1x512x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512x64 .f32 := win0_4.stage (cfg0.slots t 4)
abbrev hs0_4 (t : Fin cfg0.N) : (ms0_4 t).IsWhole := hstage0_4 ((cfg0.slots t 4).cast nbuf0_4)
/-- The four scratch operands: the running maximum, the running denominator, the accumulator, the kept query tile. -/
abbrev scM0_0 : Memref sig .tc .vmem S512x1 .f32 := Memref.whole cc0_scratch0
abbrev scM0_1 : Memref sig .tc .vmem S512x1 .f32 := Memref.whole cc0_scratch1
abbrev scM0_2 : Memref sig .tc .vmem S512x64 .f32 := Memref.whole cc0_scratch2
abbrev scM0_3 : Memref sig .tc .vmem S512x64 .bf16 := Memref.whole cc0_scratch3
abbrev VS0_0 : View sig .tc .vmem S512x1 .f32 := scM0_0.view
abbrev VS0_1 : View sig .tc .vmem S512x1 .f32 := scM0_1.view
abbrev VS0_2 : View sig .tc .vmem S512x64 .f32 := scM0_2.view
abbrev VS0_3 : View sig .tc .vmem S512x64 .bf16 := scM0_3.view

/-- The class invariant with the four scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Gen

end
-- ==== Proof.KernelIdealRunA.lean ====
/- The body's run at the first key tile (ktile = 0): the running maximum is reset to −∞, the denominator and the accumulator to 0, the query tile is kept, and then the active-tile update runs; nothing is stored into the output window. What each scratch buffer ends with is found by the run as a list of stored pieces. -/
import proofs.«425486_j403726926205_3_alg».proof.Proof.KernelIdealRuns

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg3 : Memref sig .tc .vmem S1x512x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x1x512 .f32) (harg6 : arg6.IsWhole) (arg7 : Memref sig .tc .vmem S1x512x64 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x64 .bf16) (harg11 : arg11.IsWhole) (hc0 : cond0_0 i) (hc1 : cond0_1 i) (hc2 : ¬cond0_2 i) (hc3 : ¬cond0_3 i)
    (x0 : Vec F S1x512x64 .f32) (x1 : Vec F S1x512x64 .f32) (x2 : Vec F S1x512x64 .f32) (x3 : Vec F S1x1x512 .f32) :
    Σ' (LS0 : List (View.Piece (Elt F) S512x1 .f32)) (LS1 : List (View.Piece (Elt F) S512x1 .f32)) (LS2 : List (View.Piece (Elt F) S512x64 .f32)), { LS3 : List (View.Piece (Elt F) S512x64 .bf16) //
      ∀ (xi4 : Vec F S1x512x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
            ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc0__attn_kernel i arg3 harg3 arg4 harg4 arg5 harg5 arg6 harg6 arg7 harg7 arg8 harg8 arg9 harg9 arg10 harg10 arg11 harg11) K } := by
  refine ⟨?_, ?_, ?_, ?_, fun xi4 E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    isplitl [HS2]; · iexists _; iexact HS2
    iexists _; iexact HS3

end Cert.KernelIdeal.Gen

end
-- ==== Proof.KernelIdealRunB.lean ====
/- The body's run at a later key tile that meets the causal triangle (0 < ktile ≤ qtile, ktile < 3): the active-tile update of the running maximum, denominator and accumulator from what the tile before left; the kept query tile is read and left as it was; nothing is stored into the output window. -/
import proofs.«425486_j403726926205_3_alg».proof.Proof.KernelIdealRunA

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg3 : Memref sig .tc .vmem S1x512x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x1x512 .f32) (harg6 : arg6.IsWhole) (arg7 : Memref sig .tc .vmem S1x512x64 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x64 .bf16) (harg11 : arg11.IsWhole) (hc0 : ¬cond0_0 i) (hc1 : cond0_1 i) (hc2 : ¬cond0_2 i) (hc3 : ¬cond0_3 i)
    (x0 : Vec F S1x512x64 .f32) (x1 : Vec F S1x512x64 .f32) (x2 : Vec F S1x512x64 .f32) (x3 : Vec F S1x1x512 .f32) (xs0 : Vec F S512x1 .f32) (xs1 : Vec F S512x1 .f32) (xs2 : Vec F S512x64 .f32) (xs3 : Vec F S512x64 .bf16) :
    Σ' (LS0 : List (View.Piece (Elt F) S512x1 .f32)) (LS1 : List (View.Piece (Elt F) S512x1 .f32)), { LS2 : List (View.Piece (Elt F) S512x64 .f32) //
      ∀ (xi4 : Vec F S1x512x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
            ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ owns (c : Thread nD τ) arg11 fullShare xs3) -∗ K ⟨⟩))
          ⊢ wp frame (wpE (defs₀ (F := F)) Variants.none c none) E (cc0__attn_kernel i arg3 harg3 arg4 harg4 arg5 harg5 arg6 harg6 arg7 harg7 arg8 harg8 arg9 harg9 arg10 harg10 arg11 harg11) K } := by
  refine ⟨?_, ?_, ?_, fun xi4 E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4
    obtain rfl := harg8.eq_unread hfs0; obtain rfl := harg9.eq_unread hfs1; obtain rfl := harg10.eq_unread hfs2; obtain rfl := harg11.eq_unread hfs3
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    isplitl [HS2]; · iexists _; iexact HS2
    iexists _; isplitr; · ipureintro; exact harg11.read_unread _
    iexact HS3

end Cert.KernelIdeal.Gen

end
-- ==== Proof.KernelIdealRunC.lean ====
/- The body's run at a key tile wholly in the causal future (qtile < ktile < 3): the closed-form update that folds 512 scores equal to the masking constant into the running maximum, denominator and accumulator; nothing is stored into the output window. -/
import proofs.«425486_j403726926205_3_alg».proof.Proof.KernelIdealRunB

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg3 : Memref sig .tc .vmem S1x512x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x1x512 .f32) (harg6 : arg6.IsWhole) (arg7 : Memref sig .tc .vmem S1x512x64 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x64 .bf16) (harg11 : arg11.IsWhole) (hc0 : ¬cond0_0 i) (hc1 : ¬cond0_1 i) (hc2 : cond0_2 i) (hc3 : ¬cond0_3 i)
    (x0 : Vec F S1x512x64 .f32) (x1 : Vec F S1x512x64 .f32) (x2 : Vec F S1x512x64 .f32) (x3 : Vec F S1x1x512 .f32) (xs0 : Vec F S512x1 .f32) (xs1 : Vec F S512x1 .f32) (xs2 : Vec F S512x64 .f32) (xs3 : Vec F S512x64 .bf16) :
    Σ' (LS0 : List (View.Piece (Elt F) S512x1 .f32)) (LS1 : List (View.Piece (Elt F) S512x1 .f32)), { LS2 : List (View.Piece (Elt F) S512x64 .f32) //
      ∀ (xi4 : Vec F S1x512x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
            ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ owns (c : Thread nD τ) arg11 fullShare xs3) -∗ K ⟨⟩))
          ⊢ wp frame (wpE (defs₀ (F := F)) Variants.none c none) E (cc0__attn_kernel i arg3 harg3 arg4 harg4 arg5 harg5 arg6 harg6 arg7 harg7 arg8 harg8 arg9 harg9 arg10 harg10 arg11 harg11) K } := by
  refine ⟨?_, ?_, ?_, fun xi4 E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4
    obtain rfl := harg8.eq_unread hfs0; obtain rfl := harg9.eq_unread hfs1; obtain rfl := harg10.eq_unread hfs2; obtain rfl := harg11.eq_unread hfs3
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [HS0]; · iexists _; iexact HS0
    isplitl [HS1]; · iexists _; iexact HS1
    isplitl [HS2]; · iexists _; iexact HS2
    iexists _; isplitr; · ipureintro; exact harg11.read_unread _
    iexact HS3

end Cert.KernelIdeal.Gen

end
-- ==== Proof.KernelIdealRunD.lean ====
/- The body's run at the last key tile when it meets the causal triangle (ktile = qtile = 3): the active-tile update, then the output block stored as accumulator / denominator. -/
import proofs.«425486_j403726926205_3_alg».proof.Proof.KernelIdealRunC

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_D (c : Dev nD) (i : grid0.Coords) (arg3 : Memref sig .tc .vmem S1x512x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x1x512 .f32) (harg6 : arg6.IsWhole) (arg7 : Memref sig .tc .vmem S1x512x64 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x64 .bf16) (harg11 : arg11.IsWhole) (hc0 : ¬cond0_0 i) (hc1 : cond0_1 i) (hc2 : ¬cond0_2 i) (hc3 : cond0_3 i)
    (x0 : Vec F S1x512x64 .f32) (x1 : Vec F S1x512x64 .f32) (x2 : Vec F S1x512x64 .f32) (x3 : Vec F S1x1x512 .f32) (xs0 : Vec F S512x1 .f32) (xs1 : Vec F S512x1 .f32) (xs2 : Vec F S512x64 .f32) (xs3 : Vec F S512x64 .bf16) :
    Σ' (L4 : List (View.Piece (Elt F) S1x512x64 .f32)) (LS0 : List (View.Piece (Elt F) S512x1 .f32)) (LS1 : List (View.Piece (Elt F) S512x1 .f32)), { LS2 : List (View.Piece (Elt F) S512x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
            ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ owns (c : Thread nD τ) arg11 fullShare xs3) -∗ K ⟨⟩))
          ⊢ wp frame (wpE (defs₀ (F := F)) Variants.none c none) E (cc0__attn_kernel i arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3
    obtain rfl := harg8.eq_unread hfs0; obtain rfl := harg9.eq_unread hfs1; obtain rfl := harg10.eq_unread hfs2; obtain rfl := harg11.eq_unread hfs3
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]; · iexists _; iexact HS0
    isplitl [HS1]; · iexists _; iexact HS1
    isplitl [HS2]; · iexists _; iexact HS2
    iexists _; isplitr; · ipureintro; exact harg11.read_unread _
    iexact HS3

end Cert.KernelIdeal.Gen

end
-- ==== Proof.KernelIdealRunE.lean ====
/- The body's run at the last key tile when it lies in the causal future (ktile = 3 > qtile): the closed-form update, then the output block stored as accumulator / denominator. -/
import proofs.«425486_j403726926205_3_alg».proof.Proof.KernelIdealRunD

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_E (c : Dev nD) (i : grid0.Coords) (arg3 : Memref sig .tc .vmem S1x512x64 .f32) (harg3 : arg3.IsWhole) (arg4 : Memref sig .tc .vmem S1x512x64 .f32) (harg4 : arg4.IsWhole) (arg5 : Memref sig .tc .vmem S1x512x64 .f32) (harg5 : arg5.IsWhole) (arg6 : Memref sig .tc .vmem S1x1x512 .f32) (harg6 : arg6.IsWhole) (arg7 : Memref sig .tc .vmem S1x512x64 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole) (arg11 : Memref sig .tc .vmem S512x64 .bf16) (harg11 : arg11.IsWhole) (hc0 : ¬cond0_0 i) (hc1 : ¬cond0_1 i) (hc2 : cond0_2 i) (hc3 : cond0_3 i)
    (x0 : Vec F S1x512x64 .f32) (x1 : Vec F S1x512x64 .f32) (x2 : Vec F S1x512x64 .f32) (x3 : Vec F S1x1x512 .f32) (xs0 : Vec F S512x1 .f32) (xs1 : Vec F S512x1 .f32) (xs2 : Vec F S512x64 .f32) (xs3 : Vec F S512x64 .bf16) :
    Σ' (L4 : List (View.Piece (Elt F) S1x512x64 .f32)) (LS0 : List (View.Piece (Elt F) S512x1 .f32)) (LS1 : List (View.Piece (Elt F) S512x1 .f32)), { LS2 : List (View.Piece (Elt F) S512x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
            ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ owns (c : Thread nD τ) arg11 fullShare xs3) -∗ K ⟨⟩))
          ⊢ wp frame (wpE (defs₀ (F := F)) Variants.none c none) E (cc0__attn_kernel i arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0__attn_kernel_eq_skeleton]; unfold cc0__attn_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3
    obtain rfl := harg8.eq_unread hfs0; obtain rfl := harg9.eq_unread hfs1; obtain rfl := harg10.eq_unread hfs2; obtain rfl := harg11.eq_unread hfs3
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HS0]; · iexists _; iexact HS0
    isplitl [HS1]; · iexists _; iexact HS1
    isplitl [HS2]; · iexists _; iexact HS2
    iexists _; isplitr; · ipureintro; exact harg11.read_unread _
    iexact HS3

end Cert.KernelIdeal.Gen

end
-- ==== Proof.KernelIdealState.lean ====
/- What the attention kernel's body leaves behind, point by point. After the body at a grid point the output window's
   staging buffer and the four scratch buffers (running maximum, running denominator, accumulator, kept query tile)
   hold what the point's control case stored — read back from the pieces its run found — the later cases starting
   from what the point before left in the scratch. `outsAt0` is that recursion over the points, `dats` the pipeline's
   proof data built on it, `PhiS` the region invariant that carries the scratch contents from one point to the next. -/
import proofs.«425486_j403726926205_3_alg».proof.Proof.KernelIdealRunE

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The control case of a point, from the closed forms -/

theorem cA1 (t : Fin cfg0.N) (h0 : t.val % 4 = 0) : cond0_1 (grid0.coords t) := (hcond0_1 t).mpr (by omega)
theorem cA2 (t : Fin cfg0.N) (h0 : t.val % 4 = 0) : ¬cond0_2 (grid0.coords t) := fun h => (hcond0_2 t).mp h (by omega)
theorem cA3 (t : Fin cfg0.N) (h0 : t.val % 4 = 0) : ¬cond0_3 (grid0.coords t) := fun h => by have := (hcond0_3 t).mp h; omega
theorem cN0 (t : Fin cfg0.N) (h0 : ¬t.val % 4 = 0) : ¬cond0_0 (grid0.coords t) := fun h => h0 ((hcond0_0 t).mp h)
theorem cP1 (t : Fin cfg0.N) (h1 : t.val % 4 ≤ t.val / 4 % 4) : cond0_1 (grid0.coords t) := (hcond0_1 t).mpr h1
theorem cN2 (t : Fin cfg0.N) (h1 : t.val % 4 ≤ t.val / 4 % 4) : ¬cond0_2 (grid0.coords t) := fun h => (hcond0_2 t).mp h h1
theorem cN1 (t : Fin cfg0.N) (h1 : ¬t.val % 4 ≤ t.val / 4 % 4) : ¬cond0_1 (grid0.coords t) := fun h => h1 ((hcond0_1 t).mp h)
theorem cP2 (t : Fin cfg0.N) (h1 : ¬t.val % 4 ≤ t.val / 4 % 4) : cond0_2 (grid0.coords t) := (hcond0_2 t).mpr h1
theorem cP3 (t : Fin cfg0.N) (h3 : t.val % 4 = 3) : cond0_3 (grid0.coords t) := (hcond0_3 t).mpr h3
theorem cN3 (t : Fin cfg0.N) (h3 : ¬t.val % 4 = 3) : ¬cond0_3 (grid0.coords t) := fun h => h3 ((hcond0_3 t).mp h)

/-! ## What a point leaves: the output's staging buffer and the four scratch buffers -/

/-- The output window's staging buffer and the scratch buffers after the body at a point. -/
structure St (F : FTy → Type) [FloatOps F] where
  o : Vec F S1x512x64 .f32
  sm : Vec F S512x1 .f32
  sl : Vec F S512x1 .f32
  sa : Vec F S512x64 .f32
  sq : Vec F S512x64 .bf16

/-- Stored pieces read back, buffer by buffer. -/
abbrev rbO (L : List (View.Piece (Elt F) S1x512x64 .f32)) : Vec F S1x512x64 .f32 := VO0_4.read (Elt F) (VO0_4.writes (Elt F) VO0_4.junk L)
abbrev rb0 (L : List (View.Piece (Elt F) S512x1 .f32)) : Vec F S512x1 .f32 := VS0_0.read (Elt F) (VS0_0.writes (Elt F) VS0_0.junk L)
abbrev rb1 (L : List (View.Piece (Elt F) S512x1 .f32)) : Vec F S512x1 .f32 := VS0_1.read (Elt F) (VS0_1.writes (Elt F) VS0_1.junk L)
abbrev rb2 (L : List (View.Piece (Elt F) S512x64 .f32)) : Vec F S512x64 .f32 := VS0_2.read (Elt F) (VS0_2.writes (Elt F) VS0_2.junk L)
abbrev rb3 (L : List (View.Piece (Elt F) S512x64 .bf16)) : Vec F S512x64 .bf16 := VS0_3.read (Elt F) (VS0_3.writes (Elt F) VS0_3.junk L)

/-- The five runs at a point's memrefs and input blocks. -/
abbrev runA (c : Dev nD) (t : Fin cfg0.N) (h0 : t.val % 4 = 0) :=
  kernelRun0_A (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) ((hcond0_0 t).mpr h0) (cA1 t h0) (cA2 t h0) (cA3 t h0) (iblk m c 0 t) (iblk m c 1 t) (iblk m c 2 t) (iblk m c 3 t)
abbrev runB (c : Dev nD) (t : Fin cfg0.N) (h0 : ¬t.val % 4 = 0) (h1 : t.val % 4 ≤ t.val / 4 % 4) (h3 : ¬t.val % 4 = 3) (s : St F) :=
  kernelRun0_B (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (cN0 t h0) (cP1 t h1) (cN2 t h1) (cN3 t h3) (iblk m c 0 t) (iblk m c 1 t) (iblk m c 2 t) (iblk m c 3 t) s.sm s.sl s.sa s.sq
abbrev runC (c : Dev nD) (t : Fin cfg0.N) (h0 : ¬t.val % 4 = 0) (h1 : ¬t.val % 4 ≤ t.val / 4 % 4) (h3 : ¬t.val % 4 = 3) (s : St F) :=
  kernelRun0_C (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (cN0 t h0) (cN1 t h1) (cP2 t h1) (cN3 t h3) (iblk m c 0 t) (iblk m c 1 t) (iblk m c 2 t) (iblk m c 3 t) s.sm s.sl s.sa s.sq
abbrev runD (c : Dev nD) (t : Fin cfg0.N) (h0 : ¬t.val % 4 = 0) (h1 : t.val % 4 ≤ t.val / 4 % 4) (h3 : t.val % 4 = 3) (s : St F) :=
  kernelRun0_D (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (cN0 t h0) (cP1 t h1) (cN2 t h1) (cP3 t h3) (iblk m c 0 t) (iblk m c 1 t) (iblk m c 2 t) (iblk m c 3 t) s.sm s.sl s.sa s.sq
abbrev runE (c : Dev nD) (t : Fin cfg0.N) (h0 : ¬t.val % 4 = 0) (h1 : ¬t.val % 4 ≤ t.val / 4 % 4) (h3 : t.val % 4 = 3) (s : St F) :=
  kernelRun0_E (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) (cN0 t h0) (cN1 t h1) (cP2 t h1) (cP3 t h3) (iblk m c 0 t) (iblk m c 1 t) (iblk m c 2 t) (iblk m c 3 t) s.sm s.sl s.sa s.sq

/-- First key tile: every scratch buffer is stored whole; the output window is left alone (a placeholder nothing consults). -/
def stA (c : Dev nD) (t : Fin cfg0.N) (h0 : t.val % 4 = 0) : St F :=
  ⟨rbO [], rb0 (runA m c t h0).1, rb1 (runA m c t h0).2.1, rb2 (runA m c t h0).2.2.1, rb3 (runA m c t h0).2.2.2.1⟩
/-- A later active key tile: maximum, denominator and accumulator updated; the kept query tile stays. -/
def stB (c : Dev nD) (t : Fin cfg0.N) (h0 : ¬t.val % 4 = 0) (h1 : t.val % 4 ≤ t.val / 4 % 4) (h3 : ¬t.val % 4 = 3) (s : St F) : St F :=
  ⟨rbO [], rb0 (runB m c t h0 h1 h3 s).1, rb1 (runB m c t h0 h1 h3 s).2.1, rb2 (runB m c t h0 h1 h3 s).2.2.1, s.sq⟩
/-- A key tile in the causal future: the closed-form update. -/
def stC (c : Dev nD) (t : Fin cfg0.N) (h0 : ¬t.val % 4 = 0) (h1 : ¬t.val % 4 ≤ t.val / 4 % 4) (h3 : ¬t.val % 4 = 3) (s : St F) : St F :=
  ⟨rbO [], rb0 (runC m c t h0 h1 h3 s).1, rb1 (runC m c t h0 h1 h3 s).2.1, rb2 (runC m c t h0 h1 h3 s).2.2.1, s.sq⟩
/-- The last key tile, active: the update, then the output block. -/
def stD (c : Dev nD) (t : Fin cfg0.N) (h0 : ¬t.val % 4 = 0) (h1 : t.val % 4 ≤ t.val / 4 % 4) (h3 : t.val % 4 = 3) (s : St F) : St F :=
  ⟨rbO (runD m c t h0 h1 h3 s).1, rb0 (runD m c t h0 h1 h3 s).2.1, rb1 (runD m c t h0 h1 h3 s).2.2.1, rb2 (runD m c t h0 h1 h3 s).2.2.2.1, s.sq⟩
/-- The last key tile, in the causal future: the closed-form update, then the output block. -/
def stE (c : Dev nD) (t : Fin cfg0.N) (h0 : ¬t.val % 4 = 0) (h1 : ¬t.val % 4 ≤ t.val / 4 % 4) (h3 : t.val % 4 = 3) (s : St F) : St F :=
  ⟨rbO (runE m c t h0 h1 h3 s).1, rb0 (runE m c t h0 h1 h3 s).2.1, rb1 (runE m c t h0 h1 h3 s).2.2.1, rb2 (runE m c t h0 h1 h3 s).2.2.2.1, s.sq⟩

/-! ## Each case's stored pieces cover the buffer they were stored into -/

theorem covA0 (c : Dev nD) (t : Fin cfg0.N) (h0 : t.val % 4 = 0) (y : S512x1.Idx) : ∃ pc ∈ (runA m c t h0).1, y ∈ pc.1.set :=
  View.cover_of_tiledL (runA m c t h0).1 S512x1.size (by sl_kernel_rfl) y
theorem covA1 (c : Dev nD) (t : Fin cfg0.N) (h0 : t.val % 4 = 0) (y : S512x1.Idx) : ∃ pc ∈ (runA m c t h0).2.1, y ∈ pc.1.set :=
  View.cover_of_tiledL (runA m c t h0).2.1 S512x1.size (by sl_kernel_rfl) y
theorem covA2 (c : Dev nD) (t : Fin cfg0.N) (h0 : t.val % 4 = 0) (y : S512x64.Idx) : ∃ pc ∈ (runA m c t h0).2.2.1, y ∈ pc.1.set :=
  View.cover_of_tiledL (runA m c t h0).2.2.1 S512x64.size (by sl_kernel_rfl) y
theorem covA3 (c : Dev nD) (t : Fin cfg0.N) (h0 : t.val % 4 = 0) (y : S512x64.Idx) : ∃ pc ∈ (runA m c t h0).2.2.2.1, y ∈ pc.1.set :=
  View.cover_of_tiledL (runA m c t h0).2.2.2.1 S512x64.size (by sl_kernel_rfl) y
theorem covB0 (c : Dev nD) (t : Fin cfg0.N) (h0 : ¬t.val % 4 = 0) (h1 : t.val % 4 ≤ t.val / 4 % 4) (h3 : ¬t.val % 4 = 3) (s : St F) (y : S512x1.Idx) : ∃ pc ∈ (runB m c t h0 h1 h3 s).1, y ∈ pc.1.set :=
  View.cover_of_tiledL (runB m c t h0 h1 h3 s).1 S512x1.size (by sl_kernel_rfl) y
theorem covB1 (c : Dev nD) (t : Fin cfg0.N) (h0 : ¬t.val % 4 = 0) (h1 : t.val % 4 ≤ t.val / 4 % 4) (h3 : ¬t.val % 4 = 3) (s : St F) (y : S512x1.Idx) : ∃ pc ∈ (runB m c t h0 h1 h3 s).2.1, y ∈ pc.1.set :=
  View.cover_of_tiledL (runB m c t h0 h1 h3 s).2.1 S512x1.size (by sl_kernel_rfl) y
theorem covB2 (c : Dev nD) (t : Fin cfg0.N) (h0 : ¬t.val % 4 = 0) (h1 : t.val % 4 ≤ t.val / 4 % 4) (h3 : ¬t.val % 4 = 3) (s : St F) (y : S512x64.Idx) : ∃ pc ∈ (runB m c t h0 h1 h3 s).2.2.1, y ∈ pc.1.set :=
  View.cover_of_tiledL (runB m c t h0 h1 h3 s).2.2.1 S512x64.size (by sl_kernel_rfl) y
theorem covC0 (c : Dev nD) (t : Fin cfg0.N) (h0 : ¬t.val % 4 = 0) (h1 : ¬t.val % 4 ≤ t.val / 4 % 4) (h3 : ¬t.val % 4 = 3) (s : St F) (y : S512x1.Idx) : ∃ pc ∈ (runC m c t h0 h1 h3 s).1, y ∈ pc.1.set :=
  View.cover_of_tiledL (runC m c t h0 h1 h3 s).1 S512x1.size (by sl_kernel_rfl) y
theorem covC1 (c : Dev nD) (t : Fin cfg0.N) (h0 : ¬t.val % 4 = 0) (h1 : ¬t.val % 4 ≤ t.val / 4 % 4) (h3 : ¬t.val % 4 = 3) (s : St F) (y : S512x1.Idx) : ∃ pc ∈ (runC m c t h0 h1 h3 s).2.1, y ∈ pc.1.set :=
  View.cover_of_tiledL (runC m c t h0 h1 h3 s).2.1 S512x1.size (by sl_kernel_rfl) y
theorem covC2 (c : Dev nD) (t : Fin cfg0.N) (h0 : ¬t.val % 4 = 0) (h1 : ¬t.val % 4 ≤ t.val / 4 % 4) (h3 : ¬t.val % 4 = 3) (s : St F) (y : S512x64.Idx) : ∃ pc ∈ (runC m c t h0 h1 h3 s).2.2.1, y ∈ pc.1.set :=
  View.cover_of_tiledL (runC m c t h0 h1 h3 s).2.2.1 S512x64.size (by sl_kernel_rfl) y
theorem covD4 (c : Dev nD) (t : Fin cfg0.N) (h0 : ¬t.val % 4 = 0) (h1 : t.val % 4 ≤ t.val / 4 % 4) (h3 : t.val % 4 = 3) (s : St F) (y : S1x512x64.Idx) : ∃ pc ∈ (runD m c t h0 h1 h3 s).1, y ∈ pc.1.set :=
  View.cover_of_tiledL (runD m c t h0 h1 h3 s).1 S1x512x64.size (by sl_kernel_rfl) y
theorem covD0 (c : Dev nD) (t : Fin cfg0.N) (h0 : ¬t.val % 4 = 0) (h1 : t.val % 4 ≤ t.val / 4 % 4) (h3 : t.val % 4 = 3) (s : St F) (y : S512x1.Idx) : ∃ pc ∈ (runD m c t h0 h1 h3 s).2.1, y ∈ pc.1.set :=
  View.cover_of_tiledL (runD m c t h0 h1 h3 s).2.1 S512x1.size (by sl_kernel_rfl) y
theorem covD1 (c : Dev nD) (t : Fin cfg0.N) (h0 : ¬t.val % 4 = 0) (h1 : t.val % 4 ≤ t.val / 4 % 4) (h3 : t.val % 4 = 3) (s : St F) (y : S512x1.Idx) : ∃ pc ∈ (runD m c t h0 h1 h3 s).2.2.1, y ∈ pc.1.set :=
  View.cover_of_tiledL (runD m c t h0 h1 h3 s).2.2.1 S512x1.size (by sl_kernel_rfl) y
theorem covD2 (c : Dev nD) (t : Fin cfg0.N) (h0 : ¬t.val % 4 = 0) (h1 : t.val % 4 ≤ t.val / 4 % 4) (h3 : t.val % 4 = 3) (s : St F) (y : S512x64.Idx) : ∃ pc ∈ (runD m c t h0 h1 h3 s).2.2.2.1, y ∈ pc.1.set :=
  View.cover_of_tiledL (runD m c t h0 h1 h3 s).2.2.2.1 S512x64.size (by sl_kernel_rfl) y
theorem covE4 (c : Dev nD) (t : Fin cfg0.N) (h0 : ¬t.val % 4 = 0) (h1 : ¬t.val % 4 ≤ t.val / 4 % 4) (h3 : t.val % 4 = 3) (s : St F) (y : S1x512x64.Idx) : ∃ pc ∈ (runE m c t h0 h1 h3 s).1, y ∈ pc.1.set :=
  View.cover_of_tiledL (runE m c t h0 h1 h3 s).1 S1x512x64.size (by sl_kernel_rfl) y
theorem covE0 (c : Dev nD) (t : Fin cfg0.N) (h0 : ¬t.val % 4 = 0) (h1 : ¬t.val % 4 ≤ t.val / 4 % 4) (h3 : t.val % 4 = 3) (s : St F) (y : S512x1.Idx) : ∃ pc ∈ (runE m c t h0 h1 h3 s).2.1, y ∈ pc.1.set :=
  View.cover_of_tiledL (runE m c t h0 h1 h3 s).2.1 S512x1.size (by sl_kernel_rfl) y
theorem covE1 (c : Dev nD) (t : Fin cfg0.N) (h0 : ¬t.val % 4 = 0) (h1 : ¬t.val % 4 ≤ t.val / 4 % 4) (h3 : t.val % 4 = 3) (s : St F) (y : S512x1.Idx) : ∃ pc ∈ (runE m c t h0 h1 h3 s).2.2.1, y ∈ pc.1.set :=
  View.cover_of_tiledL (runE m c t h0 h1 h3 s).2.2.1 S512x1.size (by sl_kernel_rfl) y
theorem covE2 (c : Dev nD) (t : Fin cfg0.N) (h0 : ¬t.val % 4 = 0) (h1 : ¬t.val % 4 ≤ t.val / 4 % 4) (h3 : t.val % 4 = 3) (s : St F) (y : S512x64.Idx) : ∃ pc ∈ (runE m c t h0 h1 h3 s).2.2.2.1, y ∈ pc.1.set :=
  View.cover_of_tiledL (runE m c t h0 h1 h3 s).2.2.2.1 S512x64.size (by sl_kernel_rfl) y

/-! ## Point by point -/

/-- What the output's staging buffer and the scratch hold after the body at position `n`: the case the closed forms
    select, the later cases over what position `n − 1` left. -/
def outsAt0 (c : Dev nD) : (n : ℕ) → n < cfg0.N → St F
  | 0, hn => stA m c ⟨0, hn⟩ (Nat.zero_mod _)
  | n + 1, hn =>
    if h0 : (n + 1) % 4 = 0 then stA m c ⟨n + 1, hn⟩ h0
    else if h1 : (n + 1) % 4 ≤ (n + 1) / 4 % 4 then
      (if h3 : (n + 1) % 4 = 3 then stD m c ⟨n + 1, hn⟩ h0 h1 h3 (outsAt0 c n (Nat.lt_of_succ_lt hn))
       else stB m c ⟨n + 1, hn⟩ h0 h1 h3 (outsAt0 c n (Nat.lt_of_succ_lt hn)))
    else
      (if h3 : (n + 1) % 4 = 3 then stE m c ⟨n + 1, hn⟩ h0 h1 h3 (outsAt0 c n (Nat.lt_of_succ_lt hn))
       else stC m c ⟨n + 1, hn⟩ h0 h1 h3 (outsAt0 c n (Nat.lt_of_succ_lt hn)))

theorem outsAt0_A (c : Dev nD) (t : Fin cfg0.N) (h0 : t.val % 4 = 0) :
    outsAt0 m c t.val t.isLt = stA m c t h0 := by
  obtain ⟨n, hn⟩ := t
  cases n with
  | zero => rfl
  | succ n => exact dif_pos h0

theorem outsAt0_B (c : Dev nD) (t : Fin cfg0.N) (h0 : ¬t.val % 4 = 0) (h1 : t.val % 4 ≤ t.val / 4 % 4) (h3 : ¬t.val % 4 = 3) :
    outsAt0 m c t.val t.isLt = stB m c t h0 h1 h3 (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans (dif_neg h3))

theorem outsAt0_C (c : Dev nD) (t : Fin cfg0.N) (h0 : ¬t.val % 4 = 0) (h1 : ¬t.val % 4 ≤ t.val / 4 % 4) (h3 : ¬t.val % 4 = 3) :
    outsAt0 m c t.val t.isLt = stC m c t h0 h1 h3 (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans (dif_neg h3))

theorem outsAt0_D (c : Dev nD) (t : Fin cfg0.N) (h0 : ¬t.val % 4 = 0) (h1 : t.val % 4 ≤ t.val / 4 % 4) (h3 : t.val % 4 = 3) :
    outsAt0 m c t.val t.isLt = stD m c t h0 h1 h3 (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans (dif_pos h3))

theorem outsAt0_E (c : Dev nD) (t : Fin cfg0.N) (h0 : ¬t.val % 4 = 0) (h1 : ¬t.val % 4 ≤ t.val / 4 % 4) (h3 : t.val % 4 = 3) :
    outsAt0 m c t.val t.isLt = stE m c t h0 h1 h3 (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans (dif_pos h3))

/-! ## The region invariant and the proof data -/

/-- Before the first point the scratch holds anything; afterwards each scratch buffer holds what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).sm) ∗ owns (c : Thread nD τ) scM0_1 fullShare ((outsAt0 m c n hn).sl) ∗ owns (c : Thread nD τ) scM0_2 fullShare ((outsAt0 m c n hn).sa) ∗ owns (c : Thread nD τ) scM0_3 fullShare ((outsAt0 m c n hn).sq)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).sm) ∗ owns (c : Thread nD τ) scM0_1 fullShare ((outsAt0 m c n hn).sl) ∗ owns (c : Thread nD τ) scM0_2 fullShare ((outsAt0 m c n hn).sa) ∗ owns (c : Thread nD τ) scM0_3 fullShare ((outsAt0 m c n hn).sq)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).sm) ∗ owns (c : Thread nD τ) scM0_1 fullShare ((outsAt0 m c (n - 1) (by omega)).sl) ∗ owns (c : Thread nD τ) scM0_2 fullShare ((outsAt0 m c (n - 1) (by omega)).sa) ∗ owns (c : Thread nD τ) scM0_3 fullShare ((outsAt0 m c (n - 1) (by omega)).sq)) ∗ (∃ r, prngReg c r)) := by
  cases n with
  | zero => exact absurd rfl hz
  | succ n => rfl

/-- The pipeline's proof data on core `c`: the arrays as the region finds them; each input's buffer at its block after the
    body; the output's at `outsAt0`'s first component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).o
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).o := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

end Cert.KernelIdeal.Gen

end
-- ==== Proof.KernelIdealFrame.lean ====
/- The attention kernel's body obligation, its run and its frame. At every grid point the body is called with the
   region invariant, the four input windows at their blocks and the output window at whatever it held; the closed
   forms of the four conditions say which of the five control cases the point is in, that case's whole-body run
   applies, and what it hands back is the invariant at the next point: each scratch buffer at what the case stored,
   read back from stored pieces that cover it, the kept query tile untouched after the first key tile. The output
   window is idle away from the last key tile and holds the stored block there. From the obligation the pipeline's
   frame run follows, and from it the frame claim: the four argument arrays are left as launched. -/
import proofs.«425486_j403726926205_3_alg».proof.Proof.KernelIdealState

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- What the body is called with at point `t`: the invariant, what is owed, and the five windows' current buffers. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- What the body returns: the invariant at the next point, the same debt, and each window's buffer as the point leaves it. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4000000 in
/-- First key tile: every scratch buffer is handed over at whatever it holds and taken back stored whole; the output window is idle. -/
theorem sound_body_A (c : Dev nD) (t : Fin cfg0.N) (h0 : t.val % 4 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by unfold Dat.leavesExact; rw [liveAt0_0 t], after0_0]
  rw [show (dats m 0 c).leavesExact 1 t = owns (c : Thread nD τ) (ms0_1 t) fullShare ((dats m 0 c).after 1 t) from by unfold Dat.leavesExact; rw [liveAt0_1 t], after0_1]
  rw [show (dats m 0 c).leavesExact 2 t = owns (c : Thread nD τ) (ms0_2 t) fullShare ((dats m 0 c).after 2 t) from by unfold Dat.leavesExact; rw [liveAt0_2 t], after0_2]
  rw [show (dats m 0 c).leavesExact 3 t = owns (c : Thread nD τ) (ms0_3 t) fullShare ((dats m 0 c).after 3 t) from by unfold Dat.leavesExact; rw [liveAt0_3 t], after0_3]
  rw [Dat.leavesExact_idle (dats m 0 c) 4 t (idleAt0_4 t (cA3 t h0)) (noFlush0_4 t (cA3 t h0))]
  rw [outsAt0_A m c t h0]
  unfold stA; dsimp only
  by_cases hz : t.val = 0
  · rw [PhiS_castSucc m c t, PhiS_zero m c _ _ hz, PhiA0_eq]
    iintro ⟨⟨⟨HS0, HS1, HS2, HS3⟩, Hg⟩, Ho, ⟨%d0, H0⟩, ⟨%d1, H1⟩, ⟨%d2, H2⟩, ⟨%d3, H3⟩, ⟨%d4, H4⟩⟩
    iapply ((runA m c t h0).2.2.2.2 _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    isplitl [HS2]; · iexact HS2
    isplitl [HS3]; · iexact HS3
    iintro ⟨H0, H1, H2, H3, H4, ⟨%e0, HS0⟩, ⟨%e1, HS1⟩, ⟨%e2, HS2⟩, ⟨%e3, HS3⟩⟩
    isplitl [HS0 HS1 HS2 HS3 Hg]
    · isplitl [HS0 HS1 HS2 HS3]
      · isplitl [HS0]
        · unfold owns; iexists _; isplitr
          swap; · iexact HS0
          ipureintro; exact View.read_writes_of_cover _ _ _ _ _ (covA0 m c t h0)
        isplitl [HS1]
        · unfold owns; iexists _; isplitr
          swap; · iexact HS1
          ipureintro; exact View.read_writes_of_cover _ _ _ _ _ (covA1 m c t h0)
        isplitl [HS2]
        · unfold owns; iexists _; isplitr
          swap; · iexact HS2
          ipureintro; exact View.read_writes_of_cover _ _ _ _ _ (covA2 m c t h0)
        unfold owns; iexists _; isplitr
        swap; · iexact HS3
        ipureintro; exact View.read_writes_of_cover _ _ _ _ _ (covA3 m c t h0)
      iexact Hg
    isplitl [Ho]; · iexact Ho
    isplitl [H0]; · iexact H0
    isplitl [H1]; · iexact H1
    isplitl [H2]; · iexact H2
    isplitl [H3]; · iexact H3
    iexists _; iexact H4
  · rw [PhiS_castSucc m c t, PhiS_pos m c _ _ hz]
    iintro ⟨⟨⟨HS0, HS1, HS2, HS3⟩, Hg⟩, Ho, ⟨%d0, H0⟩, ⟨%d1, H1⟩, ⟨%d2, H2⟩, ⟨%d3, H3⟩, ⟨%d4, H4⟩⟩
    iapply ((runA m c t h0).2.2.2.2 _ Set.univ _)
    isplitl [H0]; · iexact H0
    isplitl [H1]; · iexact H1
    isplitl [H2]; · iexact H2
    isplitl [H3]; · iexact H3
    isplitl [H4]; · iexact H4
    isplitl [HS0]; · iexists _; iexact HS0
    isplitl [HS1]; · iexists _; iexact HS1
    isplitl [HS2]; · iexists _; iexact HS2
    isplitl [HS3]; · iexists _; iexact HS3
    iintro ⟨H0, H1, H2, H3, H4, ⟨%e0, HS0⟩, ⟨%e1, HS1⟩, ⟨%e2, HS2⟩, ⟨%e3, HS3⟩⟩
    isplitl [HS0 HS1 HS2 HS3 Hg]
    · isplitl [HS0 HS1 HS2 HS3]
      · isplitl [HS0]
        · unfold owns; iexists _; isplitr
          swap; · iexact HS0
          ipureintro; exact View.read_writes_of_cover _ _ _ _ _ (covA0 m c t h0)
        isplitl [HS1]
        · unfold owns; iexists _; isplitr
          swap; · iexact HS1
          ipureintro; exact View.read_writes_of_cover _ _ _ _ _ (covA1 m c t h0)
        isplitl [HS2]
        · unfold owns; iexists _; isplitr
          swap; · iexact HS2
          ipureintro; exact View.read_writes_of_cover _ _ _ _ _ (covA2 m c t h0)
        unfold owns; iexists _; isplitr
        swap; · iexact HS3
        ipureintro; exact View.read_writes_of_cover _ _ _ _ _ (covA3 m c t h0)
      iexact Hg
    isplitl [Ho]; · iexact Ho
    isplitl [H0]; · iexact H0
    isplitl [H1]; · iexact H1
    isplitl [H2]; · iexact H2
    isplitl [H3]; · iexact H3
    iexists _; iexact H4

set_option maxHeartbeats 4000000 in
/-- A later key tile meeting the causal triangle, not the last: the three running quantities are handed over at what the point before left and taken back updated; the kept query tile comes back as it was; the output window is idle. -/
theorem sound_body_B (c : Dev nD) (t : Fin cfg0.N) (h0 : ¬t.val % 4 = 0) (h1 : t.val % 4 ≤ t.val / 4 % 4) (h3 : ¬t.val % 4 = 3) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by unfold Dat.leavesExact; rw [liveAt0_0 t], after0_0]
  rw [show (dats m 0 c).leavesExact 1 t = owns (c : Thread nD τ) (ms0_1 t) fullShare ((dats m 0 c).after 1 t) from by unfold Dat.leavesExact; rw [liveAt0_1 t], after0_1]
  rw [show (dats m 0 c).leavesExact 2 t = owns (c : Thread nD τ) (ms0_2 t) fullShare ((dats m 0 c).after 2 t) from by unfold Dat.leavesExact; rw [liveAt0_2 t], after0_2]
  rw [show (dats m 0 c).leavesExact 3 t = owns (c : Thread nD τ) (ms0_3 t) fullShare ((dats m 0 c).after 3 t) from by unfold Dat.leavesExact; rw [liveAt0_3 t], after0_3]
  rw [Dat.leavesExact_idle (dats m 0 c) 4 t (idleAt0_4 t (cN3 t h3)) (noFlush0_4 t (cN3 t h3))]
  rw [outsAt0_B m c t h0 h1 h3]
  unfold stB; dsimp only
  have hz : t.val ≠ 0 := by omega
  rw [PhiS_castSucc m c t, PhiS_pos m c _ _ hz]
  iintro ⟨⟨⟨HS0, HS1, HS2, HS3⟩, Hg⟩, Ho, ⟨%d0, H0⟩, ⟨%d1, H1⟩, ⟨%d2, H2⟩, ⟨%d3, H3⟩, ⟨%d4, H4⟩⟩
  iapply ((runB m c t h0 h1 h3 (outsAt0 m c (t.val - 1) (Nat.lt_of_le_of_lt (Nat.sub_le _ _) t.isLt))).2.2.2 _ Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  isplitl [HS3]; · iexact HS3
  iintro ⟨H0, H1, H2, H3, H4, ⟨%e0, HS0⟩, ⟨%e1, HS1⟩, ⟨%e2, HS2⟩, HS3⟩
  isplitl [HS0 HS1 HS2 HS3 Hg]
  · isplitl [HS0 HS1 HS2 HS3]
    · isplitl [HS0]
      · unfold owns; iexists _; isplitr
        swap; · iexact HS0
        ipureintro; exact View.read_writes_of_cover _ _ _ _ _ (covB0 m c t h0 h1 h3 (outsAt0 m c (t.val - 1) (Nat.lt_of_le_of_lt (Nat.sub_le _ _) t.isLt)))
      isplitl [HS1]
      · unfold owns; iexists _; isplitr
        swap; · iexact HS1
        ipureintro; exact View.read_writes_of_cover _ _ _ _ _ (covB1 m c t h0 h1 h3 (outsAt0 m c (t.val - 1) (Nat.lt_of_le_of_lt (Nat.sub_le _ _) t.isLt)))
      isplitl [HS2]
      · unfold owns; iexists _; isplitr
        swap; · iexact HS2
        ipureintro; exact View.read_writes_of_cover _ _ _ _ _ (covB2 m c t h0 h1 h3 (outsAt0 m c (t.val - 1) (Nat.lt_of_le_of_lt (Nat.sub_le _ _) t.isLt)))
      iexact HS3
    iexact Hg
  isplitl [Ho]; · iexact Ho
  isplitl [H0]; · iexact H0
  isplitl [H1]; · iexact H1
  isplitl [H2]; · iexact H2
  isplitl [H3]; · iexact H3
  iexists _; iexact H4

set_option maxHeartbeats 4000000 in
/-- A key tile wholly in the causal future, not the last: as the case before, with the closed-form update. -/
theorem sound_body_C (c : Dev nD) (t : Fin cfg0.N) (h0 : ¬t.val % 4 = 0) (h1 : ¬t.val % 4 ≤ t.val / 4 % 4) (h3 : ¬t.val % 4 = 3) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by unfold Dat.leavesExact; rw [liveAt0_0 t], after0_0]
  rw [show (dats m 0 c).leavesExact 1 t = owns (c : Thread nD τ) (ms0_1 t) fullShare ((dats m 0 c).after 1 t) from by unfold Dat.leavesExact; rw [liveAt0_1 t], after0_1]
  rw [show (dats m 0 c).leavesExact 2 t = owns (c : Thread nD τ) (ms0_2 t) fullShare ((dats m 0 c).after 2 t) from by unfold Dat.leavesExact; rw [liveAt0_2 t], after0_2]
  rw [show (dats m 0 c).leavesExact 3 t = owns (c : Thread nD τ) (ms0_3 t) fullShare ((dats m 0 c).after 3 t) from by unfold Dat.leavesExact; rw [liveAt0_3 t], after0_3]
  rw [Dat.leavesExact_idle (dats m 0 c) 4 t (idleAt0_4 t (cN3 t h3)) (noFlush0_4 t (cN3 t h3))]
  rw [outsAt0_C m c t h0 h1 h3]
  unfold stC; dsimp only
  have hz : t.val ≠ 0 := by omega
  rw [PhiS_castSucc m c t, PhiS_pos m c _ _ hz]
  iintro ⟨⟨⟨HS0, HS1, HS2, HS3⟩, Hg⟩, Ho, ⟨%d0, H0⟩, ⟨%d1, H1⟩, ⟨%d2, H2⟩, ⟨%d3, H3⟩, ⟨%d4, H4⟩⟩
  iapply ((runC m c t h0 h1 h3 (outsAt0 m c (t.val - 1) (Nat.lt_of_le_of_lt (Nat.sub_le _ _) t.isLt))).2.2.2 _ Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  isplitl [HS3]; · iexact HS3
  iintro ⟨H0, H1, H2, H3, H4, ⟨%e0, HS0⟩, ⟨%e1, HS1⟩, ⟨%e2, HS2⟩, HS3⟩
  isplitl [HS0 HS1 HS2 HS3 Hg]
  · isplitl [HS0 HS1 HS2 HS3]
    · isplitl [HS0]
      · unfold owns; iexists _; isplitr
        swap; · iexact HS0
        ipureintro; exact View.read_writes_of_cover _ _ _ _ _ (covC0 m c t h0 h1 h3 (outsAt0 m c (t.val - 1) (Nat.lt_of_le_of_lt (Nat.sub_le _ _) t.isLt)))
      isplitl [HS1]
      · unfold owns; iexists _; isplitr
        swap; · iexact HS1
        ipureintro; exact View.read_writes_of_cover _ _ _ _ _ (covC1 m c t h0 h1 h3 (outsAt0 m c (t.val - 1) (Nat.lt_of_le_of_lt (Nat.sub_le _ _) t.isLt)))
      isplitl [HS2]
      · unfold owns; iexists _; isplitr
        swap; · iexact HS2
        ipureintro; exact View.read_writes_of_cover _ _ _ _ _ (covC2 m c t h0 h1 h3 (outsAt0 m c (t.val - 1) (Nat.lt_of_le_of_lt (Nat.sub_le _ _) t.isLt)))
      iexact HS3
    iexact Hg
  isplitl [Ho]; · iexact Ho
  isplitl [H0]; · iexact H0
  isplitl [H1]; · iexact H1
  isplitl [H2]; · iexact H2
  isplitl [H3]; · iexact H3
  iexists _; iexact H4

set_option maxHeartbeats 4000000 in
/-- The last key tile, meeting the causal triangle: the update, and the output window taken back at the stored block. -/
theorem sound_body_D (c : Dev nD) (t : Fin cfg0.N) (h0 : ¬t.val % 4 = 0) (h1 : t.val % 4 ≤ t.val / 4 % 4) (h3 : t.val % 4 = 3) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by unfold Dat.leavesExact; rw [liveAt0_0 t], after0_0]
  rw [show (dats m 0 c).leavesExact 1 t = owns (c : Thread nD τ) (ms0_1 t) fullShare ((dats m 0 c).after 1 t) from by unfold Dat.leavesExact; rw [liveAt0_1 t], after0_1]
  rw [show (dats m 0 c).leavesExact 2 t = owns (c : Thread nD τ) (ms0_2 t) fullShare ((dats m 0 c).after 2 t) from by unfold Dat.leavesExact; rw [liveAt0_2 t], after0_2]
  rw [show (dats m 0 c).leavesExact 3 t = owns (c : Thread nD τ) (ms0_3 t) fullShare ((dats m 0 c).after 3 t) from by unfold Dat.leavesExact; rw [liveAt0_3 t], after0_3]
  rw [show (dats m 0 c).leavesExact 4 t = owns (c : Thread nD τ) (ms0_4 t) fullShare ((dats m 0 c).after 4 t) from by unfold Dat.leavesExact; rw [liveAt0_4 t (cP3 t h3)], after0_4]
  rw [outsAt0_D m c t h0 h1 h3]
  unfold stD; dsimp only
  have hz : t.val ≠ 0 := by omega
  rw [PhiS_castSucc m c t, PhiS_pos m c _ _ hz]
  iintro ⟨⟨⟨HS0, HS1, HS2, HS3⟩, Hg⟩, Ho, ⟨%d0, H0⟩, ⟨%d1, H1⟩, ⟨%d2, H2⟩, ⟨%d3, H3⟩, ⟨%d4, H4⟩⟩
  iapply ((runD m c t h0 h1 h3 (outsAt0 m c (t.val - 1) (Nat.lt_of_le_of_lt (Nat.sub_le _ _) t.isLt))).2.2.2.2 Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HS2]; · iexact HS2
  isplitl [HS3]; · iexact HS3
  iintro ⟨H0, H1, H2, H3, ⟨%e4, H4⟩, ⟨%e0, HS0⟩, ⟨%e1, HS1⟩, ⟨%e2, HS2⟩, HS3⟩
  isplitl [HS0 HS1 HS2 HS3 Hg]
  · isplitl [HS0 HS1 HS2 HS3]
    · isplitl [HS0]
      · unfold owns; iexists _; isplitr
        swap; · iexact HS0
        ipureintro; exact View.read_writes_of_cover _ _ _ _ _ (covD0 m c t h0 h1 h3 (outsAt0 m c (t.val - 1) (Nat.lt_of_le_of_lt (Nat.sub_le _ _) t.isLt)))
      isplitl [HS1]
      · unfold owns; iexists _; isplitr
        swap; · iexact HS1
        ipureintro; exact View.read_writes_of_cover _ _ _ _ _ (covD1 m c t h0 h1 h3 (outsAt0 m c (t.val - 1) (Nat.lt_of_le_of_lt (Nat.sub_le _ _) t.isLt)))
      isplitl [HS2]
      · unfold owns; iexists _; isplitr
        swap; · iexact HS2
        ipureintro; exact View.read_writes_of_cover _ _ _ _ _ (covD2 m c t h0 h1 h3 (outsAt0 m c (t.val - 1) (Nat.lt_of_le_of_lt (Nat.sub_le _ _) t.isLt)))
      iexact HS3
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (covD4 m c t h0 h1 h3 (outsAt0 m c (t.val - 1) (Nat.lt_of_le_of_lt (Nat.sub_le _ _) t.isLt)))

set_option maxHeartbeats 4000000 in
/-- The last key tile, wholly in the causal future: the closed-form update, and the output window taken back at the stored block. -/
theorem sound_body_E (c : Dev nD) (t : Fin cfg0.N) (h0 : ¬t.val % 4 = 0) (h1 : ¬t.val % 4 ≤ t.val / 4 % 4) (h3 : t.val % 4 = 3) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by unfold Dat.leavesExact; rw [liveAt0_0 t], after0_0]
  rw [show (dats m 0 c).leavesExact 1 t = owns (c : Thread nD τ) (ms0_1 t) fullShare ((dats m 0 c).after 1 t) from by unfold Dat.leavesExact; rw [liveAt0_1 t], after0_1]
  rw [show (dats m 0 c).leavesExact 2 t = owns (c : Thread nD τ) (ms0_2 t) fullShare ((dats m 0 c).after 2 t) from by unfold Dat.leavesExact; rw [liveAt0_2 t], after0_2]
  rw [show (dats m 0 c).leavesExact 3 t = owns (c : Thread nD τ) (ms0_3 t) fullShare ((dats m 0 c).after 3 t) from by unfold Dat.leavesExact; rw [liveAt0_3 t], after0_3]
  rw [show (dats m 0 c).leavesExact 4 t = owns (c : Thread nD τ) (ms0_4 t) fullShare ((dats m 0 c).after 4 t) from by unfold Dat.leavesExact; rw [liveAt0_4 t (cP3 t h3)], after0_4]
  rw [outsAt0_E m c t h0 h1 h3]
  unfold stE; dsimp only
  have hz : t.val ≠ 0 := by omega
  rw [PhiS_castSucc m c t, PhiS_pos m c _ _ hz]
  iintro ⟨⟨⟨HS0, HS1, HS2, HS3⟩, Hg⟩, Ho, ⟨%d0, H0⟩, ⟨%d1, H1⟩, ⟨%d2, H2⟩, ⟨%d3, H3⟩, ⟨%d4, H4⟩⟩
  iapply ((runE m c t h0 h1 h3 (outsAt0 m c (t.val - 1) (Nat.lt_of_le_of_lt (Nat.sub_le _ _) t.isLt))).2.2.2.2 Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HS2]; · iexact HS2
  isplitl [HS3]; · iexact HS3
  iintro ⟨H0, H1, H2, H3, ⟨%e4, H4⟩, ⟨%e0, HS0⟩, ⟨%e1, HS1⟩, ⟨%e2, HS2⟩, HS3⟩
  isplitl [HS0 HS1 HS2 HS3 Hg]
  · isplitl [HS0 HS1 HS2 HS3]
    · isplitl [HS0]
      · unfold owns; iexists _; isplitr
        swap; · iexact HS0
        ipureintro; exact View.read_writes_of_cover _ _ _ _ _ (covE0 m c t h0 h1 h3 (outsAt0 m c (t.val - 1) (Nat.lt_of_le_of_lt (Nat.sub_le _ _) t.isLt)))
      isplitl [HS1]
      · unfold owns; iexists _; isplitr
        swap; · iexact HS1
        ipureintro; exact View.read_writes_of_cover _ _ _ _ _ (covE1 m c t h0 h1 h3 (outsAt0 m c (t.val - 1) (Nat.lt_of_le_of_lt (Nat.sub_le _ _) t.isLt)))
      isplitl [HS2]
      · unfold owns; iexists _; isplitr
        swap; · iexact HS2
        ipureintro; exact View.read_writes_of_cover _ _ _ _ _ (covE2 m c t h0 h1 h3 (outsAt0 m c (t.val - 1) (Nat.lt_of_le_of_lt (Nat.sub_le _ _) t.isLt)))
      iexact HS3
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (covE4 m c t h0 h1 h3 (outsAt0 m c (t.val - 1) (Nat.lt_of_le_of_lt (Nat.sub_le _ _) t.isLt)))

/-- The body at any point: the closed forms select the control case, and that case's lemma applies. -/
theorem sound_body (c : Dev nD) (t : Fin cfg0.N) :
    bodyPre m c t ⊢ wp frame (wpE (defs₀ (F := F)) Variants.none c none) Set.univ (bodyAt0 t) (fun _ => bodyPost m c t) := by
  by_cases h0 : t.val % 4 = 0
  · exact sound_body_A m c t h0
  · by_cases h1 : t.val % 4 ≤ t.val / 4 % 4
    · by_cases h3 : t.val % 4 = 3
      · exact sound_body_D m c t h0 h1 h3
      · exact sound_body_B m c t h0 h1 h3
    · by_cases h3 : t.val % 4 = 3
      · exact sound_body_E m c t h0 h1 h3
      · exact sound_body_C m c t h0 h1 h3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the launch's back: the scratch buffers' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 512 := N_0; omega)

/-! ## The run and the frame -/

set_option backward.isDefEq.respectTransparency.types false in
/-- From any memory with zero counters every weakly fair execution of the program on the TensorCores terminates, with every
    array of the pipeline at what the proof data computes and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := hin m) (hout := hout m)

/-- The frame: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Gen

end
-- ==== Proof.KernelIdealStep.lean ====
/- The body's effect on the scratch as pure functions of what it reads, case by case, over the skeleton's payloads:
   the active-tile update of the running maximum / denominator / accumulator (`actM`, `actL`, `actA`), the closed-form
   update for a key tile in the causal future (`futM`, `futL`, `futA`), and the output block `accumulator / denominator`
   (`outO`); `stepA` … `stepE` assemble them into what each control case leaves. -/
import proofs.«425486_j403726926205_3_alg».proof.Proof.KernelIdealState

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The query-tile and key-tile coordinates as the words the body computes with. -/
abbrev qw (i : grid0.Coords) : BitVec 32 := BitVec.ofNat 32 (i 1).val
abbrev kw (i : grid0.Coords) : BitVec 32 := BitVec.ofNat 32 (i 2).val

/-- Active tile: the new running maximum. -/
def actM (a1 a2 : BitVec 32) (sq : Vec F S512x64 .bf16) (x1 : Vec F S1x512x64 .f32) (x3 : Vec F S1x1x512 .f32) (sm : Vec F S512x1 .f32) : Vec F S512x1 .f32 :=
  k0_pay7 (k0_pay17 a1 a2 sq x1 x3 sm)
/-- Active tile: the new running denominator. -/
def actL (a1 a2 : BitVec 32) (sq : Vec F S512x64 .bf16) (x1 : Vec F S1x512x64 .f32) (x3 : Vec F S1x1x512 .f32) (sm sl : Vec F S512x1 .f32) : Vec F S512x1 .f32 :=
  k0_pay5 (k0_pay18 a1 a2 sq x1 x3 sm) (k0_pay19 a1 a2 sq x1 x3 sm) sl
/-- Active tile: the new accumulator. -/
def actA (a1 a2 : BitVec 32) (sq : Vec F S512x64 .bf16) (x1 x2 : Vec F S1x512x64 .f32) (x3 : Vec F S1x1x512 .f32) (sm : Vec F S512x1 .f32) (sa : Vec F S512x64 .f32) : Vec F S512x64 .f32 :=
  k0_pay6 (k0_pay15 x2) (k0_pay18 a1 a2 sq x1 x3 sm) (k0_pay19 a1 a2 sq x1 x3 sm) sa
/-- Future tile: the new running maximum, denominator and accumulator. -/
def futM (sm : Vec F S512x1 .f32) : Vec F S512x1 .f32 := k0_pay13 sm
def futL (sm sl : Vec F S512x1 .f32) : Vec F S512x1 .f32 := k0_pay11 sm sl
def futA (x2 : Vec F S1x512x64 .f32) (sm : Vec F S512x1 .f32) (sa : Vec F S512x64 .f32) : Vec F S512x64 .f32 := k0_pay12 x2 sm sa
/-- The output block: accumulator divided by denominator. -/
def outO (sa : Vec F S512x64 .f32) (sl : Vec F S512x1 .f32) : Vec F S1x512x64 .f32 := k0_pay14 sa sl

def stepA (i : grid0.Coords) (x0 x1 x2 : Vec F S1x512x64 .f32) (x3 : Vec F S1x1x512 .f32) : St F :=
  ⟨rbO [], actM (qw i) (kw i) (k0_pay4 x0) x1 x3 k0_pay1, actL (qw i) (kw i) (k0_pay4 x0) x1 x3 k0_pay1 k0_pay2,
    actA (qw i) (kw i) (k0_pay4 x0) x1 x2 x3 k0_pay1 k0_pay3, k0_pay4 x0⟩
def stepB (i : grid0.Coords) (x1 x2 : Vec F S1x512x64 .f32) (x3 : Vec F S1x1x512 .f32) (s : St F) : St F :=
  ⟨rbO [], actM (qw i) (kw i) s.sq x1 x3 s.sm, actL (qw i) (kw i) s.sq x1 x3 s.sm s.sl, actA (qw i) (kw i) s.sq x1 x2 x3 s.sm s.sa, s.sq⟩
def stepC (x2 : Vec F S1x512x64 .f32) (s : St F) : St F :=
  ⟨rbO [], futM s.sm, futL s.sm s.sl, futA x2 s.sm s.sa, s.sq⟩
def stepD (i : grid0.Coords) (x1 x2 : Vec F S1x512x64 .f32) (x3 : Vec F S1x1x512 .f32) (s : St F) : St F :=
  ⟨outO (actA (qw i) (kw i) s.sq x1 x2 x3 s.sm s.sa) (actL (qw i) (kw i) s.sq x1 x3 s.sm s.sl),
    actM (qw i) (kw i) s.sq x1 x3 s.sm, actL (qw i) (kw i) s.sq x1 x3 s.sm s.sl, actA (qw i) (kw i) s.sq x1 x2 x3 s.sm s.sa, s.sq⟩
def stepE (x2 : Vec F S1x512x64 .f32) (s : St F) : St F :=
  ⟨outO (futA x2 s.sm s.sa) (futL s.sm s.sl), futM s.sm, futL s.sm s.sl, futA x2 s.sm s.sa, s.sq⟩

end Cert.KernelIdeal.Gen

end
-- ==== Proof.KernelIdealPieces.lean ====
/- What each control case stores, named: the pieces a case's run found for each scratch buffer (and, at the last key
   tile, for the output block), read back, are the skeleton's payloads of the point's input blocks and of what the point
   before left — the pure step functions `stepA` … `stepE`. Each buffer is stored whole, the last store deciding; a load
   after a store in the same run reads what was stored. -/
import proofs.«425486_j403726926205_3_alg».proof.Proof.KernelIdealStep
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Reading a whole buffer through its whole rectangle -/

/-- The zero offsets of a two-axis and of a three-axis rectangle, as the constant function. -/
theorem hz2 : (![0, 0] : Fin (2 : ℕ) → ℕ) = fun _ => 0 := by funext a; fin_cases a <;> rfl
theorem hz3 : (![0, 0, 0] : Fin (3 : ℕ) → ℕ) = fun _ => 0 := by funext a; fin_cases a <;> rfl

/-- A whole scratch buffer reads back the contents it was given. -/
theorem rdS0 (h : (scM0_0 : Memref sig .tc .vmem S512x1 .f32).IsWhole) (X : Vec F S512x1 .f32) :
    View.read (Elt F) (View.whole cc0_scratch0) (h.unread X) = X := h.read_unread X
theorem rdS1 (h : (scM0_1 : Memref sig .tc .vmem S512x1 .f32).IsWhole) (X : Vec F S512x1 .f32) :
    View.read (Elt F) (View.whole cc0_scratch1) (h.unread X) = X := h.read_unread X
theorem rdS2 (h : (scM0_2 : Memref sig .tc .vmem S512x64 .f32).IsWhole) (X : Vec F S512x64 .f32) :
    View.read (Elt F) (View.whole cc0_scratch2) (h.unread X) = X := h.read_unread X
theorem rdS3 (h : (scM0_3 : Memref sig .tc .vmem S512x64 .bf16).IsWhole) (X : Vec F S512x64 .bf16) :
    View.read (Elt F) (View.whole cc0_scratch3) (h.unread X) = X := h.read_unread X

/-! ## A later active key tile: one store into each of the three running buffers -/

/-- The running maximum: the one stored piece is the active-tile maximum of what the tile before left. -/
theorem stB_sm (c : Dev nD) (t : Fin cfg0.N) (h0 : ¬t.val % 4 = 0) (h1 : t.val % 4 ≤ t.val / 4 % 4) (h3 : ¬t.val % 4 = 3) (s : St F) :
    (stB m c t h0 h1 h3 s).sm = actM (qw (grid0.coords t)) (kw (grid0.coords t)) s.sq (iblk m c 1 t) (iblk m c 3 t) s.sm := by
  unfold stB; dsimp only
  unfold rb0
  rw [View.read_writes_eq_canon _ _ _ (covB0 m c t h0 h1 h3 s)]
  unfold runB kernelRun0_B
  dsimp only
  sl_unfold_words
  rw [View.canon_unit_zero hz2]
  simp only [View.readAt_eq_ld, Memref.IsWhole.read_unread, rdS0, rdS1, rdS2, rdS3, View.readCov_unit_zero (S := S512x1) _ hz2, View.readCov_unit_zero (S := S512x64) _ hz2, View.ld_unit_zero (S := S512x1) hz2, View.ld_unit_zero (S := S512x64) hz2, View.ld_unit_zero (S := S1x512x64) hz3, View.ld_unit_zero (S := S1x1x512) hz3]
  rfl

/-- The running denominator. -/
theorem stB_sl (c : Dev nD) (t : Fin cfg0.N) (h0 : ¬t.val % 4 = 0) (h1 : t.val % 4 ≤ t.val / 4 % 4) (h3 : ¬t.val % 4 = 3) (s : St F) :
    (stB m c t h0 h1 h3 s).sl = actL (qw (grid0.coords t)) (kw (grid0.coords t)) s.sq (iblk m c 1 t) (iblk m c 3 t) s.sm s.sl := by
  unfold stB; dsimp only
  unfold rb1
  rw [View.read_writes_eq_canon _ _ _ (covB1 m c t h0 h1 h3 s)]
  unfold runB kernelRun0_B
  dsimp only
  sl_unfold_words
  rw [View.canon_unit_zero hz2]
  simp only [View.readAt_eq_ld, Memref.IsWhole.read_unread, rdS0, rdS1, rdS2, rdS3, View.readCov_unit_zero (S := S512x1) _ hz2, View.readCov_unit_zero (S := S512x64) _ hz2, View.ld_unit_zero (S := S512x1) hz2, View.ld_unit_zero (S := S512x64) hz2, View.ld_unit_zero (S := S1x512x64) hz3, View.ld_unit_zero (S := S1x1x512) hz3]
  rfl

/-- The accumulator. -/
theorem stB_sa (c : Dev nD) (t : Fin cfg0.N) (h0 : ¬t.val % 4 = 0) (h1 : t.val % 4 ≤ t.val / 4 % 4) (h3 : ¬t.val % 4 = 3) (s : St F) :
    (stB m c t h0 h1 h3 s).sa = actA (qw (grid0.coords t)) (kw (grid0.coords t)) s.sq (iblk m c 1 t) (iblk m c 2 t) (iblk m c 3 t) s.sm s.sa := by
  unfold stB; dsimp only
  unfold rb2
  rw [View.read_writes_eq_canon _ _ _ (covB2 m c t h0 h1 h3 s)]
  unfold runB kernelRun0_B
  dsimp only
  sl_unfold_words
  rw [View.canon_unit_zero hz2]
  simp only [View.readAt_eq_ld, Memref.IsWhole.read_unread, rdS0, rdS1, rdS2, rdS3, View.readCov_unit_zero (S := S512x1) _ hz2, View.readCov_unit_zero (S := S512x64) _ hz2, View.ld_unit_zero (S := S512x1) hz2, View.ld_unit_zero (S := S512x64) hz2, View.ld_unit_zero (S := S1x512x64) hz3, View.ld_unit_zero (S := S1x1x512) hz3]
  rfl

theorem stB_eq (c : Dev nD) (t : Fin cfg0.N) (h0 : ¬t.val % 4 = 0) (h1 : t.val % 4 ≤ t.val / 4 % 4) (h3 : ¬t.val % 4 = 3) (s : St F) :
    stB m c t h0 h1 h3 s = stepB (grid0.coords t) (iblk m c 1 t) (iblk m c 2 t) (iblk m c 3 t) s := by
  have e0 := stB_sm m c t h0 h1 h3 s
  have e1 := stB_sl m c t h0 h1 h3 s
  have e2 := stB_sa m c t h0 h1 h3 s
  unfold stB at e0 e1 e2 ⊢
  unfold stepB
  dsimp only at e0 e1 e2
  rw [e0, e1, e2]

/-! ## A key tile in the causal future: the closed-form update -/

/-- The running maximum. -/
theorem stC_sm (c : Dev nD) (t : Fin cfg0.N) (h0 : ¬t.val % 4 = 0) (h1 : ¬t.val % 4 ≤ t.val / 4 % 4) (h3 : ¬t.val % 4 = 3) (s : St F) :
    (stC m c t h0 h1 h3 s).sm = futM s.sm := by
  unfold stC; dsimp only
  unfold rb0
  rw [View.read_writes_eq_canon _ _ _ (covC0 m c t h0 h1 h3 s)]
  unfold runC kernelRun0_C
  dsimp only
  sl_unfold_words
  rw [View.canon_unit_zero hz2]
  simp only [View.readAt_eq_ld, Memref.IsWhole.read_unread, rdS0, rdS1, rdS2, rdS3, View.readCov_unit_zero (S := S512x1) _ hz2, View.readCov_unit_zero (S := S512x64) _ hz2, View.ld_unit_zero (S := S512x1) hz2, View.ld_unit_zero (S := S512x64) hz2, View.ld_unit_zero (S := S1x512x64) hz3, View.ld_unit_zero (S := S1x1x512) hz3]
  rfl

/-- The running denominator. -/
theorem stC_sl (c : Dev nD) (t : Fin cfg0.N) (h0 : ¬t.val % 4 = 0) (h1 : ¬t.val % 4 ≤ t.val / 4 % 4) (h3 : ¬t.val % 4 = 3) (s : St F) :
    (stC m c t h0 h1 h3 s).sl = futL s.sm s.sl := by
  unfold stC; dsimp only
  unfold rb1
  rw [View.read_writes_eq_canon _ _ _ (covC1 m c t h0 h1 h3 s)]
  unfold runC kernelRun0_C
  dsimp only
  sl_unfold_words
  rw [View.canon_unit_zero hz2]
  simp only [View.readAt_eq_ld, Memref.IsWhole.read_unread, rdS0, rdS1, rdS2, rdS3, View.readCov_unit_zero (S := S512x1) _ hz2, View.readCov_unit_zero (S := S512x64) _ hz2, View.ld_unit_zero (S := S512x1) hz2, View.ld_unit_zero (S := S512x64) hz2, View.ld_unit_zero (S := S1x512x64) hz3, View.ld_unit_zero (S := S1x1x512) hz3]
  rfl

/-- The accumulator. -/
theorem stC_sa (c : Dev nD) (t : Fin cfg0.N) (h0 : ¬t.val % 4 = 0) (h1 : ¬t.val % 4 ≤ t.val / 4 % 4) (h3 : ¬t.val % 4 = 3) (s : St F) :
    (stC m c t h0 h1 h3 s).sa = futA (iblk m c 2 t) s.sm s.sa := by
  unfold stC; dsimp only
  unfold rb2
  rw [View.read_writes_eq_canon _ _ _ (covC2 m c t h0 h1 h3 s)]
  unfold runC kernelRun0_C
  dsimp only
  sl_unfold_words
  rw [View.canon_unit_zero hz2]
  simp only [View.readAt_eq_ld, Memref.IsWhole.read_unread, rdS0, rdS1, rdS2, rdS3, View.readCov_unit_zero (S := S512x1) _ hz2, View.readCov_unit_zero (S := S512x64) _ hz2, View.ld_unit_zero (S := S512x1) hz2, View.ld_unit_zero (S := S512x64) hz2, View.ld_unit_zero (S := S1x512x64) hz3, View.ld_unit_zero (S := S1x1x512) hz3]
  rfl

theorem stC_eq (c : Dev nD) (t : Fin cfg0.N) (h0 : ¬t.val % 4 = 0) (h1 : ¬t.val % 4 ≤ t.val / 4 % 4) (h3 : ¬t.val % 4 = 3) (s : St F) :
    stC m c t h0 h1 h3 s = stepC (iblk m c 2 t) s := by
  have e0 := stC_sm m c t h0 h1 h3 s
  have e1 := stC_sl m c t h0 h1 h3 s
  have e2 := stC_sa m c t h0 h1 h3 s
  unfold stC at e0 e1 e2 ⊢
  unfold stepC
  dsimp only at e0 e1 e2
  rw [e0, e1, e2]

/-! ## The last key tile, active: the update, then the output block from the buffers just stored -/

/-- The output block divides the accumulator just stored by the denominator just stored: both are loaded after their stores and read what was stored. -/
theorem stD_o (c : Dev nD) (t : Fin cfg0.N) (h0 : ¬t.val % 4 = 0) (h1 : t.val % 4 ≤ t.val / 4 % 4) (h3 : t.val % 4 = 3) (s : St F) :
    (stD m c t h0 h1 h3 s).o = outO (actA (qw (grid0.coords t)) (kw (grid0.coords t)) s.sq (iblk m c 1 t) (iblk m c 2 t) (iblk m c 3 t) s.sm s.sa) (actL (qw (grid0.coords t)) (kw (grid0.coords t)) s.sq (iblk m c 1 t) (iblk m c 3 t) s.sm s.sl) := by
  unfold stD; dsimp only
  unfold rbO
  rw [View.read_writes_eq_canon _ _ _ (covD4 m c t h0 h1 h3 s)]
  unfold runD kernelRun0_D
  dsimp only
  sl_unfold_words
  rw [View.canon_unit_zero hz3]
  simp only [View.readAt_eq_ld, Memref.IsWhole.read_unread, rdS0, rdS1, rdS2, rdS3, View.readCov_unit_zero (S := S512x1) _ hz2, View.readCov_unit_zero (S := S512x64) _ hz2, View.ld_unit_zero (S := S512x1) hz2, View.ld_unit_zero (S := S512x64) hz2, View.ld_unit_zero (S := S1x512x64) hz3, View.ld_unit_zero (S := S1x1x512) hz3]
  rfl

/-- The running maximum. -/
theorem stD_sm (c : Dev nD) (t : Fin cfg0.N) (h0 : ¬t.val % 4 = 0) (h1 : t.val % 4 ≤ t.val / 4 % 4) (h3 : t.val % 4 = 3) (s : St F) :
    (stD m c t h0 h1 h3 s).sm = actM (qw (grid0.coords t)) (kw (grid0.coords t)) s.sq (iblk m c 1 t) (iblk m c 3 t) s.sm := by
  unfold stD; dsimp only
  unfold rb0
  rw [View.read_writes_eq_canon _ _ _ (covD0 m c t h0 h1 h3 s)]
  unfold runD kernelRun0_D
  dsimp only
  sl_unfold_words
  rw [View.canon_unit_zero hz2]
  simp only [View.readAt_eq_ld, Memref.IsWhole.read_unread, rdS0, rdS1, rdS2, rdS3, View.readCov_unit_zero (S := S512x1) _ hz2, View.readCov_unit_zero (S := S512x64) _ hz2, View.ld_unit_zero (S := S512x1) hz2, View.ld_unit_zero (S := S512x64) hz2, View.ld_unit_zero (S := S1x512x64) hz3, View.ld_unit_zero (S := S1x1x512) hz3]
  rfl

/-- The running denominator. -/
theorem stD_sl (c : Dev nD) (t : Fin cfg0.N) (h0 : ¬t.val % 4 = 0) (h1 : t.val % 4 ≤ t.val / 4 % 4) (h3 : t.val % 4 = 3) (s : St F) :
    (stD m c t h0 h1 h3 s).sl = actL (qw (grid0.coords t)) (kw (grid0.coords t)) s.sq (iblk m c 1 t) (iblk m c 3 t) s.sm s.sl := by
  unfold stD; dsimp only
  unfold rb1
  rw [View.read_writes_eq_canon _ _ _ (covD1 m c t h0 h1 h3 s)]
  unfold runD kernelRun0_D
  dsimp only
  sl_unfold_words
  rw [View.canon_unit_zero hz2]
  simp only [View.readAt_eq_ld, Memref.IsWhole.read_unread, rdS0, rdS1, rdS2, rdS3, View.readCov_unit_zero (S := S512x1) _ hz2, View.readCov_unit_zero (S := S512x64) _ hz2, View.ld_unit_zero (S := S512x1) hz2, View.ld_unit_zero (S := S512x64) hz2, View.ld_unit_zero (S := S1x512x64) hz3, View.ld_unit_zero (S := S1x1x512) hz3]
  rfl

/-- The accumulator. -/
theorem stD_sa (c : Dev nD) (t : Fin cfg0.N) (h0 : ¬t.val % 4 = 0) (h1 : t.val % 4 ≤ t.val / 4 % 4) (h3 : t.val % 4 = 3) (s : St F) :
    (stD m c t h0 h1 h3 s).sa = actA (qw (grid0.coords t)) (kw (grid0.coords t)) s.sq (iblk m c 1 t) (iblk m c 2 t) (iblk m c 3 t) s.sm s.sa := by
  unfold stD; dsimp only
  unfold rb2
  rw [View.read_writes_eq_canon _ _ _ (covD2 m c t h0 h1 h3 s)]
  unfold runD kernelRun0_D
  dsimp only
  sl_unfold_words
  rw [View.canon_unit_zero hz2]
  simp only [View.readAt_eq_ld, Memref.IsWhole.read_unread, rdS0, rdS1, rdS2, rdS3, View.readCov_unit_zero (S := S512x1) _ hz2, View.readCov_unit_zero (S := S512x64) _ hz2, View.ld_unit_zero (S := S512x1) hz2, View.ld_unit_zero (S := S512x64) hz2, View.ld_unit_zero (S := S1x512x64) hz3, View.ld_unit_zero (S := S1x1x512) hz3]
  rfl

theorem stD_eq (c : Dev nD) (t : Fin cfg0.N) (h0 : ¬t.val % 4 = 0) (h1 : t.val % 4 ≤ t.val / 4 % 4) (h3 : t.val % 4 = 3) (s : St F) :
    stD m c t h0 h1 h3 s = stepD (grid0.coords t) (iblk m c 1 t) (iblk m c 2 t) (iblk m c 3 t) s := by
  have e0 := stD_o m c t h0 h1 h3 s
  have e1 := stD_sm m c t h0 h1 h3 s
  have e2 := stD_sl m c t h0 h1 h3 s
  have e3 := stD_sa m c t h0 h1 h3 s
  unfold stD at e0 e1 e2 e3 ⊢
  unfold stepD
  dsimp only at e0 e1 e2 e3
  rw [e0, e1, e2, e3]

/-! ## The last key tile, in the causal future: the closed-form update, then the output block -/

/-- The output block, from the accumulator and denominator just stored. -/
theorem stE_o (c : Dev nD) (t : Fin cfg0.N) (h0 : ¬t.val % 4 = 0) (h1 : ¬t.val % 4 ≤ t.val / 4 % 4) (h3 : t.val % 4 = 3) (s : St F) :
    (stE m c t h0 h1 h3 s).o = outO (futA (iblk m c 2 t) s.sm s.sa) (futL s.sm s.sl) := by
  unfold stE; dsimp only
  unfold rbO
  rw [View.read_writes_eq_canon _ _ _ (covE4 m c t h0 h1 h3 s)]
  unfold runE kernelRun0_E
  dsimp only
  sl_unfold_words
  rw [View.canon_unit_zero hz3]
  simp only [View.readAt_eq_ld, Memref.IsWhole.read_unread, rdS0, rdS1, rdS2, rdS3, View.readCov_unit_zero (S := S512x1) _ hz2, View.readCov_unit_zero (S := S512x64) _ hz2, View.ld_unit_zero (S := S512x1) hz2, View.ld_unit_zero (S := S512x64) hz2, View.ld_unit_zero (S := S1x512x64) hz3, View.ld_unit_zero (S := S1x1x512) hz3]
  rfl

/-- The running maximum. -/
theorem stE_sm (c : Dev nD) (t : Fin cfg0.N) (h0 : ¬t.val % 4 = 0) (h1 : ¬t.val % 4 ≤ t.val / 4 % 4) (h3 : t.val % 4 = 3) (s : St F) :
    (stE m c t h0 h1 h3 s).sm = futM s.sm := by
  unfold stE; dsimp only
  unfold rb0
  rw [View.read_writes_eq_canon _ _ _ (covE0 m c t h0 h1 h3 s)]
  unfold runE kernelRun0_E
  dsimp only
  sl_unfold_words
  rw [View.canon_unit_zero hz2]
  simp only [View.readAt_eq_ld, Memref.IsWhole.read_unread, rdS0, rdS1, rdS2, rdS3, View.readCov_unit_zero (S := S512x1) _ hz2, View.readCov_unit_zero (S := S512x64) _ hz2, View.ld_unit_zero (S := S512x1) hz2, View.ld_unit_zero (S := S512x64) hz2, View.ld_unit_zero (S := S1x512x64) hz3, View.ld_unit_zero (S := S1x1x512) hz3]
  rfl

/-- The running denominator. -/
theorem stE_sl (c : Dev nD) (t : Fin cfg0.N) (h0 : ¬t.val % 4 = 0) (h1 : ¬t.val % 4 ≤ t.val / 4 % 4) (h3 : t.val % 4 = 3) (s : St F) :
    (stE m c t h0 h1 h3 s).sl = futL s.sm s.sl := by
  unfold stE; dsimp only
  unfold rb1
  rw [View.read_writes_eq_canon _ _ _ (covE1 m c t h0 h1 h3 s)]
  unfold runE kernelRun0_E
  dsimp only
  sl_unfold_words
  rw [View.canon_unit_zero hz2]
  simp only [View.readAt_eq_ld, Memref.IsWhole.read_unread, rdS0, rdS1, rdS2, rdS3, View.readCov_unit_zero (S := S512x1) _ hz2, View.readCov_unit_zero (S := S512x64) _ hz2, View.ld_unit_zero (S := S512x1) hz2, View.ld_unit_zero (S := S512x64) hz2, View.ld_unit_zero (S := S1x512x64) hz3, View.ld_unit_zero (S := S1x1x512) hz3]
  rfl

/-- The accumulator. -/
theorem stE_sa (c : Dev nD) (t : Fin cfg0.N) (h0 : ¬t.val % 4 = 0) (h1 : ¬t.val % 4 ≤ t.val / 4 % 4) (h3 : t.val % 4 = 3) (s : St F) :
    (stE m c t h0 h1 h3 s).sa = futA (iblk m c 2 t) s.sm s.sa := by
  unfold stE; dsimp only
  unfold rb2
  rw [View.read_writes_eq_canon _ _ _ (covE2 m c t h0 h1 h3 s)]
  unfold runE kernelRun0_E
  dsimp only
  sl_unfold_words
  rw [View.canon_unit_zero hz2]
  simp only [View.readAt_eq_ld, Memref.IsWhole.read_unread, rdS0, rdS1, rdS2, rdS3, View.readCov_unit_zero (S := S512x1) _ hz2, View.readCov_unit_zero (S := S512x64) _ hz2, View.ld_unit_zero (S := S512x1) hz2, View.ld_unit_zero (S := S512x64) hz2, View.ld_unit_zero (S := S1x512x64) hz3, View.ld_unit_zero (S := S1x1x512) hz3]
  rfl

theorem stE_eq (c : Dev nD) (t : Fin cfg0.N) (h0 : ¬t.val % 4 = 0) (h1 : ¬t.val % 4 ≤ t.val / 4 % 4) (h3 : t.val % 4 = 3) (s : St F) :
    stE m c t h0 h1 h3 s = stepE (iblk m c 2 t) s := by
  have e0 := stE_o m c t h0 h1 h3 s
  have e1 := stE_sm m c t h0 h1 h3 s
  have e2 := stE_sl m c t h0 h1 h3 s
  have e3 := stE_sa m c t h0 h1 h3 s
  unfold stE at e0 e1 e2 e3 ⊢
  unfold stepE
  dsimp only at e0 e1 e2 e3
  rw [e0, e1, e2, e3]

/-! ## The first key tile: each running buffer is reset, then updated from the reset values; the later store decides -/

/-- The running maximum: the update, computed from the reset maximum and the query tile just kept, covers the reset. -/
theorem stA_sm (c : Dev nD) (t : Fin cfg0.N) (h0 : t.val % 4 = 0) :
    (stA m c t h0).sm = actM (qw (grid0.coords t)) (kw (grid0.coords t)) (k0_pay4 (iblk m c 0 t)) (iblk m c 1 t) (iblk m c 3 t) k0_pay1 := by
  unfold stA; dsimp only
  unfold rb0
  rw [View.read_writes_eq_canon _ _ _ (covA0 m c t h0)]
  unfold runA kernelRun0_A
  dsimp only
  sl_unfold_words
  rw [View.canon_cons_unit_zero (S := S512x1) hz2]
  simp only [View.readAt_eq_ld, Memref.IsWhole.read_unread, rdS0, rdS1, rdS2, rdS3, View.readCov_unit_zero (S := S512x1) _ hz2, View.readCov_unit_zero (S := S512x64) _ hz2, View.ld_unit_zero (S := S512x1) hz2, View.ld_unit_zero (S := S512x64) hz2, View.ld_unit_zero (S := S1x512x64) hz3, View.ld_unit_zero (S := S1x1x512) hz3]
  rfl

/-- The running denominator. -/
theorem stA_sl (c : Dev nD) (t : Fin cfg0.N) (h0 : t.val % 4 = 0) :
    (stA m c t h0).sl = actL (qw (grid0.coords t)) (kw (grid0.coords t)) (k0_pay4 (iblk m c 0 t)) (iblk m c 1 t) (iblk m c 3 t) k0_pay1 k0_pay2 := by
  unfold stA; dsimp only
  unfold rb1
  rw [View.read_writes_eq_canon _ _ _ (covA1 m c t h0)]
  unfold runA kernelRun0_A
  dsimp only
  sl_unfold_words
  rw [View.canon_cons_unit_zero (S := S512x1) hz2]
  simp only [View.readAt_eq_ld, Memref.IsWhole.read_unread, rdS0, rdS1, rdS2, rdS3, View.readCov_unit_zero (S := S512x1) _ hz2, View.readCov_unit_zero (S := S512x64) _ hz2, View.ld_unit_zero (S := S512x1) hz2, View.ld_unit_zero (S := S512x64) hz2, View.ld_unit_zero (S := S1x512x64) hz3, View.ld_unit_zero (S := S1x1x512) hz3]
  rfl

/-- The accumulator. -/
theorem stA_sa (c : Dev nD) (t : Fin cfg0.N) (h0 : t.val % 4 = 0) :
    (stA m c t h0).sa = actA (qw (grid0.coords t)) (kw (grid0.coords t)) (k0_pay4 (iblk m c 0 t)) (iblk m c 1 t) (iblk m c 2 t) (iblk m c 3 t) k0_pay1 k0_pay3 := by
  unfold stA; dsimp only
  unfold rb2
  rw [View.read_writes_eq_canon _ _ _ (covA2 m c t h0)]
  unfold runA kernelRun0_A
  dsimp only
  sl_unfold_words
  rw [View.canon_cons_unit_zero (S := S512x64) hz2]
  simp only [View.readAt_eq_ld, Memref.IsWhole.read_unread, rdS0, rdS1, rdS2, rdS3, View.readCov_unit_zero (S := S512x1) _ hz2, View.readCov_unit_zero (S := S512x64) _ hz2, View.ld_unit_zero (S := S512x1) hz2, View.ld_unit_zero (S := S512x64) hz2, View.ld_unit_zero (S := S1x512x64) hz3, View.ld_unit_zero (S := S1x1x512) hz3]
  rfl

/-- The kept query tile: stored once. -/
theorem stA_sq (c : Dev nD) (t : Fin cfg0.N) (h0 : t.val % 4 = 0) :
    (stA m c t h0).sq = k0_pay4 (iblk m c 0 t) := by
  unfold stA; dsimp only
  unfold rb3
  rw [View.read_writes_eq_canon _ _ _ (covA3 m c t h0)]
  unfold runA kernelRun0_A
  dsimp only
  sl_unfold_words
  rw [View.canon_unit_zero hz2]
  simp only [View.readAt_eq_ld, Memref.IsWhole.read_unread, rdS0, rdS1, rdS2, rdS3, View.readCov_unit_zero (S := S512x1) _ hz2, View.readCov_unit_zero (S := S512x64) _ hz2, View.ld_unit_zero (S := S512x1) hz2, View.ld_unit_zero (S := S512x64) hz2, View.ld_unit_zero (S := S1x512x64) hz3, View.ld_unit_zero (S := S1x1x512) hz3]

theorem stA_eq (c : Dev nD) (t : Fin cfg0.N) (h0 : t.val % 4 = 0) :
    stA m c t h0 = stepA (grid0.coords t) (iblk m c 0 t) (iblk m c 1 t) (iblk m c 2 t) (iblk m c 3 t) := by
  have e0 := stA_sm m c t h0
  have e1 := stA_sl m c t h0
  have e2 := stA_sa m c t h0
  have e3 := stA_sq m c t h0
  unfold stA at e0 e1 e2 e3 ⊢
  unfold stepA
  dsimp only at e0 e1 e2 e3
  rw [e0, e1, e2, e3]

end Cert.KernelIdeal.Gen

end
-- ==== Proof.LibColumnLayout.lean ====
/-
  A column kept as a trailing unit axis, read at an index given by coordinates.

  A sum along the last axis with the reduced axis kept has shape `[a, 1]`: a vector's value for row `p` sits at
  `(p, 0)`. Two layout steps surround such a column: the cast of an `[a]` vector to the `[a, 1]` column (entry `(p, u)`
  is the vector's entry `p`, since the row-major position `p · 1 + u` is `p`), and the broadcast of the column along a
  new last axis of length `b` (entry `(p, c)` is the column's entry `(p, 0)`, whatever `c`). Both are stated for any
  element type and any extents, over indices written by coordinates.
-/
import Idealize.ShloMosaic.Lib.Pipeline.Value
import Idealize.ShloMosaic.Lib.ValueIdx

namespace Idealize.ShloMosaic.ValueIdx

open Idealize.ShloMosaic

variable {α : Type}

/-- An `[a]` vector cast to the `[a, 1]` column reads, at `(p, u)`, the vector at `p`: the unit coordinate `u` is `0`, so
    both row-major positions are `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry for row `p`: the row coordinate is
    kept (when `a = 1` it is `0` either way), the unit axis reads its only entry. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KernelIdealPayIdx.lean ====
/- The step functions of the attention kernel read at an index, at the ideal instance (every float an extended
   real): one entry of a tile's score matrix `(q_p · k_u) · 2⁻³ + mask_u · (−2³²)`, kept when the key is not in the
   query's future and replaced by `−2³²` otherwise; the active tile's new maximum, denominator and accumulator as a
   maximum and sums over the tile's 512 keys; the future tile's closed forms; the output as a quotient. -/
import proofs.«425486_j403726926205_3_alg».proof.Proof.KernelIdealStep
import Idealize.ShloMosaic.Lib.Pipeline.Value
import Idealize.ShloMosaic.Lib.ValueIdx
import Idealize.ShloMosaic.Lib.ValueLayout
import Idealize.ShloMosaic.PureOps.Ideal.Laws
import proofs.«425486_j403726926205_3_alg».proof.Proof.LibColumnLayout

set_option maxRecDepth 16384

noncomputable section

namespace Cert.KernelIdeal.Gen

open Idealize.ShloMosaic Idealize.ShloMosaic.TcCoe Idealize.ShloMosaic.ValueIdx

/-- The masking constant as both programs spell it (the f32 word of −2³²). -/
abbrev Mc : EReal := Ideal.ofBits .f32 0xCF800000#32
/-- The score scale as the kernel spells it (the f32 word of 1/8). -/
abbrev eighth : EReal := Ideal.ofBits .f32 0x3E000000#32
/-- The tile width as the kernel spells it (the f32 word of 512). -/
abbrev c512 : EReal := Ideal.ofBits .f32 0x44000000#32

theorem lhs_qk_0 (i : S512x512.Idx) (q : dot_S512x64_S64x512_S512x512_1_0_0_1_n_n.contr.Idx) :
    (dot_S512x64_S64x512_S512x512_1_0_0_1_n_n.lhsIdx i q 0).val = (i 0).val := by
  unfold DotDims.lhsIdx
  rw [dif_neg (show ¬(0 : Fin S512x64.rank) ∈ dot_S512x64_S64x512_S512x512_1_0_0_1_n_n.lhsBatch by decide), dif_pos (show (0 : Fin S512x64.rank) ∈ dot_S512x64_S64x512_S512x512_1_0_0_1_n_n.lhsNonContracting by decide)]
  rfl
theorem lhs_qk_1 (i : S512x512.Idx) (q : dot_S512x64_S64x512_S512x512_1_0_0_1_n_n.contr.Idx) :
    (dot_S512x64_S64x512_S512x512_1_0_0_1_n_n.lhsIdx i q 1).val = (q ⟨0, by decide⟩).val :=
  dot_S512x64_S64x512_S512x512_1_0_0_1_n_n.lhsIdx_val_of_single rfl i q
theorem rhs_qk_0 (i : S512x512.Idx) (q : dot_S512x64_S64x512_S512x512_1_0_0_1_n_n.contr.Idx) :
    (dot_S512x64_S64x512_S512x512_1_0_0_1_n_n.rhsIdx i q 0).val = (q ⟨0, by decide⟩).val :=
  dot_S512x64_S64x512_S512x512_1_0_0_1_n_n.rhsIdx_val_of_single rfl i q
theorem rhs_qk_1 (i : S512x512.Idx) (q : dot_S512x64_S64x512_S512x512_1_0_0_1_n_n.contr.Idx) :
    (dot_S512x64_S64x512_S512x512_1_0_0_1_n_n.rhsIdx i q 1).val = (i 1).val := by
  unfold DotDims.rhsIdx
  rw [dif_neg (show ¬(1 : Fin S64x512.rank) ∈ dot_S512x64_S64x512_S512x512_1_0_0_1_n_n.rhsBatch by decide), dif_pos (show (1 : Fin S64x512.rank) ∈ dot_S512x64_S64x512_S512x512_1_0_0_1_n_n.rhsNonContracting by decide)]
  rfl

/-- The q · kᵀ product of the matrix unit, into the zero accumulator, at (p, u): the sum over the 64 features. -/
theorem matmul_qk_apply (lhs : FVec Ideal S512x64 .bf16) (rhs : FVec Ideal S64x512 .bf16) (p u : Fin 512) :
    matmul dot_S512x64_S64x512_S512x512_1_0_0_1_n_n none lhs rhs (constant (F := Ideal) S512x512 .f32 0x00000000#32) (ix2 p u)
      = ∑ e : Fin 64, lhs (ix2 p e) * rhs (ix2 e u) := by
  simp only [matmul]
  rw [Ideal.matmul_constant_zero_apply, ← Equiv.sum_comp (contrEquiv1 dot_S512x64_S64x512_S512x512_1_0_0_1_n_n 64 rfl rfl).symm]
  refine Finset.sum_congr rfl fun k _ => ?_
  have hk := contrEquiv1_symm_val dot_S512x64_S64x512_S512x512_1_0_0_1_n_n 64 rfl rfl k
  have el : dot_S512x64_S64x512_S512x512_1_0_0_1_n_n.lhsIdx (ix2 p u) ((contrEquiv1 dot_S512x64_S64x512_S512x512_1_0_0_1_n_n 64 rfl rfl).symm k) = ix2 p k := funext fun a => Fin.ext (by
    match a with
    | ⟨0, _⟩ => exact lhs_qk_0 _ _
    | ⟨1, _⟩ => exact (lhs_qk_1 _ _).trans hk)
  have er : dot_S512x64_S64x512_S512x512_1_0_0_1_n_n.rhsIdx (ix2 p u) ((contrEquiv1 dot_S512x64_S64x512_S512x512_1_0_0_1_n_n 64 rfl rfl).symm k) = ix2 k u := funext fun a => Fin.ext (by
    match a with
    | ⟨0, _⟩ => exact (rhs_qk_0 _ _).trans hk
    | ⟨1, _⟩ => exact rhs_qk_1 _ _)
  rw [el, er]

theorem lhs_pv_0 (i : S512x64.Idx) (q : dot_S512x512_S512x64_S512x64_1_0_0_1_n_n.contr.Idx) :
    (dot_S512x512_S512x64_S512x64_1_0_0_1_n_n.lhsIdx i q 0).val = (i 0).val := by
  unfold DotDims.lhsIdx
  rw [dif_neg (show ¬(0 : Fin S512x512.rank) ∈ dot_S512x512_S512x64_S512x64_1_0_0_1_n_n.lhsBatch by decide), dif_pos (show (0 : Fin S512x512.rank) ∈ dot_S512x512_S512x64_S512x64_1_0_0_1_n_n.lhsNonContracting by decide)]
  rfl
theorem lhs_pv_1 (i : S512x64.Idx) (q : dot_S512x512_S512x64_S512x64_1_0_0_1_n_n.contr.Idx) :
    (dot_S512x512_S512x64_S512x64_1_0_0_1_n_n.lhsIdx i q 1).val = (q ⟨0, by decide⟩).val :=
  dot_S512x512_S512x64_S512x64_1_0_0_1_n_n.lhsIdx_val_of_single rfl i q
theorem rhs_pv_0 (i : S512x64.Idx) (q : dot_S512x512_S512x64_S512x64_1_0_0_1_n_n.contr.Idx) :
    (dot_S512x512_S512x64_S512x64_1_0_0_1_n_n.rhsIdx i q 0).val = (q ⟨0, by decide⟩).val :=
  dot_S512x512_S512x64_S512x64_1_0_0_1_n_n.rhsIdx_val_of_single rfl i q
theorem rhs_pv_1 (i : S512x64.Idx) (q : dot_S512x512_S512x64_S512x64_1_0_0_1_n_n.contr.Idx) :
    (dot_S512x512_S512x64_S512x64_1_0_0_1_n_n.rhsIdx i q 1).val = (i 1).val := by
  unfold DotDims.rhsIdx
  rw [dif_neg (show ¬(1 : Fin S512x64.rank) ∈ dot_S512x512_S512x64_S512x64_1_0_0_1_n_n.rhsBatch by decide), dif_pos (show (1 : Fin S512x64.rank) ∈ dot_S512x512_S512x64_S512x64_1_0_0_1_n_n.rhsNonContracting by decide)]
  rfl

/-- The p · v product of the matrix unit, into the zero accumulator, at (p, d): the sum over the tile's 512 keys. -/
theorem matmul_pv_apply (lhs : FVec Ideal S512x512 .bf16) (rhs : FVec Ideal S512x64 .bf16) (p : Fin 512) (d : Fin 64) :
    matmul dot_S512x512_S512x64_S512x64_1_0_0_1_n_n none lhs rhs (constant (F := Ideal) S512x64 .f32 0x00000000#32) (ix2 p d)
      = ∑ u : Fin 512, lhs (ix2 p u) * rhs (ix2 u d) := by
  simp only [matmul]
  rw [Ideal.matmul_constant_zero_apply, ← Equiv.sum_comp (contrEquiv1 dot_S512x512_S512x64_S512x64_1_0_0_1_n_n 512 rfl rfl).symm]
  refine Finset.sum_congr rfl fun k _ => ?_
  have hk := contrEquiv1_symm_val dot_S512x512_S512x64_S512x64_1_0_0_1_n_n 512 rfl rfl k
  have el : dot_S512x512_S512x64_S512x64_1_0_0_1_n_n.lhsIdx (ix2 p d) ((contrEquiv1 dot_S512x512_S512x64_S512x64_1_0_0_1_n_n 512 rfl rfl).symm k) = ix2 p k := funext fun a => Fin.ext (by
    match a with
    | ⟨0, _⟩ => exact lhs_pv_0 _ _
    | ⟨1, _⟩ => exact (lhs_pv_1 _ _).trans hk)
  have er : dot_S512x512_S512x64_S512x64_1_0_0_1_n_n.rhsIdx (ix2 p d) ((contrEquiv1 dot_S512x512_S512x64_S512x64_1_0_0_1_n_n 512 rfl rfl).symm k) = ix2 k d := funext fun a => Fin.ext (by
    match a with
    | ⟨0, _⟩ => exact (rhs_pv_0 _ _).trans hk
    | ⟨1, _⟩ => exact rhs_pv_1 _ _)
  rw [el, er]

/-- An integer comparison of vectors, read at an index, compares the entries. -/
theorem cmpi_apply {s : Shape} {w : Nat} (c : CmpIPredicate) (x y : IVec s w) (i : s.Idx) : cmpi c x y i = Scalar.cmpi c (x i) (y i) := rfl
/-- An integer sum of vectors, read at an index, adds the entries. -/
theorem addi_apply {s : Shape} {w : Nat} (x y : IVec s w) (i : s.Idx) : addi x y i = Scalar.addi (x i) (y i) := rfl

/-- The transposed key block at (e, u) is the key block at (0, u, e). -/
theorem keyT_apply (x1 : Vec Ideal S1x512x64 .f32) (e : Fin 64) (u : Fin 512) :
    (transpose S64x512 [1, 0] (truncf (F := Ideal) .bf16 (shapeCast S512x64 x1 shapeCasts_S1x512x64_S512x64) bitsLt_bf16_f32)
      transposes_S512x64_p1_0_S64x512 (ix2 e u) : EReal) = x1 (ix3 (0 : Fin 1) u e) := by
  rw [transpose_ix2_apply, truncf_apply, shapeCast_1ab_ab_apply]

/-- One entry of the tile's score matrix, row `p`, key `u`. -/
abbrev tsc (a1 a2 : BitVec 32) (sq : Vec Ideal S512x64 .bf16) (x1 : Vec Ideal S1x512x64 .f32) (x3 : Vec Ideal S1x1x512 .f32) (p u : Fin 512) : EReal :=
  k0_pay16 (F := Ideal) a1 a2 sq x1 x3 (ix2 p u)

/-- The causal test of the body: is query position `512·a1 + p` at or after key position `512·a2 + u` (signed words)? -/
abbrev keep (a1 a2 : BitVec 32) (p u : Fin 512) : BitVec 1 :=
  Scalar.cmpi .sge (Scalar.addi (Scalar.muli a1 512#32) (BitVec.ofNat 32 p.val)) (Scalar.addi (Scalar.muli a2 512#32) (BitVec.ofNat 32 u.val))

theorem tsc_eq (a1 a2 : BitVec 32) (sq : Vec Ideal S512x64 .bf16) (x1 : Vec Ideal S1x512x64 .f32) (x3 : Vec Ideal S1x1x512 .f32) (p u : Fin 512) :
    tsc a1 a2 sq x1 x3 p u
      = Scalar.select (keep a1 a2 p u) ((∑ e : Fin 64, sq (ix2 p e) * x1 (ix3 (0 : Fin 1) u e)) * eighth + x3 (ix3 (0 : Fin 1) (0 : Fin 1) u) * Mc) Mc := by
  unfold tsc k0_pay16
  simp only [select_apply, addf_apply, mulf_apply, broadcast_apply]
  rw [matmul_qk_apply, broadcastTo_1b_ab_apply]
  simp only [mulf_apply, broadcast_apply, cmpi_apply, addi_apply]
  rw [shapeCast_1ab_ab_apply]
  rw [iota_single_apply]
  rw [iota_single_apply]
  rw [Finset.sum_congr rfl fun e _ => by rw [keyT_apply]]
  rfl

/-- The f32 word of −∞ denotes the bottom element. -/
theorem ofBits_ninf_f32 : Ideal.ofBits .f32 0xFF800000#32 = ⊥ := by simp [Ideal.ofBits, Ideal.ieee]

/-- The exponential of a vector, read at an index, is the exponential of the entry. -/
theorem exp_apply {s : Shape} {φ : FTy} (a : FVec Ideal s φ) (i : s.Idx) : exp a i = Ideal.exp (a i) := rfl

theorem pay1_apply (p : Fin 512) : k0_pay1 (F := Ideal) (ix2 p (0 : Fin 1)) = ⊥ := by
  unfold k0_pay1
  simp only [shapeCast_self, broadcast_apply]
  exact ofBits_ninf_f32
theorem pay2_apply (p : Fin 512) : k0_pay2 (F := Ideal) (ix2 p (0 : Fin 1)) = 0 := by
  unfold k0_pay2
  simp only [shapeCast_self, broadcast_apply]
  exact Ideal.ofBits_zero_f32
theorem pay3_apply (p : Fin 512) (d : Fin 64) : k0_pay3 (F := Ideal) (ix2 p d) = 0 := by
  unfold k0_pay3
  simp only [shapeCast_self, broadcast_apply]
  exact Ideal.ofBits_zero_f32
theorem pay4_apply (x0 : Vec Ideal S1x512x64 .f32) (p : Fin 512) (e : Fin 64) : k0_pay4 (F := Ideal) x0 (ix2 p e) = x0 (ix3 (0 : Fin 1) p e) := by
  unfold k0_pay4
  simp only [shapeCast_self, truncf_apply]
  exact shapeCast_1ab_ab_apply x0 _ p e

/-- The reduced index with the maximised or summed coordinate put back on axis 1 of a matrix is (p, u). -/
theorem lift_cols (h : S512x512.Reduces [1] S512) (p : Fin 512) (u : Fin 512) :
    h.lift (ix1 p) u = ix2 p u := by
  funext a
  match a with
  | ⟨0, _⟩ => rfl
  | ⟨1, _⟩ => rfl

/-- The row maxima of a 512 × 512 matrix, as the lane reduction spells them: the fold of max from −∞ over the row. -/
theorem rowmax_apply (src : FVec Ideal S512x512 .f32) (h : S512x512.Reduces [1] S512) (hφ : FKind.Formats .f32)
    (hacc : (0xFF800000#32 : BitVec 32) = 0xFF800000#32) (p : Fin 512) :
    multiReduction (F := Ideal) .maximumf [1] S512 src 0xFF800000#32 h hφ hacc (ix1 p)
      = (Finset.univ : Finset (Fin 512)).fold max (⊥ : EReal) (fun u => src (ix2 p u)) := by
  refine (Ideal.multiReduction_maximumf_single src 0xFF800000#32 h hφ hacc (ix1 p)).trans ?_
  show Finset.fold max (Ideal.ofBits .f32 0xFF800000#32) (fun u : Fin 512 => src (h.lift (ix1 p) u)) Finset.univ = _
  rw [ofBits_ninf_f32]
  exact Finset.fold_congr fun u _ => congrArg src (lift_cols h p u)

/-- The row sums of a 512 × 512 matrix, as the lane reduction spells them. -/
theorem rowsum_apply (src : FVec Ideal S512x512 .f32) (h : S512x512.Reduces [1] S512) (hφ : FKind.Formats .f32)
    (hacc : (0x00000000#32 : BitVec 32) = 0x00000000#32) (p : Fin 512) :
    multiReduction (F := Ideal) .add [1] S512 src 0x00000000#32 h hφ hacc (ix1 p) = ∑ u : Fin 512, src (ix2 p u) := by
  refine (Ideal.multiReduction_add_single src 0x00000000#32 h hφ hacc (ix1 p)).trans ?_
  exact Finset.sum_congr rfl fun u _ => congrArg src (lift_cols h p u)

/-- The active tile's new maximum is the payload the loop carries. -/
theorem actM_eq (a1 a2 : BitVec 32) (sq : Vec Ideal S512x64 .bf16) (x1 : Vec Ideal S1x512x64 .f32) (x3 : Vec Ideal S1x1x512 .f32) (sm : Vec Ideal S512x1 .f32) :
    actM (F := Ideal) a1 a2 sq x1 x3 sm = k0_pay17 (F := Ideal) a1 a2 sq x1 x3 sm := by
  unfold actM k0_pay7
  exact shapeCast_self _ _

/-- The active tile's rescaling factor of the old state. -/
theorem pay18_apply (a1 a2 : BitVec 32) (sq : Vec Ideal S512x64 .bf16) (x1 : Vec Ideal S1x512x64 .f32) (x3 : Vec Ideal S1x1x512 .f32) (sm : Vec Ideal S512x1 .f32) (p : Fin 512) :
    k0_pay18 (F := Ideal) a1 a2 sq x1 x3 sm (ix2 p (0 : Fin 1))
      = Ideal.exp (sm (ix2 p (0 : Fin 1)) - actM (F := Ideal) a1 a2 sq x1 x3 sm (ix2 p (0 : Fin 1))) := by
  rw [actM_eq]
  unfold k0_pay18
  simp only [exp_apply, subf_apply]

/-- The active tile's weight of key u in row p. -/
theorem pay19_apply (a1 a2 : BitVec 32) (sq : Vec Ideal S512x64 .bf16) (x1 : Vec Ideal S1x512x64 .f32) (x3 : Vec Ideal S1x1x512 .f32) (sm : Vec Ideal S512x1 .f32) (p u : Fin 512) :
    k0_pay19 (F := Ideal) a1 a2 sq x1 x3 sm (ix2 p u)
      = Ideal.exp (tsc a1 a2 sq x1 x3 p u - actM (F := Ideal) a1 a2 sq x1 x3 sm (ix2 p (0 : Fin 1))) := by
  rw [actM_eq]
  unfold k0_pay19
  simp only [exp_apply, subf_apply]
  rw [broadcastTo_a1_ab_apply]

/-- The value block as the matrix unit reads it, at (u, d). -/
theorem pay15_apply (x2 : Vec Ideal S1x512x64 .f32) (u : Fin 512) (d : Fin 64) :
    k0_pay15 (F := Ideal) x2 (ix2 u d) = x2 (ix3 (0 : Fin 1) u d) := by
  unfold k0_pay15
  simp only [truncf_apply]
  exact shapeCast_1ab_ab_apply x2 _ u d

/-- Active tile: the new maximum of row `p` is the larger of the old one and the tile's scores. -/
theorem actM_apply (a1 a2 : BitVec 32) (sq : Vec Ideal S512x64 .bf16) (x1 : Vec Ideal S1x512x64 .f32) (x3 : Vec Ideal S1x1x512 .f32) (sm : Vec Ideal S512x1 .f32) (p : Fin 512) :
    actM (F := Ideal) a1 a2 sq x1 x3 sm (ix2 p (0 : Fin 1))
      = max (sm (ix2 p (0 : Fin 1))) ((Finset.univ : Finset (Fin 512)).fold max (⊥ : EReal) (fun u => tsc a1 a2 sq x1 x3 p u)) := by
  rw [actM_eq]
  unfold k0_pay17
  simp only [maximumf_apply]
  rw [shapeCast_a_a1_apply, rowmax_apply]

/-- Active tile: the new denominator. -/
theorem actL_apply (a1 a2 : BitVec 32) (sq : Vec Ideal S512x64 .bf16) (x1 : Vec Ideal S1x512x64 .f32) (x3 : Vec Ideal S1x1x512 .f32) (sm sl : Vec Ideal S512x1 .f32) (p : Fin 512) :
    actL (F := Ideal) a1 a2 sq x1 x3 sm sl (ix2 p (0 : Fin 1))
      = Ideal.exp (sm (ix2 p (0 : Fin 1)) - actM (F := Ideal) a1 a2 sq x1 x3 sm (ix2 p (0 : Fin 1))) * sl (ix2 p (0 : Fin 1))
        + ∑ u : Fin 512, Ideal.exp (tsc a1 a2 sq x1 x3 p u - actM (F := Ideal) a1 a2 sq x1 x3 sm (ix2 p (0 : Fin 1))) := by
  unfold actL k0_pay5
  simp only [shapeCast_self, addf_apply, mulf_apply]
  rw [pay18_apply, shapeCast_a_a1_apply, rowsum_apply]
  simp only [pay19_apply]

/-- Active tile: the new accumulator. -/
theorem actA_apply (a1 a2 : BitVec 32) (sq : Vec Ideal S512x64 .bf16) (x1 x2 : Vec Ideal S1x512x64 .f32) (x3 : Vec Ideal S1x1x512 .f32) (sm : Vec Ideal S512x1 .f32) (sa : Vec Ideal S512x64 .f32) (p : Fin 512) (d : Fin 64) :
    actA (F := Ideal) a1 a2 sq x1 x2 x3 sm sa (ix2 p d)
      = Ideal.exp (sm (ix2 p (0 : Fin 1)) - actM (F := Ideal) a1 a2 sq x1 x3 sm (ix2 p (0 : Fin 1))) * sa (ix2 p d)
        + ∑ u : Fin 512, Ideal.exp (tsc a1 a2 sq x1 x3 p u - actM (F := Ideal) a1 a2 sq x1 x3 sm (ix2 p (0 : Fin 1))) * x2 (ix3 (0 : Fin 1) u d) := by
  unfold actA k0_pay6
  simp only [shapeCast_self, addf_apply, mulf_apply]
  rw [broadcastTo_a1_ab_apply, pay18_apply, matmul_pv_apply]
  simp only [truncf_apply, pay19_apply, pay15_apply]

/-- The future tile's maximum candidate: the old maximum against the masking constant. -/
theorem pay8_apply (sm : Vec Ideal S512x1 .f32) (p : Fin 512) :
    k0_pay8 (F := Ideal) sm (ix2 p (0 : Fin 1)) = max (sm (ix2 p (0 : Fin 1))) Mc := by
  unfold k0_pay8
  simp only [maximumf_apply, broadcast_apply]
  rfl

/-- The future tile's rescaling factor of the old state. -/
theorem pay9_apply (sm : Vec Ideal S512x1 .f32) (p : Fin 512) :
    k0_pay9 (F := Ideal) sm (ix2 p (0 : Fin 1)) = Ideal.exp (sm (ix2 p (0 : Fin 1)) - max (sm (ix2 p (0 : Fin 1))) Mc) := by
  unfold k0_pay9
  simp only [exp_apply, subf_apply, pay8_apply]

/-- The future tile's weight of each masked key. -/
theorem pay10_apply (sm : Vec Ideal S512x1 .f32) (p : Fin 512) :
    k0_pay10 (F := Ideal) sm (ix2 p (0 : Fin 1)) = Ideal.exp (Mc - max (sm (ix2 p (0 : Fin 1))) Mc) := by
  unfold k0_pay10
  simp only [exp_apply, subf_apply, pay8_apply, broadcast_apply]
  rfl

/-- The reduced index with the summed coordinate put back on axis 0 of a matrix is (k, d). -/
theorem lift_rows (h : S512x64.Reduces [0] S64) (d : Fin 64) (k : Fin 512) :
    h.lift (ix1 d) k = ix2 k d := by
  funext a
  match a with
  | ⟨0, _⟩ => rfl
  | ⟨1, _⟩ => rfl

/-- The column sums of a 512 × 64 matrix, as the lane reduction spells them. -/
theorem colsum_apply (src : FVec Ideal S512x64 .f32) (h : S512x64.Reduces [0] S64) (hφ : FKind.Formats .f32)
    (hacc : (0x00000000#32 : BitVec 32) = 0x00000000#32) (d : Fin 64) :
    multiReduction (F := Ideal) .add [0] S64 src 0x00000000#32 h hφ hacc (ix1 d) = ∑ k : Fin 512, src (ix2 k d) := by
  refine (Ideal.multiReduction_add_single src 0x00000000#32 h hφ hacc (ix1 d)).trans ?_
  exact Finset.sum_congr rfl fun k _ => congrArg src (lift_rows h d k)

/-- Future tile: the new maximum. -/
theorem futM_apply (sm : Vec Ideal S512x1 .f32) (p : Fin 512) :
    futM (F := Ideal) sm (ix2 p (0 : Fin 1)) = max (sm (ix2 p (0 : Fin 1))) Mc := by
  unfold futM k0_pay13
  simp only [shapeCast_self]
  exact pay8_apply sm p

/-- Future tile: the new denominator. -/
theorem futL_apply (sm sl : Vec Ideal S512x1 .f32) (p : Fin 512) :
    futL (F := Ideal) sm sl (ix2 p (0 : Fin 1))
      = Ideal.exp (sm (ix2 p (0 : Fin 1)) - max (sm (ix2 p (0 : Fin 1))) Mc) * sl (ix2 p (0 : Fin 1))
        + Ideal.exp (Mc - max (sm (ix2 p (0 : Fin 1))) Mc) * c512 := by
  unfold futL k0_pay11
  simp only [shapeCast_self, addf_apply, mulf_apply, pay9_apply, pay10_apply, broadcast_apply]
  rfl

/-- Future tile: the new accumulator. -/
theorem futA_apply (x2 : Vec Ideal S1x512x64 .f32) (sm : Vec Ideal S512x1 .f32) (sa : Vec Ideal S512x64 .f32) (p : Fin 512) (d : Fin 64) :
    futA (F := Ideal) x2 sm sa (ix2 p d)
      = Ideal.exp (sm (ix2 p (0 : Fin 1)) - max (sm (ix2 p (0 : Fin 1))) Mc) * sa (ix2 p d)
        + Ideal.exp (Mc - max (sm (ix2 p (0 : Fin 1))) Mc) * ∑ u : Fin 512, x2 (ix3 (0 : Fin 1) u d) := by
  unfold futA k0_pay12
  simp only [shapeCast_self, addf_apply, mulf_apply]
  rw [broadcastTo_a1_ab_apply, broadcastTo_a1_ab_apply, pay9_apply, pay10_apply, broadcastTo_1b_ab_apply,
    shapeCast_a_1a_apply, colsum_apply]
  refine congrArg (fun z => _ + _ * z) (Finset.sum_congr rfl fun u _ => ?_)
  exact shapeCast_1ab_ab_apply x2 _ u d

/-- The output block: accumulator over denominator. -/
theorem outO_apply (sa : Vec Ideal S512x64 .f32) (sl : Vec Ideal S512x1 .f32) (p : Fin 512) (d : Fin 64) :
    outO (F := Ideal) sa sl (ix3 (0 : Fin 1) p d) = Ideal.div (sa (ix2 p d)) (sl (ix2 p (0 : Fin 1))) := by
  unfold outO k0_pay14
  rw [shapeCast_ab_1ab_apply, divf_apply, broadcastTo_a1_ab_apply]

end Cert.KernelIdeal.Gen

end
-- ==== Proof.KernelIdealBlocks.lean ====
/- Where a grid point's blocks sit in the arrays, and how the output array is assembled from the blocks written back.
   Point `t` of the 32 × 4 × 4 grid is head `t / 16`, query tile `t / 4 mod 4`, key tile `t mod 4`. The query block is
   rows `512·qtile …` of the head's queries, the key and value blocks rows `512·ktile …` of its keys and values, the mask
   block columns `512·ktile …` of batch `head mod 4`'s mask row (converted to float on the host before the call). The
   output array is written back once per (head, query tile), at the last key tile: if every such block agrees with one
   whole-array function, the final array is that function. -/
import proofs.«425486_j403726926205_3_alg».proof.Proof.KernelIdealState
import Idealize.ShloMosaic.Lib.Pipeline.Value
import Idealize.ShloMosaic.Lib.ValueIdx
import Idealize.ShloMosaic.Lib.ValueLayout

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-! ## The coordinates of a point -/

theorem N_512 : cfg0.N = 512 := N_0

/-- The head, query tile and key tile of a point. -/
def bhOf (t : Fin cfg0.N) : Fin 32 := ⟨t.val / 16, by have h : t.val < 512 := lt_of_lt_of_eq t.isLt N_512; omega⟩
def qiOf (t : Fin cfg0.N) : Fin 4 := ⟨t.val / 4 % 4, Nat.mod_lt _ (by decide)⟩
def kiOf (t : Fin cfg0.N) : Fin 4 := ⟨t.val % 4, Nat.mod_lt _ (by decide)⟩
/-- Row `p` of tile `j` among the 2048 positions. -/
def rowOf (j : Fin 4) (p : Fin 512) : Fin 2048 := ⟨j.val * 512 + p.val, by omega⟩
/-- The batch of a head. -/
def batchOfHead (b : Fin 32) : Fin 4 := ⟨b.val % 4, Nat.mod_lt _ (by decide)⟩

theorem coords_0 (t : Fin cfg0.N) : (grid0.coords t 0).val = t.val / 16 :=
  (by decide +kernel : ∀ t : Fin grid0.N, (grid0.coords t 0).val = t.val / 16) t
theorem coords_1 (t : Fin cfg0.N) : (grid0.coords t 1).val = t.val / 4 % 4 :=
  (by decide +kernel : ∀ t : Fin grid0.N, (grid0.coords t 1).val = t.val / 4 % 4) t
theorem coords_2 (t : Fin cfg0.N) : (grid0.coords t 2).val = t.val % 4 :=
  (by decide +kernel : ∀ t : Fin grid0.N, (grid0.coords t 2).val = t.val % 4) t

/-! ## The input blocks, entry by entry -/

/-- The query and output windows' block indices: head, query tile, 0. -/
theorem idxQO : ∀ t : Fin cfg0.N, win0_0.index t (0 : Fin 3) = t.val / 16 ∧ win0_0.index t (1 : Fin 3) = t.val / 4 % 4
    ∧ win0_0.index t (2 : Fin 3) = 0 ∧ win0_4.index t (0 : Fin 3) = t.val / 16 ∧ win0_4.index t (1 : Fin 3) = t.val / 4 % 4
    ∧ win0_4.index t (2 : Fin 3) = 0 :=
  (by decide +kernel : ∀ t : Fin grid0.N, _)

/-- The mask window's block indices: batch of the head, 0, key tile. -/
theorem idxM : ∀ t : Fin cfg0.N, win0_3.index t (0 : Fin 3) = t.val / 16 % 4 ∧ win0_3.index t (1 : Fin 3) = 0
    ∧ win0_3.index t (2 : Fin 3) = t.val % 4 :=
  (by decide +kernel : ∀ t : Fin grid0.N, _)

theorem iblk0_apply (c : Dev nD) (t : Fin cfg0.N) (p : Fin 512) (e : Fin 64) :
    (iblk m c 0 t : Vec F S1x512x64 .f32) (ix3 (0 : Fin 1) p e) = (V m c main_arg0 : Vec F S32x2048x64 .f32) (ix3 (bhOf t) (rowOf (qiOf t) p) e) := by
  obtain ⟨e0, e1, e2, -, -, -⟩ := idxQO t
  unfold iblk
  rw [View.read_apply]
  show V m c main_arg0 (((cfg0.win 0).blk t).view.emb (ix3 (0 : Fin 1) p e)) = V m c main_arg0 (ix3 (bhOf t) (rowOf (qiOf t) p) e)
  refine congrArg _ (funext fun a => Fin.ext ?_)
  match a with
  | ⟨0, _⟩ => show win0_0.index t (0 : Fin 3) * 1 + 1 * 0 = t.val / 16; rw [e0]; omega
  | ⟨1, _⟩ => show win0_0.index t (1 : Fin 3) * 512 + 1 * p.val = t.val / 4 % 4 * 512 + p.val; rw [e1]; omega
  | ⟨2, _⟩ => show win0_0.index t (2 : Fin 3) * 64 + 1 * e.val = e.val; rw [e2]; omega
/-- The key and value windows' block indices: head, key tile, 0. -/
theorem idxKV : ∀ t : Fin cfg0.N, win0_1.index t (0 : Fin 3) = t.val / 16 ∧ win0_1.index t (1 : Fin 3) = t.val % 4
    ∧ win0_1.index t (2 : Fin 3) = 0 ∧ win0_2.index t (0 : Fin 3) = t.val / 16 ∧ win0_2.index t (1 : Fin 3) = t.val % 4
    ∧ win0_2.index t (2 : Fin 3) = 0 :=
  (by decide +kernel : ∀ t : Fin grid0.N, _)

theorem iblk1_apply (c : Dev nD) (t : Fin cfg0.N) (u : Fin 512) (e : Fin 64) :
    (iblk m c 1 t : Vec F S1x512x64 .f32) (ix3 (0 : Fin 1) u e) = (V m c main_arg1 : Vec F S32x2048x64 .f32) (ix3 (bhOf t) (rowOf (kiOf t) u) e) := by
  obtain ⟨e0, e1, e2, -, -, -⟩ := idxKV t
  unfold iblk
  rw [View.read_apply]
  show V m c main_arg1 (((cfg0.win 1).blk t).view.emb (ix3 (0 : Fin 1) u e)) = V m c main_arg1 (ix3 (bhOf t) (rowOf (kiOf t) u) e)
  refine congrArg _ (funext fun a => Fin.ext ?_)
  match a with
  | ⟨0, _⟩ => show win0_1.index t (0 : Fin 3) * 1 + 1 * 0 = t.val / 16; rw [e0]; omega
  | ⟨1, _⟩ => show win0_1.index t (1 : Fin 3) * 512 + 1 * u.val = t.val % 4 * 512 + u.val; rw [e1]; omega
  | ⟨2, _⟩ => show win0_1.index t (2 : Fin 3) * 64 + 1 * e.val = e.val; rw [e2]; omega
theorem iblk2_apply (c : Dev nD) (t : Fin cfg0.N) (u : Fin 512) (d : Fin 64) :
    (iblk m c 2 t : Vec F S1x512x64 .f32) (ix3 (0 : Fin 1) u d) = (V m c main_arg2 : Vec F S32x2048x64 .f32) (ix3 (bhOf t) (rowOf (kiOf t) u) d) := by
  obtain ⟨-, -, -, e0, e1, e2⟩ := idxKV t
  unfold iblk
  rw [View.read_apply]
  show V m c main_arg2 (((cfg0.win 2).blk t).view.emb (ix3 (0 : Fin 1) u d)) = V m c main_arg2 (ix3 (bhOf t) (rowOf (kiOf t) u) d)
  refine congrArg _ (funext fun a => Fin.ext ?_)
  match a with
  | ⟨0, _⟩ => show win0_2.index t (0 : Fin 3) * 1 + 1 * 0 = t.val / 16; rw [e0]; omega
  | ⟨1, _⟩ => show win0_2.index t (1 : Fin 3) * 512 + 1 * u.val = t.val % 4 * 512 + u.val; rw [e1]; omega
  | ⟨2, _⟩ => show win0_2.index t (2 : Fin 3) * 64 + 1 * d.val = d.val; rw [e2]; omega
theorem iblk3_apply (c : Dev nD) (t : Fin cfg0.N) (u : Fin 512) :
    (iblk m c 3 t : Vec F S1x1x512 .f32) (ix3 (0 : Fin 1) (0 : Fin 1) u) = (V m c main_v1 : Vec F S4x1x2048 .f32) (ix3 (batchOfHead (bhOf t)) (0 : Fin 1) (rowOf (kiOf t) u)) := by
  obtain ⟨e0, e1, e2⟩ := idxM t
  unfold iblk
  rw [View.read_apply]
  show V m c main_v1 (((cfg0.win 3).blk t).view.emb (ix3 (0 : Fin 1) (0 : Fin 1) u)) = V m c main_v1 (ix3 (batchOfHead (bhOf t)) (0 : Fin 1) (rowOf (kiOf t) u))
  refine congrArg _ (funext fun a => Fin.ext ?_)
  match a with
  | ⟨0, _⟩ => show win0_3.index t (0 : Fin 3) * 1 + 1 * 0 = t.val / 16 % 4; rw [e0]; omega
  | ⟨1, _⟩ => show win0_3.index t (1 : Fin 3) * 1 + 1 * 0 = 0; rw [e1]
  | ⟨2, _⟩ => show win0_3.index t (2 : Fin 3) * 512 + 1 * u.val = t.val % 4 * 512 + u.val; rw [e2]; omega

/-- The mask array the call is handed: the integer mask converted to float, one row per batch. -/
theorem V_main_v1_apply (c : Dev nD) (j : Fin 4) (k : Fin 2048) :
    (V m c main_v1 : Vec F S4x1x2048 .f32) (ix3 j (0 : Fin 1) k)
      = (sitofp (F := F) .f32 (m ((c : Thread nD τ).loc main_arg3)) : Vec F S4x2048 .f32) (ix2 j k) := by
  have e : (V m c main_v1 : Vec F S4x1x2048 .f32)
      = broadcastInDim S4x1x2048 ![0, 2] bcast_S4x2048_S4x1x2048_0_2
          (sitofp (F := F) .f32 (m ((c : Thread nD τ).loc main_arg3)) : Vec F S4x2048 .f32) := by
    dsimp only [V, hostOps0]; after_results
  rw [e]
  generalize (sitofp (F := F) .f32 (m ((c : Thread nD τ).loc main_arg3)) : Vec F S4x2048 .f32) = y
  exact broadcastInDim_apply _ bcast_S4x2048_S4x1x2048_0_2 y (ix3 j (0 : Fin 1) k) (ix2 j k) (fun a => match a with
    | ⟨0, _⟩ => by show j.val = if (4 : Nat) = 1 then 0 else j.val; rw [if_neg (by decide)]
    | ⟨1, _⟩ => by show k.val = if (2048 : Nat) = 1 then 0 else k.val; rw [if_neg (by decide)])

/-! ## From the blocks written back to the output array -/

/-- If at every last key tile the output block left by the body is the block of one whole-array function `G`, the output
    array after the run is `G`. -/
theorem final4 (c : Dev nD) (G : Vec F S32x2048x64 .f32)
    (hblk : ∀ t : Fin cfg0.N, t.val % 4 = 3 → ∀ (p : Fin 512) (d : Fin 64),
      (outsAt0 m c t.val t.isLt).o (ix3 (0 : Fin 1) p d) = G (ix3 (bhOf t) (rowOf (qiOf t) p) d)) :
    (dats m 0 c).arrAt 4 cfg0.N = G := by
  refine (dats m 0 c).arrAt_eq_of_cover 4 G (fun t hfl => ?_) (fun i => ?_)
  · -- what a last-key-tile point writes back is its block of `G`
    have h3 : t.val % 4 = 3 := (flush0_4 t).mp hfl
    obtain ⟨-, -, -, e0, e1, e2⟩ := idxQO t
    show (cfg0.win 4).cut (grid0.coords t) ((dats m 0 c).after 4 t) = _
    rw [after0_4]
    funext y
    rw [View.read_apply]
    show (outsAt0 m c t.val t.isLt).o y = G (((cfg0.win 4).blk t).view.emb y)
    have hy0 : (y 0).val = 0 := by have h : (y 0).val < 1 := (y 0).isLt; omega
    have hy : (y : S1x512x64.Idx) = ix3 (0 : Fin 1) (y 1) (y 2) := by
      funext a
      match a with
      | ⟨0, _⟩ => exact Fin.ext hy0
      | ⟨1, _⟩ => rfl
      | ⟨2, _⟩ => rfl
    calc (outsAt0 m c t.val t.isLt).o y
        = (outsAt0 m c t.val t.isLt).o (ix3 (0 : Fin 1) (y 1) (y 2)) := congrArg _ hy
      _ = G (ix3 (bhOf t) (rowOf (qiOf t) (y 1)) (y 2)) := hblk t h3 (y 1) (y 2)
      _ = G (((cfg0.win 4).blk t).view.emb y) := by
        refine congrArg G (funext fun a => Fin.ext ?_)
        match a with
        | ⟨0, _⟩ => show t.val / 16 = win0_4.index t (0 : Fin 3) * 1 + 1 * (y 0).val; rw [e0, hy0]; omega
        | ⟨1, _⟩ => show t.val / 4 % 4 * 512 + (y 1).val = win0_4.index t (1 : Fin 3) * 512 + 1 * (y 1).val; rw [e1]; omega
        | ⟨2, _⟩ => show (y 2).val = win0_4.index t (2 : Fin 3) * 64 + 1 * (y 2).val; rw [e2]; omega
  · -- row `r` of head `b` lies in the block written back at the last key tile of query tile `r / 512`
    have hi0 : (i 0).val < 32 := (i 0).isLt
    have hi1 : (i 1).val < 2048 := (i 1).isLt
    have hi2 : (i 2).val < 64 := (i 2).isLt
    obtain ⟨t, ht⟩ : ∃ t : Fin cfg0.N, t.val = 16 * (i 0).val + 4 * ((i 1).val / 512) + 3 :=
      ⟨⟨16 * (i 0).val + 4 * ((i 1).val / 512) + 3, by rw [N_512]; omega⟩, rfl⟩
    obtain ⟨-, -, -, e0, e1, e2⟩ := idxQO t
    refine ⟨t, (flush0_4 t).mpr (by omega), ?_⟩
    show i ∈ ((View.whole main_v2).slice (win0_4.rect t)).set
    rw [View.set_slice_whole, Rect.mem_set_unit]
    intro a
    match a with
    | ⟨0, _⟩ => show win0_4.index t (0 : Fin 3) * 1 ≤ (i 0).val ∧ (i 0).val < win0_4.index t (0 : Fin 3) * 1 + 1; rw [e0]; omega
    | ⟨1, _⟩ => show win0_4.index t (1 : Fin 3) * 512 ≤ (i 1).val ∧ (i 1).val < win0_4.index t (1 : Fin 3) * 512 + 512; rw [e1]; omega
    | ⟨2, _⟩ => show win0_4.index t (2 : Fin 3) * 64 ≤ (i 2).val ∧ (i 2).val < win0_4.index t (2 : Fin 3) * 64 + 64; rw [e2]; omega

end Cert.KernelIdeal.Gen

end
-- ==== Proof.Softmax.lean ====
/- The algebra of attention by tiles, over the reals.
   For scores `s` and values `v` on a finite key set, and a nonempty set `S` of keys: the maximum `mx`, the
   denominator `den = ∑_{k∈S} exp (s k − mx)` and the numerator `num = ∑_{k∈S} exp (s k − mx) · v k`.
   Adding a disjoint tile `T` rescales the old sums by `exp (mx S − mx (S ∪ T))` and adds the tile's terms
   (the online update); a tile on which the score is one constant contributes `exp (c − m) · |T|` and
   `exp (c − m) · ∑_T v`; and `num / den` over all keys is the softmax-weighted sum of the values. -/
import Mathlib.Analysis.SpecialFunctions.Exp
import Mathlib.Algebra.BigOperators.Field
import Mathlib.Order.Filter.Extr
import Mathlib.Data.Finset.Lattice.Fold
import Mathlib.Data.EReal.Basic

noncomputable section

namespace Cert.Attn

open Finset

variable {K : Type} [DecidableEq K]

/-- The largest score on the nonempty key set `S`. -/
def mx (s : K → ℝ) (S : Finset K) (hS : S.Nonempty) : ℝ := S.sup' hS s

/-- The softmax denominator on `S`, taken relative to the reference level `m`. -/
def denAt (s : K → ℝ) (S : Finset K) (m : ℝ) : ℝ := ∑ k ∈ S, Real.exp (s k - m)

/-- The softmax numerator on `S` against the values `v`, relative to the level `m`. -/
def numAt (s v : K → ℝ) (S : Finset K) (m : ℝ) : ℝ := ∑ k ∈ S, Real.exp (s k - m) * v k

theorem le_mx (s : K → ℝ) (S : Finset K) (hS : S.Nonempty) {k : K} (hk : k ∈ S) : s k ≤ mx s S hS :=
  Finset.le_sup' s hk

theorem mx_union (s : K → ℝ) (S T : Finset K) (hS : S.Nonempty) (hT : T.Nonempty) :
    mx s (S ∪ T) (hS.mono Finset.subset_union_left) = max (mx s S hS) (mx s T hT) := by
  unfold mx
  exact Finset.sup'_union hS hT s

/-- On a tile where the score is the constant `c` the maximum is `c`. -/
theorem mx_const (s : K → ℝ) (T : Finset K) (hT : T.Nonempty) (c : ℝ) (h : ∀ k ∈ T, s k = c) : mx s T hT = c := by
  unfold mx
  apply le_antisymm
  · exact Finset.sup'_le hT s (fun k hk => (h k hk).le)
  · have ⟨k, hk⟩ := hT
    calc c = s k := (h k hk).symm
      _ ≤ T.sup' hT s := Finset.le_sup' s hk

theorem denAt_pos (s : K → ℝ) (S : Finset K) (hS : S.Nonempty) (m : ℝ) : 0 < denAt s S m := by
  unfold denAt
  exact Finset.sum_pos (fun k _ => Real.exp_pos _) hS

/-- Changing the reference level rescales the denominator. -/
theorem denAt_rescale (s : K → ℝ) (S : Finset K) (m m' : ℝ) : denAt s S m' = Real.exp (m - m') * denAt s S m := by
  unfold denAt
  rw [Finset.mul_sum]
  refine Finset.sum_congr rfl (fun k _ => ?_)
  -- s k − m' = (m − m') + (s k − m), and exp turns the sum into a product
  have e : s k - m' = (m - m') + (s k - m) := by ring
  rw [e, Real.exp_add]

theorem numAt_rescale (s v : K → ℝ) (S : Finset K) (m m' : ℝ) : numAt s v S m' = Real.exp (m - m') * numAt s v S m := by
  unfold numAt
  rw [Finset.mul_sum]
  refine Finset.sum_congr rfl (fun k _ => ?_)
  have e : s k - m' = (m - m') + (s k - m) := by ring
  rw [e, Real.exp_add, mul_assoc]

/-- The online update of the denominator by a disjoint tile. -/
theorem denAt_union (s : K → ℝ) (S T : Finset K) (hd : Disjoint S T) (m m' : ℝ) :
    denAt s (S ∪ T) m' = Real.exp (m - m') * denAt s S m + denAt s T m' := by
  -- rescale the old sum to the new level, then split the sum over the disjoint union
  rw [← denAt_rescale]
  unfold denAt
  exact Finset.sum_union hd

/-- The online update of the numerator by a disjoint tile. -/
theorem numAt_union (s v : K → ℝ) (S T : Finset K) (hd : Disjoint S T) (m m' : ℝ) :
    numAt s v (S ∪ T) m' = Real.exp (m - m') * numAt s v S m + numAt s v T m' := by
  rw [← numAt_rescale]
  unfold numAt
  exact Finset.sum_union hd

/-- A tile of constant score `c`: its denominator is `exp (c − m) · |T|`. -/
theorem denAt_const (s : K → ℝ) (T : Finset K) (c m : ℝ) (h : ∀ k ∈ T, s k = c) :
    denAt s T m = Real.exp (c - m) * (T.card : ℝ) := by
  unfold denAt
  calc ∑ k ∈ T, Real.exp (s k - m) = ∑ _k ∈ T, Real.exp (c - m) :=
        Finset.sum_congr rfl (fun k hk => by rw [h k hk])
    _ = Real.exp (c - m) * (T.card : ℝ) := by rw [Finset.sum_const, nsmul_eq_mul, mul_comm]

/-- A tile of constant score `c`: its numerator is `exp (c − m)` times the sum of its values. -/
theorem numAt_const (s v : K → ℝ) (T : Finset K) (c m : ℝ) (h : ∀ k ∈ T, s k = c) :
    numAt s v T m = Real.exp (c - m) * ∑ k ∈ T, v k := by
  unfold numAt
  rw [Finset.mul_sum]
  exact Finset.sum_congr rfl (fun k hk => by rw [h k hk])

/-- Attention of one query row: the softmax of the scores, applied to the values, as one quotient. -/
def attn [Fintype K] [Nonempty K] (s v : K → ℝ) : ℝ :=
  numAt s v Finset.univ (mx s Finset.univ Finset.univ_nonempty) / denAt s Finset.univ (mx s Finset.univ Finset.univ_nonempty)

/-- The reference's form: each weight divided by the denominator first, then the weighted sum. -/
theorem attn_eq_sum_div [Fintype K] [Nonempty K] (s v : K → ℝ) :
    attn s v = ∑ k, (Real.exp (s k - mx s Finset.univ Finset.univ_nonempty) / denAt s Finset.univ (mx s Finset.univ Finset.univ_nonempty)) * v k := by
  unfold attn numAt
  rw [Finset.sum_div]
  refine Finset.sum_congr rfl (fun k _ => ?_)
  rw [div_mul_eq_mul_div]

/-! The bridge from the extended reals: on finite reals the extended sum, maximum and finite supremum
    are the coercions of the real ones. -/

/-- A finite sum of coerced reals is the coercion of the real sum. -/
theorem coe_sum {ι : Type*} (S : Finset ι) (f : ι → ℝ) :
    (∑ k ∈ S, ((f k : ℝ) : EReal)) = ((∑ k ∈ S, f k : ℝ) : EReal) := by
  classical
  refine Finset.induction_on S ?_ ?_
  · simp
  · intro a S ha ih
    rw [Finset.sum_insert ha, Finset.sum_insert ha, ih, EReal.coe_add]

/-- The coercion is monotone, so it commutes with the binary maximum. -/
theorem coe_max (a b : ℝ) : max (a : EReal) (b : EReal) = ((max a b : ℝ) : EReal) :=
  (EReal.coe_strictMono.monotone.map_max).symm

theorem bot_max (a : EReal) : max (⊥ : EReal) a = a := max_bot_left a

/-- The extended supremum over a nonempty finite set of coerced reals is the coercion of the real
    maximum: each term is below the coerced maximum, and the maximum is attained at some key. -/
theorem coe_sup' {ι : Type*} (S : Finset ι) (hS : S.Nonempty) (f : ι → ℝ) :
    S.sup (fun k => ((f k : ℝ) : EReal)) = ((S.sup' hS f : ℝ) : EReal) := by
  apply le_antisymm
  · exact Finset.sup_le (fun k hk => EReal.coe_le_coe_iff.mpr (Finset.le_sup' f hk))
  · obtain ⟨k, hk, hk'⟩ := Finset.exists_mem_eq_sup' hS f
    rw [hk']
    exact Finset.le_sup (f := fun k => ((f k : ℝ) : EReal)) hk

end Cert.Attn

end
-- ==== Proof.RowMath.lean ====
/- One query row's attention built up key tile by key tile, on the extended reals.
   The 2048 keys fall into four tiles of 512; `upto j` is the keys of tiles 0 … j. After the tiles in `S` the row's state
   is the maximum of its scores there, the sum of `exp (score − maximum)`, and that sum weighted by each value column
   (`RowInv`). A tile met by the causal triangle updates the state from the tile's 512 scores (`RowInv.first` from the
   reset state −∞, 0, 0; `RowInv.active` from an earlier state); a tile on which every score is one constant updates
   it in closed form (`RowInv.future`); after all keys the quotient accumulator / denominator is the row's attention
   (`RowInv.out`). Every quantity is a real number, so the extended-real operations are the real ones. -/
import Idealize.ShloMosaic.PureOps.Ideal
import proofs.«425486_j403726926205_3_alg».proof.Proof.Softmax

noncomputable section

namespace Cert.Attn

open Finset Idealize.ShloMosaic

/-- Position `p` of key tile `j` among the 2048 positions. -/
def row (j : Fin 4) (p : Fin 512) : Fin 2048 := ⟨j.val * 512 + p.val, by omega⟩

/-- The keys of tile `j`. -/
def tile (j : ℕ) : Finset (Fin 2048) := Finset.univ.filter fun k => k.val / 512 = j
/-- The keys of tiles `0 … j`. -/
def upto (j : ℕ) : Finset (Fin 2048) := Finset.univ.filter fun k => k.val / 512 ≤ j

theorem tile_nonempty (j : Fin 4) : (tile j.val).Nonempty := by
  -- the first key of the tile, position j·512
  refine ⟨⟨j.val * 512, by omega⟩, ?_⟩
  simp only [tile, Finset.mem_filter, Finset.mem_univ, true_and]
  omega
theorem upto_nonempty (j : ℕ) : (upto j).Nonempty := by
  -- key 0 lies in tile 0
  refine ⟨⟨0, by omega⟩, ?_⟩
  simp only [upto, Finset.mem_filter, Finset.mem_univ, true_and]
  omega
theorem upto_zero : upto 0 = tile 0 := by
  ext k
  simp only [upto, tile, Finset.mem_filter, Finset.mem_univ, true_and]
  omega
theorem upto_succ (j : ℕ) : upto (j + 1) = upto j ∪ tile (j + 1) := by
  ext k
  simp only [upto, tile, Finset.mem_union, Finset.mem_filter, Finset.mem_univ, true_and]
  omega
theorem upto_disjoint (j : ℕ) : Disjoint (upto j) (tile (j + 1)) := by
  rw [Finset.disjoint_left]
  intro k hk hk'
  simp only [upto, tile, Finset.mem_filter, Finset.mem_univ, true_and] at hk hk'
  omega
theorem upto_three : upto 3 = Finset.univ := by
  ext k
  simp only [upto, Finset.mem_filter, Finset.mem_univ, true_and, iff_true]
  have := k.isLt
  omega
theorem row_mem_tile (j : Fin 4) (u : Fin 512) : row j u ∈ tile j.val := by
  simp only [tile, row, Finset.mem_filter, Finset.mem_univ, true_and]
  omega

/-- Two positions of one tile that land on the same key are equal. -/
private theorem row_inj (j : Fin 4) {a b : Fin 512} (h : row j a = row j b) : a = b := by
  have hv := congrArg Fin.val h
  simp only [row] at hv
  exact Fin.ext (by omega)

/-- Every key of tile `j` is the key at some position of the tile: the position is the key's remainder by 512. -/
private theorem row_surj (j : Fin 4) {k : Fin 2048} (hk : k ∈ tile j.val) : ∃ u : Fin 512, row j u = k := by
  simp only [tile, Finset.mem_filter, Finset.mem_univ, true_and] at hk
  refine ⟨⟨k.val % 512, Nat.mod_lt _ (by norm_num)⟩, Fin.ext ?_⟩
  simp only [row]
  omega
theorem sum_tile (j : Fin 4) (f : Fin 2048 → ℝ) : ∑ u : Fin 512, f (row j u) = ∑ k ∈ tile j.val, f k := by
  -- position ↦ key is a bijection from the 512 positions onto the tile
  refine Finset.sum_bij (fun u _ => row j u) (fun u _ => row_mem_tile j u) (fun a _ b _ h => row_inj j h) ?_
    (fun _ _ => rfl)
  intro k hk
  obtain ⟨u, hu⟩ := row_surj j hk
  exact ⟨u, Finset.mem_univ u, hu⟩
theorem card_tile (j : Fin 4) : (tile j.val).card = 512 := by
  -- the same bijection counts the tile
  have h : (Finset.univ : Finset (Fin 512)).card = (tile j.val).card := by
    refine Finset.card_bij (fun u _ => row j u) (fun u _ => row_mem_tile j u) (fun a _ b _ h => row_inj j h) ?_
    intro k hk
    obtain ⟨u, hu⟩ := row_surj j hk
    exact ⟨u, Finset.mem_univ u, hu⟩
  rw [← h, Finset.card_univ, Fintype.card_fin]

/-- The exponential of a difference of two reals, taken on the extended reals, is the real exponential. -/
private theorem exp_sub_coe (a b : ℝ) :
    Ideal.exp ((a : EReal) - (b : EReal)) = ((Real.exp (a - b) : ℝ) : EReal) := by
  rw [← EReal.coe_sub, Ideal.exp_coe]

/-- The running maximum of a tile's 512 scores, started from −∞, is the tile's maximum: every score is below
    the maximum, and the maximum is the score at some position. -/
private theorem fold_max_tile (sc : Fin 2048 → ℝ) (j : Fin 4) (ts : Fin 512 → EReal)
    (hts : ∀ u, ts u = ((sc (row j u) : ℝ) : EReal)) :
    (Finset.univ : Finset (Fin 512)).fold max (⊥ : EReal) ts
      = ((mx sc (tile j.val) (tile_nonempty j) : ℝ) : EReal) := by
  apply le_antisymm
  · refine (Finset.fold_max_le _).mpr ⟨bot_le, fun u _ => ?_⟩
    rw [hts u]
    exact EReal.coe_le_coe_iff.mpr (le_mx sc _ _ (row_mem_tile j u))
  · obtain ⟨k, hk, hk'⟩ := Finset.exists_mem_eq_sup' (tile_nonempty j) sc
    obtain ⟨u, hu⟩ := row_surj j hk
    refine (Finset.le_fold_max _).mpr (Or.inr ⟨u, Finset.mem_univ u, ?_⟩)
    rw [hts u, hu]
    exact EReal.coe_le_coe_iff.mpr (le_of_eq hk')

/-- The tile's 512 exponentials, summed on the extended reals, are the tile's denominator at the level `m`. -/
private theorem tile_den (sc : Fin 2048 → ℝ) (j : Fin 4) (ts : Fin 512 → EReal)
    (hts : ∀ u, ts u = ((sc (row j u) : ℝ) : EReal)) (m : ℝ) :
    ∑ u : Fin 512, Ideal.exp (ts u - (m : EReal)) = ((denAt sc (tile j.val) m : ℝ) : EReal) := by
  unfold denAt
  rw [← sum_tile j (fun k => Real.exp (sc k - m)), ← coe_sum]
  refine Finset.sum_congr rfl (fun u _ => ?_)
  rw [hts u, exp_sub_coe]

/-- The tile's 512 weighted values, summed on the extended reals, are the tile's numerator at the level `m`. -/
private theorem tile_num (sc : Fin 2048 → ℝ) (vc : Fin 64 → Fin 2048 → ℝ) (j : Fin 4)
    (ts : Fin 512 → EReal) (xv : Fin 512 → Fin 64 → EReal)
    (hts : ∀ u, ts u = ((sc (row j u) : ℝ) : EReal)) (hxv : ∀ u d, xv u d = ((vc d (row j u) : ℝ) : EReal))
    (m : ℝ) (d : Fin 64) :
    ∑ u : Fin 512, Ideal.exp (ts u - (m : EReal)) * xv u d = ((numAt sc (vc d) (tile j.val) m : ℝ) : EReal) := by
  unfold numAt
  rw [← sum_tile j (fun k => Real.exp (sc k - m) * vc d k), ← coe_sum]
  refine Finset.sum_congr rfl (fun u _ => ?_)
  rw [hts u, hxv u d, exp_sub_coe, ← EReal.coe_mul]

/-- The online update of the denominator, on the extended reals: the old sum rescaled to the new level plus
    the new tile's sum. -/
private theorem step_den (sc : Fin 2048 → ℝ) (S T : Finset (Fin 2048)) (hd : Disjoint S T) (m m' : ℝ) (X : EReal)
    (hX : X = ((denAt sc T m' : ℝ) : EReal)) :
    Ideal.exp ((m : EReal) - (m' : EReal)) * ((denAt sc S m : ℝ) : EReal) + X
      = ((denAt sc (S ∪ T) m' : ℝ) : EReal) := by
  rw [hX, exp_sub_coe, ← EReal.coe_mul, ← EReal.coe_add, denAt_union sc S T hd m m']

/-- The online update of one numerator, on the extended reals. -/
private theorem step_num (sc v : Fin 2048 → ℝ) (S T : Finset (Fin 2048)) (hd : Disjoint S T) (m m' : ℝ) (X : EReal)
    (hX : X = ((numAt sc v T m' : ℝ) : EReal)) :
    Ideal.exp ((m : EReal) - (m' : EReal)) * ((numAt sc v S m : ℝ) : EReal) + X
      = ((numAt sc v (S ∪ T) m' : ℝ) : EReal) := by
  rw [hX, exp_sub_coe, ← EReal.coe_mul, ← EReal.coe_add, numAt_union sc v S T hd m m']

/-- The state of one query row after the key tiles in `S`: maximum, denominator, and one numerator per value column. -/
structure RowInv (sc : Fin 2048 → ℝ) (vc : Fin 64 → Fin 2048 → ℝ) (S : Finset (Fin 2048)) (hS : S.Nonempty)
    (sm sl : EReal) (sa : Fin 64 → EReal) : Prop where
  hm : sm = ((mx sc S hS : ℝ) : EReal)
  hl : sl = ((denAt sc S (mx sc S hS) : ℝ) : EReal)
  ha : ∀ d, sa d = ((numAt sc (vc d) S (mx sc S hS) : ℝ) : EReal)

/-- The first tile, from the reset state (maximum −∞, denominator 0, accumulator 0). -/
theorem RowInv.first (sc : Fin 2048 → ℝ) (vc : Fin 64 → Fin 2048 → ℝ) (j : Fin 4)
    (ts : Fin 512 → EReal) (xv : Fin 512 → Fin 64 → EReal)
    (hts : ∀ u, ts u = ((sc (row j u) : ℝ) : EReal)) (hxv : ∀ u d, xv u d = ((vc d (row j u) : ℝ) : EReal))
    (nm : EReal) (hnm : nm = max (⊥ : EReal) ((Finset.univ : Finset (Fin 512)).fold max (⊥ : EReal) ts)) :
    RowInv sc vc (tile j.val) (tile_nonempty j) nm
      (Ideal.exp (⊥ - nm) * 0 + ∑ u : Fin 512, Ideal.exp (ts u - nm))
      (fun d => Ideal.exp (⊥ - nm) * 0 + ∑ u : Fin 512, Ideal.exp (ts u - nm) * xv u d) := by
  -- the new maximum is the tile's maximum; the reset state contributes 0 · 0 = 0 to both sums
  have hM : nm = ((mx sc (tile j.val) (tile_nonempty j) : ℝ) : EReal) := by
    rw [hnm, bot_max, fold_max_tile sc j ts hts]
  refine ⟨hM, ?_, fun d => ?_⟩
  · rw [mul_zero, zero_add, hM, tile_den sc j ts hts]
  · beta_reduce
    rw [mul_zero, zero_add, hM, tile_num sc vc j ts xv hts hxv]

/-- A later tile met by the causal triangle. -/
theorem RowInv.active {sc : Fin 2048 → ℝ} {vc : Fin 64 → Fin 2048 → ℝ} {S : Finset (Fin 2048)} {hS : S.Nonempty}
    {sm sl : EReal} {sa : Fin 64 → EReal} (h : RowInv sc vc S hS sm sl sa) (j : Fin 4) (hd : Disjoint S (tile j.val))
    (ts : Fin 512 → EReal) (xv : Fin 512 → Fin 64 → EReal)
    (hts : ∀ u, ts u = ((sc (row j u) : ℝ) : EReal)) (hxv : ∀ u d, xv u d = ((vc d (row j u) : ℝ) : EReal))
    (nm : EReal) (hnm : nm = max sm ((Finset.univ : Finset (Fin 512)).fold max (⊥ : EReal) ts)) :
    RowInv sc vc (S ∪ tile j.val) (hS.mono Finset.subset_union_left) nm
      (Ideal.exp (sm - nm) * sl + ∑ u : Fin 512, Ideal.exp (ts u - nm))
      (fun d => Ideal.exp (sm - nm) * sa d + ∑ u : Fin 512, Ideal.exp (ts u - nm) * xv u d) := by
  obtain ⟨hm, hl, ha⟩ := h
  -- the new maximum is the larger of the old one and the tile's, which is the maximum over the union
  have hM : nm = ((mx sc (S ∪ tile j.val) (hS.mono Finset.subset_union_left) : ℝ) : EReal) := by
    rw [hnm, hm, fold_max_tile sc j ts hts, coe_max, mx_union sc S (tile j.val) hS (tile_nonempty j)]
  refine ⟨hM, ?_, fun d => ?_⟩
  · rw [hM, hm, hl]
    exact step_den sc S (tile j.val) hd _ _ _ (tile_den sc j ts hts _)
  · beta_reduce
    rw [hM, hm, ha d]
    exact step_num sc (vc d) S (tile j.val) hd _ _ _ (tile_num sc vc j ts xv hts hxv _ d)

/-- A tile on which every score is the constant `c` (a tile wholly in the causal future: `c` the masking constant). -/
theorem RowInv.future {sc : Fin 2048 → ℝ} {vc : Fin 64 → Fin 2048 → ℝ} {S : Finset (Fin 2048)} {hS : S.Nonempty}
    {sm sl : EReal} {sa : Fin 64 → EReal} (h : RowInv sc vc S hS sm sl sa) (j : Fin 4) (hd : Disjoint S (tile j.val))
    (c : ℝ) (hc : ∀ k ∈ tile j.val, sc k = c) (C W : EReal) (hC : C = ((c : ℝ) : EReal)) (hW : W = ((512 : ℝ) : EReal))
    (xv : Fin 512 → Fin 64 → EReal) (hxv : ∀ u d, xv u d = ((vc d (row j u) : ℝ) : EReal))
    (nm : EReal) (hnm : nm = max sm C) :
    RowInv sc vc (S ∪ tile j.val) (hS.mono Finset.subset_union_left) nm
      (Ideal.exp (sm - nm) * sl + Ideal.exp (C - nm) * W)
      (fun d => Ideal.exp (sm - nm) * sa d + Ideal.exp (C - nm) * ∑ u : Fin 512, xv u d) := by
  obtain ⟨hm, hl, ha⟩ := h
  -- on the tile the score is the constant c, so the tile's maximum is c
  have hT : mx sc (tile j.val) (tile_nonempty j) = c := mx_const sc _ _ c hc
  have hM : nm = ((mx sc (S ∪ tile j.val) (hS.mono Finset.subset_union_left) : ℝ) : EReal) := by
    rw [hnm, hm, hC, coe_max, mx_union sc S (tile j.val) hS (tile_nonempty j), hT]
  refine ⟨hM, ?_, fun d => ?_⟩
  · rw [hM, hm, hl, hC, hW]
    refine step_den sc S (tile j.val) hd _ _ _ ?_
    -- the tile's denominator is exp (c − m') times its 512 keys
    rw [exp_sub_coe, ← EReal.coe_mul, denAt_const sc (tile j.val) c _ hc, card_tile, Nat.cast_ofNat]
  · beta_reduce
    rw [hM, hm, ha d, hC]
    refine step_num sc (vc d) S (tile j.val) hd _ _ _ ?_
    -- the tile's numerator is exp (c − m') times the sum of its values
    have hs : ∑ u : Fin 512, xv u d = ((∑ k ∈ tile j.val, vc d k : ℝ) : EReal) := by
      rw [← sum_tile j (vc d), ← coe_sum]
      exact Finset.sum_congr rfl (fun u _ => hxv u d)
    rw [hs, exp_sub_coe, ← EReal.coe_mul, numAt_const sc (vc d) (tile j.val) c _ hc]

/-- After all keys: accumulator over denominator is the row's attention. -/
theorem RowInv.out {sc : Fin 2048 → ℝ} {vc : Fin 64 → Fin 2048 → ℝ} {sm sl : EReal} {sa : Fin 64 → EReal}
    (h : RowInv sc vc Finset.univ Finset.univ_nonempty sm sl sa) (d : Fin 64) :
    Ideal.div (sa d) sl = ((attn sc (vc d) : ℝ) : EReal) := by
  -- the denominator is a positive real, so the quotient is the product with its reciprocal
  rw [h.ha d, h.hl, Ideal.div_coe (ne_of_gt (denAt_pos sc Finset.univ Finset.univ_nonempty _)), ← EReal.coe_mul,
    mul_one_div]
  rfl

end Cert.Attn

end
-- ==== Proof.Spec.lean ====
/- The specification both programs meet: causal attention with an additive key mask, one query row at a time.
   For head `b`, query row `r` and key `k` the score is `(q_r · k_k) / 8 + mask[b mod 4, k] · (−2³²)` when the
   key is not in the future of the query (`k ≤ r`), and the constant `−2³²` otherwise; the result at `(b, r, d)` is
   the softmax of the row's 2048 scores applied to column `d` of the values, `Cert.Attn.attn`, read as an extended
   real. The arrays are extended reals; on finite inputs each entry is its own `toReal`. -/
import Idealize.ShloMosaic.PureOps.Ideal
import Idealize.ShloMosaic.Lib.ValueIdx
import proofs.«425486_j403726926205_3_alg».proof.Proof.Softmax

noncomputable section

namespace Cert.Attn

open Idealize.ShloMosaic Idealize.ShloMosaic.ValueIdx

/-- The shape of queries, keys, values and the result: 32 heads, 2048 positions, 64 features. -/
abbrev SQ : Shape := ⟨3, ![32, 2048, 64]⟩
/-- The shape of the key mask: 4 batches, 2048 positions. -/
abbrev SM : Shape := ⟨2, ![4, 2048]⟩

/-- The additive masking constant, −2³². -/
def negBig : ℝ := -4294967296

/-- The batch a head belongs to: heads are tiled over the 4 batches. -/
def batchOf (b : Fin 32) : Fin 4 := ⟨b.val % 4, Nat.mod_lt _ (by decide)⟩

/-- The score of query row `r` against key `k` in head `b`. -/
def score (Q K : SQ.Idx → EReal) (Mk : SM.Idx → BitVec 32) (b : Fin 32) (r k : Fin 2048) : ℝ :=
  if k.val ≤ r.val then
    (∑ e : Fin 64, (Q (ix3 b r e)).toReal * (K (ix3 b k e)).toReal) * (1 / 8 : ℝ) + ((Mk (ix2 (batchOf b) k)).toInt : ℝ) * negBig
  else negBig

/-- Column `d` of head `b`'s values, key by key. -/
def valCol (V : SQ.Idx → EReal) (b : Fin 32) (d : Fin 64) (k : Fin 2048) : ℝ := (V (ix3 b k d)).toReal

/-- The result at head `b`, row `r`, feature `d`. -/
def G3 (Q K V : SQ.Idx → EReal) (Mk : SM.Idx → BitVec 32) (b : Fin 32) (r : Fin 2048) (d : Fin 64) : EReal :=
  ((attn (score Q K Mk b r) (valCol V b d) : ℝ) : EReal)

/-- The whole result array. -/
def G (Q K V : SQ.Idx → EReal) (Mk : SM.Idx → BitVec 32) : SQ.Idx → EReal :=
  fun i => G3 Q K V Mk (i 0) (i 1) (i 2)

theorem G_ix3 (Q K V : SQ.Idx → EReal) (Mk : SM.Idx → BitVec 32) (b : Fin 32) (r : Fin 2048) (d : Fin 64) :
    G Q K V Mk (ix3 b r d) = G3 Q K V Mk b r d := rfl

/-- Every entry of the array is a real number. -/
def Finite (X : SQ.Idx → EReal) : Prop := ∀ i, X i ≠ ⊤ ∧ X i ≠ ⊥

theorem Finite.coe_toReal {X : SQ.Idx → EReal} (h : Finite X) (i : SQ.Idx) : ((X i).toReal : EReal) = X i :=
  EReal.coe_toReal (h i).1 (h i).2

end Cert.Attn

end
-- ==== Proof.Consts.lean ====
/- The float constants the two programs spell, as the extended reals their f32 words denote: the masking constant
   −2³², the score scale 1/8 and its reciprocal 8, the tile width 512, one, zero and −∞. -/
import Idealize.ShloMosaic.PureOps.Ideal

noncomputable section

namespace Cert.Consts

open Idealize.ShloMosaic

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

theorem ofBits_eight : Ideal.ofBits .f32 0x41000000#32 = ((8 : ℝ) : EReal) := by
  simp [Ideal.ofBits, Ideal.ieee, -EReal.coe_mul]; norm_num

theorem ofBits_eighth : Ideal.ofBits .f32 0x3E000000#32 = ((1 / 8 : ℝ) : EReal) := by
  simp [Ideal.ofBits, Ideal.ieee, -EReal.coe_mul]; norm_num

theorem ofBits_512 : Ideal.ofBits .f32 0x44000000#32 = ((512 : ℝ) : EReal) := by
  simp [Ideal.ofBits, Ideal.ieee, -EReal.coe_mul]; norm_num

theorem ofBits_negBig : Ideal.ofBits .f32 0xCF800000#32 = ((-4294967296 : ℝ) : EReal) := by
  simp [Ideal.ofBits, Ideal.ieee, -EReal.coe_mul]; norm_num

theorem ofBits_negInf : Ideal.ofBits .f32 0xFF800000#32 = (⊥ : EReal) := by
  simp [Ideal.ofBits, Ideal.ieee]

end Cert.Consts

end
-- ==== Proof.KernelIdealScore.lean ====
/- The kernel's tile quantities are the specification's. At a grid point (head b, query tile, key tile), for row `p` of
   the query tile and key `u` of the key tile: the score entry the body computes from the kept query rows, the key block
   and the mask block is the specification's score of query row `512·qtile + p` against key `512·ktile + u` (the causal
   test on the position words is the comparison of the two positions); a key tile wholly in the causal future has the
   constant score −2³²; the value block holds the specification's value columns and the query block the query rows. -/
import proofs.«425486_j403726926205_3_alg».proof.Proof.KernelIdealPayIdx
import proofs.«425486_j403726926205_3_alg».proof.Proof.KernelIdealBlocks
import proofs.«425486_j403726926205_3_alg».proof.Proof.RowMath
import proofs.«425486_j403726926205_3_alg».proof.Proof.Spec
import proofs.«425486_j403726926205_3_alg».proof.Proof.Consts
import Idealize.ShloMosaic.Lib.StableHlo.Predicate

set_option maxRecDepth 16384

noncomputable section

namespace Cert.KernelIdeal.Gen

open Idealize.ShloMosaic Idealize.ShloMosaic.TcCoe Idealize.ShloMosaic.ValueIdx Idealize.SL.Sem
open Cert.Attn

variable (m : (ℓ : Loc nD τ sig) → Buf (Elt Ideal) ℓ)

/-- The four argument arrays on core `c`, as the specification takes them. -/
abbrev Qa (c : Dev nD) : SQ.Idx → EReal := m ((c.tc : Thread nD τ).loc main_arg0)
abbrev Ka (c : Dev nD) : SQ.Idx → EReal := m ((c.tc : Thread nD τ).loc main_arg1)
abbrev Va (c : Dev nD) : SQ.Idx → EReal := m ((c.tc : Thread nD τ).loc main_arg2)
abbrev Ma (c : Dev nD) : SM.Idx → BitVec 32 := m ((c.tc : Thread nD τ).loc main_arg3)

/-- The kept query tile holds the point's query rows. -/
def QOk (c : Dev nD) (t : Fin cfg0.N) (sq : Vec Ideal S512x64 .bf16) : Prop :=
  ∀ (p : Fin 512) (e : Fin 64), sq (ix2 p e) = Qa m c (ix3 (bhOf t) (rowOf (qiOf t) p) e)

theorem rowOf_eq_row (j : Fin 4) (p : Fin 512) : rowOf j p = row j p := rfl

/-- The query block is the point's query rows. -/
theorem qblk_apply (c : Dev nD) (t : Fin cfg0.N) (p : Fin 512) (e : Fin 64) :
    (iblk m c 0 t : Vec Ideal S1x512x64 .f32) (ix3 (0 : Fin 1) p e) = Qa m c (ix3 (bhOf t) (rowOf (qiOf t) p) e) := by
  rw [iblk0_apply, V_main_arg0]

/-- What the first key tile keeps (the query block, its format changed, which is the identity here) is the query rows. -/
theorem QOk_pay4 (c : Dev nD) (t : Fin cfg0.N) : QOk m c t (k0_pay4 (F := Ideal) (iblk m c 0 t)) := by
  unfold QOk
  intro p e
  rw [pay4_apply, qblk_apply]

/-- The value block's column `d` is the specification's value column at the tile's keys (finite values). -/
theorem vblk_apply (c : Dev nD) (hV : Cert.Attn.Finite (Va m c)) (t : Fin cfg0.N) (u : Fin 512) (d : Fin 64) :
    (iblk m c 2 t : Vec Ideal S1x512x64 .f32) (ix3 (0 : Fin 1) u d) = ((valCol (Va m c) (bhOf t) d (row (kiOf t) u) : ℝ) : EReal) := by
  rw [iblk2_apply, V_main_arg2]
  unfold valCol
  rw [hV.coe_toReal]
  rfl

/-- One entry of the tile's score matrix is the specification's score (finite queries and keys). -/
theorem tsc_score (c : Dev nD) (hQ : Cert.Attn.Finite (Qa m c)) (hK : Cert.Attn.Finite (Ka m c)) (t : Fin cfg0.N)
    (sq : Vec Ideal S512x64 .bf16) (hsq : QOk m c t sq) (p u : Fin 512) :
    tsc (qw (grid0.coords t)) (kw (grid0.coords t)) sq (iblk m c 1 t) (iblk m c 3 t) p u
      = ((score (Qa m c) (Ka m c) (Ma m c) (bhOf t) (rowOf (qiOf t) p) (row (kiOf t) u) : ℝ) : EReal) := by
  rw [tsc_eq]
  -- the product of the query row and the key row is a real number
  have hdot : (∑ e : Fin 64, sq (ix2 p e) * (iblk m c 1 t : Vec Ideal S1x512x64 .f32) (ix3 (0 : Fin 1) u e))
      = ((∑ e : Fin 64, (Qa m c (ix3 (bhOf t) (rowOf (qiOf t) p) e)).toReal
            * (Ka m c (ix3 (bhOf t) (row (kiOf t) u) e)).toReal : ℝ) : EReal) := by
    rw [← Cert.Attn.coe_sum]
    refine Finset.sum_congr rfl fun e _ => ?_
    rw [hsq p e, iblk1_apply, V_main_arg1, EReal.coe_mul, hQ.coe_toReal, hK.coe_toReal]
    rfl
  -- the mask entry is the integer mask of the head's batch at the key, as a real number
  have hmask : (iblk m c 3 t : Vec Ideal S1x1x512 .f32) (ix3 (0 : Fin 1) (0 : Fin 1) u)
      = (((Ma m c (ix2 (batchOf (bhOf t)) (row (kiOf t) u))).toInt : ℝ) : EReal) := by
    rw [iblk3_apply, V_main_v1_apply]
    rfl
  -- a tile coordinate below 4 times 512 plus a position below 512 does not wrap
  have key : ∀ (a : ℕ) (q : Fin 512), a < 4 →
      (BitVec.ofNat 32 a * 512#32 + BitVec.ofNat 32 q.val).toNat = a * 512 + q.val := by
    intro a q ha
    rw [BitVec.toNat_add, BitVec.toNat_mul, BitVec.toNat_ofNat, BitVec.toNat_ofNat, BitVec.toNat_ofNat]
    have := q.isLt
    omega
  -- so the signed comparison of the two position words is the comparison of the positions
  have hkeep : keep (qw (grid0.coords t)) (kw (grid0.coords t)) p u = 1#1
      ↔ (row (kiOf t) u).val ≤ (rowOf (qiOf t) p).val := by
    show IntOp.cmpi .sge (BitVec.ofNat 32 (grid0.coords t 1).val * 512#32 + BitVec.ofNat 32 p.val)
        (BitVec.ofNat 32 (grid0.coords t 2).val * 512#32 + BitVec.ofNat 32 u.val) = 1#1
      ↔ t.val % 4 * 512 + u.val ≤ t.val / 4 % 4 * 512 + p.val
    rw [coords_1, coords_2]
    have h1 := key (t.val / 4 % 4) p (Nat.mod_lt _ (by decide))
    have h2 := key (t.val % 4) u (Nat.mod_lt _ (by decide))
    rw [StableHlo.Predicate.sge_iff_toNat (by rw [h1]; have := p.isLt; omega) (by rw [h2]; have := u.isLt; omega), h1, h2]
  rw [hdot, hmask]
  show Scalar.select _ ((_ : EReal) * Ideal.ofBits .f32 0x3E000000#32 + _ * Ideal.ofBits .f32 0xCF800000#32)
    (Ideal.ofBits .f32 0xCF800000#32) = _
  rw [Cert.Consts.ofBits_eighth, Cert.Consts.ofBits_negBig, ← EReal.coe_mul, ← EReal.coe_mul, ← EReal.coe_add]
  unfold score
  by_cases h : (row (kiOf t) u).val ≤ (rowOf (qiOf t) p).val
  · rw [hkeep.mpr h, select_one, if_pos h]
    rfl
  · rw [eq_zero_of_ne_one (mt hkeep.mp h), select_zero, if_neg h]
    rfl

/-- On a key tile wholly in the causal future every score of the row is the masking constant. -/
theorem score_future (c : Dev nD) (t : Fin cfg0.N) (h1 : ¬t.val % 4 ≤ t.val / 4 % 4) (p : Fin 512)
    (k : Fin 2048) (hk : k ∈ tile (kiOf t).val) :
    score (Qa m c) (Ka m c) (Ma m c) (bhOf t) (rowOf (qiOf t) p) k = negBig := by
  unfold score
  rw [if_neg]
  -- the key lies in tile t mod 4, past the query's tile t / 4 mod 4, so past the query's position
  simp only [tile, Finset.mem_filter, Finset.mem_univ, true_and] at hk
  have hk' : k.val / 512 = t.val % 4 := hk
  show ¬k.val ≤ t.val / 4 % 4 * 512 + p.val
  have := p.isLt
  omega

end Cert.KernelIdeal.Gen

end
-- ==== Proof.KernelIdealInv.lean ====
/- The invariant of the attention kernel's scratch. After the body at grid point t (head, query tile, key tile) the kept query tile holds the point's query rows, and for each of the tile's 512 rows the running maximum, denominator and accumulator are the row's online state (`Cert.Attn.RowInv`) over the keys of tiles 0 … ktile. -/
import proofs.«425486_j403726926205_3_alg».proof.Proof.KernelIdealScore

set_option maxRecDepth 16384

noncomputable section

namespace Cert.KernelIdeal.Gen

open Idealize.ShloMosaic Idealize.ShloMosaic.TcCoe Idealize.ShloMosaic.ValueIdx Idealize.SL.Sem
open Cert.Attn

variable (m : (ℓ : Loc nD τ sig) → Buf (Elt Ideal) ℓ)

/-- The three float arguments hold real numbers only. -/
def FiniteArgs (c : Dev nD) : Prop := Cert.Attn.Finite (Qa m c) ∧ Cert.Attn.Finite (Ka m c) ∧ Cert.Attn.Finite (Va m c)

/-- The state after the body at point `t`: the kept query rows, and each row's online state over the key tiles 0 … ktile. -/
def Inv (c : Dev nD) (t : Fin cfg0.N) (s : St Ideal) : Prop :=
  QOk m c t s.sq ∧
  ∀ p : Fin 512, RowInv (score (Qa m c) (Ka m c) (Ma m c) (bhOf t) (rowOf (qiOf t) p)) (fun d => valCol (Va m c) (bhOf t) d)
    (upto (kiOf t).val) (upto_nonempty _) (s.sm (ix2 p (0 : Fin 1))) (s.sl (ix2 p (0 : Fin 1))) (fun d => s.sa (ix2 p d))

/-- The point before `t`. -/
def predPt (t : Fin cfg0.N) : Fin cfg0.N := ⟨t.val - 1, Nat.lt_of_le_of_lt (Nat.sub_le _ _) t.isLt⟩

/-- Away from a first key tile the point before is in the same head and query tile, one key tile earlier. -/
theorem bhOf_pred (t : Fin cfg0.N) (h0 : ¬t.val % 4 = 0) : bhOf (predPt t) = bhOf t := by
  apply Fin.ext; show (t.val - 1) / 16 = t.val / 16; omega
theorem qiOf_pred (t : Fin cfg0.N) (h0 : ¬t.val % 4 = 0) : qiOf (predPt t) = qiOf t := by
  apply Fin.ext; show (t.val - 1) / 4 % 4 = t.val / 4 % 4; omega
theorem kiOf_pred (t : Fin cfg0.N) (h0 : ¬t.val % 4 = 0) : (kiOf (predPt t)).val + 1 = (kiOf t).val := by
  show (t.val - 1) % 4 + 1 = t.val % 4; omega
theorem kiOf_zero (t : Fin cfg0.N) (h0 : t.val % 4 = 0) : (kiOf t).val = 0 := h0

end Cert.KernelIdeal.Gen

end
-- ==== Proof.KernelIdealInvAct.lean ====
/- The active key tiles keep the invariant: the first key tile establishes each row's state over tile 0 from the reset state (maximum −∞, denominator 0, accumulator 0), and a later tile met by the causal triangle extends it by that tile's 512 keys — the tile's scores are the specification's, so the new maximum, denominator and accumulator are `RowInv.first` / `RowInv.active`. -/
import proofs.«425486_j403726926205_3_alg».proof.Proof.KernelIdealInv

set_option maxRecDepth 16384

noncomputable section

namespace Cert.KernelIdeal.Gen

open Idealize.ShloMosaic Idealize.ShloMosaic.TcCoe Idealize.ShloMosaic.ValueIdx Idealize.SL.Sem
open Cert.Attn

variable (m : (ℓ : Loc nD τ sig) → Buf (Elt Ideal) ℓ)

/-- A row state transported along an equality of the key sets and of the three values. -/
theorem rowInv_congr {sc : Fin 2048 → ℝ} {vc : Fin 64 → Fin 2048 → ℝ} {S S' : Finset (Fin 2048)} (h : S = S')
    {hS : S.Nonempty} {hS' : S'.Nonempty} {sm sm' sl sl' : EReal} {sa sa' : Fin 64 → EReal}
    (hm : sm' = sm) (hl : sl' = sl) (ha : sa' = sa) :
    RowInv sc vc S hS sm sl sa → RowInv sc vc S' hS' sm' sl' sa' := by
  subst h hm hl ha; exact id

/-- First key tile: the reset and the first active update establish the state over tile 0. -/
theorem inv_stepA (c : Dev nD) (hfin : FiniteArgs m c) (t : Fin cfg0.N) (h0 : t.val % 4 = 0) :
    Inv m c t (stepA (grid0.coords t) (iblk m c 0 t) (iblk m c 1 t) (iblk m c 2 t) (iblk m c 3 t)) := by
  have hq : QOk m c t (k0_pay4 (F := Ideal) (iblk m c 0 t)) := QOk_pay4 m c t
  unfold Inv stepA
  dsimp only
  refine ⟨hq, fun p => ?_⟩
  -- the new maximum: the reset maximum is −∞
  have hnm : actM (F := Ideal) (qw (grid0.coords t)) (kw (grid0.coords t)) (k0_pay4 (F := Ideal) (iblk m c 0 t)) (iblk m c 1 t) (iblk m c 3 t) (k0_pay1 (F := Ideal)) (ix2 p (0 : Fin 1))
      = max (⊥ : EReal) ((Finset.univ : Finset (Fin 512)).fold max (⊥ : EReal)
          (fun u => tsc (qw (grid0.coords t)) (kw (grid0.coords t)) (k0_pay4 (F := Ideal) (iblk m c 0 t)) (iblk m c 1 t) (iblk m c 3 t) p u)) := by
    refine (actM_apply (qw (grid0.coords t)) (kw (grid0.coords t)) (k0_pay4 (F := Ideal) (iblk m c 0 t)) (iblk m c 1 t) (iblk m c 3 t) (k0_pay1 (F := Ideal)) p).trans ?_
    rw [pay1_apply]
  -- the row's state over tile 0, from the reset state
  have hR := RowInv.first (score (Qa m c) (Ka m c) (Ma m c) (bhOf t) (rowOf (qiOf t) p)) (fun d => valCol (Va m c) (bhOf t) d) (kiOf t)
    (fun u => tsc (qw (grid0.coords t)) (kw (grid0.coords t)) (k0_pay4 (F := Ideal) (iblk m c 0 t)) (iblk m c 1 t) (iblk m c 3 t) p u)
    (fun u d => (iblk m c 2 t : Vec Ideal S1x512x64 .f32) (ix3 (0 : Fin 1) u d))
    (fun u => tsc_score m c hfin.1 hfin.2.1 t (k0_pay4 (F := Ideal) (iblk m c 0 t)) hq p u)
    (fun u d => vblk_apply m c hfin.2.2 t u d)
    (actM (F := Ideal) (qw (grid0.coords t)) (kw (grid0.coords t)) (k0_pay4 (F := Ideal) (iblk m c 0 t)) (iblk m c 1 t) (iblk m c 3 t) (k0_pay1 (F := Ideal)) (ix2 p (0 : Fin 1)))
    hnm
  -- the keys of tiles 0 … 0 are tile 0
  have hS : tile (kiOf t).val = upto (kiOf t).val := by rw [kiOf_zero t h0, upto_zero]
  refine rowInv_congr hS rfl ?_ ?_ hR
  · -- the denominator: the reset maximum is −∞ and the reset denominator 0
    refine (actL_apply (qw (grid0.coords t)) (kw (grid0.coords t)) (k0_pay4 (F := Ideal) (iblk m c 0 t)) (iblk m c 1 t) (iblk m c 3 t) (k0_pay1 (F := Ideal)) (k0_pay2 (F := Ideal)) p).trans ?_
    rw [pay1_apply, pay2_apply]
  · -- the accumulator: the reset accumulator is 0
    funext d
    refine (actA_apply (qw (grid0.coords t)) (kw (grid0.coords t)) (k0_pay4 (F := Ideal) (iblk m c 0 t)) (iblk m c 1 t) (iblk m c 2 t) (iblk m c 3 t) (k0_pay1 (F := Ideal)) (k0_pay3 (F := Ideal)) p d).trans ?_
    rw [pay1_apply, pay3_apply]

/-- A later active key tile extends the state by that tile. -/
theorem inv_stepB (c : Dev nD) (hfin : FiniteArgs m c) (t : Fin cfg0.N) (h0 : ¬t.val % 4 = 0) (h1 : t.val % 4 ≤ t.val / 4 % 4)
    (s : St Ideal) (hs : Inv m c (predPt t) s) :
    Inv m c t (stepB (grid0.coords t) (iblk m c 1 t) (iblk m c 2 t) (iblk m c 3 t) s) := by
  obtain ⟨hq0, hrow⟩ := hs
  have hb : bhOf (predPt t) = bhOf t := bhOf_pred t h0
  have hqi : qiOf (predPt t) = qiOf t := qiOf_pred t h0
  have hk : (kiOf (predPt t)).val + 1 = (kiOf t).val := kiOf_pred t h0
  -- the point before is in the same head and query tile, so the kept query rows are this point's
  have hq : QOk m c t s.sq := by
    intro p e
    have h := hq0 p e
    rw [hb, hqi] at h
    exact h
  unfold Inv stepB
  dsimp only
  refine ⟨hq, fun p => ?_⟩
  have hp := hrow p
  rw [hb, hqi] at hp
  -- this tile's keys are new
  have hd : Disjoint (upto (kiOf (predPt t)).val) (tile (kiOf t).val) := by
    rw [← hk]; exact upto_disjoint _
  have hR := RowInv.active hp (kiOf t) hd
    (fun u => tsc (qw (grid0.coords t)) (kw (grid0.coords t)) s.sq (iblk m c 1 t) (iblk m c 3 t) p u)
    (fun u d => (iblk m c 2 t : Vec Ideal S1x512x64 .f32) (ix3 (0 : Fin 1) u d))
    (fun u => tsc_score m c hfin.1 hfin.2.1 t s.sq hq p u)
    (fun u d => vblk_apply m c hfin.2.2 t u d)
    (actM (F := Ideal) (qw (grid0.coords t)) (kw (grid0.coords t)) s.sq (iblk m c 1 t) (iblk m c 3 t) s.sm (ix2 p (0 : Fin 1)))
    (actM_apply (qw (grid0.coords t)) (kw (grid0.coords t)) s.sq (iblk m c 1 t) (iblk m c 3 t) s.sm p)
  -- tiles 0 … ktile are tiles 0 … ktile − 1 and tile ktile
  have hS : upto (kiOf (predPt t)).val ∪ tile (kiOf t).val = upto (kiOf t).val := by
    rw [← hk, upto_succ]
  refine rowInv_congr hS rfl ?_ ?_ hR
  · exact actL_apply (qw (grid0.coords t)) (kw (grid0.coords t)) s.sq (iblk m c 1 t) (iblk m c 3 t) s.sm s.sl p
  · funext d
    exact actA_apply (qw (grid0.coords t)) (kw (grid0.coords t)) s.sq (iblk m c 1 t) (iblk m c 2 t) (iblk m c 3 t) s.sm s.sa p d

end Cert.KernelIdeal.Gen

end
-- ==== Proof.KernelIdealInvFut.lean ====
/- A key tile wholly in the causal future keeps the invariant: every score of the row on that tile is the masking constant, so the closed-form update — the maximum against the constant, 512 copies of one exponential, and that exponential times the column sums of the value block — is `RowInv.future`. -/
import proofs.«425486_j403726926205_3_alg».proof.Proof.KernelIdealInv

set_option maxRecDepth 16384

noncomputable section

namespace Cert.KernelIdeal.Gen

open Idealize.ShloMosaic Idealize.ShloMosaic.TcCoe Idealize.ShloMosaic.ValueIdx Idealize.SL.Sem
open Cert.Attn

variable (m : (ℓ : Loc nD τ sig) → Buf (Elt Ideal) ℓ)

/-- A row state over a key set is the row state over any equal key set (the nonemptiness evidence is a proof). -/
private theorem rowInv_of_eq_fut {sc : Fin 2048 → ℝ} {vc : Fin 64 → Fin 2048 → ℝ} {S S' : Finset (Fin 2048)}
    {hS : S.Nonempty} {hS' : S'.Nonempty} {sm sl : EReal} {sa : Fin 64 → EReal} (h : S = S')
    (hr : RowInv sc vc S hS sm sl sa) : RowInv sc vc S' hS' sm sl sa := by
  subst h; exact hr

/-- A key tile wholly in the causal future extends the state by that tile, in closed form. -/
theorem inv_stepC (c : Dev nD) (hfin : FiniteArgs m c) (t : Fin cfg0.N) (h0 : ¬t.val % 4 = 0) (h1 : ¬t.val % 4 ≤ t.val / 4 % 4)
    (s : St Ideal) (hs : Inv m c (predPt t) s) :
    Inv m c t (stepC (iblk m c 2 t) s) := by
  unfold Inv at hs ⊢
  obtain ⟨hq, hr⟩ := hs
  obtain ⟨-, -, hV⟩ := hfin
  -- the point before is in the same head and query tile, one key tile earlier
  have eb : bhOf (predPt t) = bhOf t := bhOf_pred t h0
  have eq : qiOf (predPt t) = qiOf t := qiOf_pred t h0
  have ek : (kiOf (predPt t)).val + 1 = (kiOf t).val := kiOf_pred t h0
  refine ⟨?_, fun p => ?_⟩
  · -- the kept query tile is untouched
    unfold QOk at hq ⊢
    intro p e
    have h := hq p e
    rw [eb, eq] at h
    exact h
  · have hp := hr p
    rw [eb, eq] at hp
    -- the keys of tiles 0 … ktile are those of tiles 0 … ktile − 1 together with tile ktile, disjointly
    have hS : upto (kiOf t).val = upto (kiOf (predPt t)).val ∪ tile (kiOf t).val := by
      rw [← ek]; exact upto_succ _
    have hd : Disjoint (upto (kiOf (predPt t)).val) (tile (kiOf t).val) := by
      rw [← ek]; exact upto_disjoint _
    have hC : Mc = ((negBig : ℝ) : EReal) := by
      unfold negBig; exact Cert.Consts.ofBits_negBig
    -- on this tile every score of the row is the masking constant: the closed-form update
    have hf := RowInv.future hp (kiOf t) hd negBig (score_future m c t h1 p) Mc c512 hC Cert.Consts.ofBits_512
      (fun u d => (iblk m c 2 t : Vec Ideal S1x512x64 .f32) (ix3 (0 : Fin 1) u d)) (fun u d => vblk_apply m c hV t u d)
      (max (s.sm (ix2 p (0 : Fin 1))) Mc) rfl
    -- what the step leaves in row p: the closed forms of the maximum, the denominator and the accumulator
    have e3 := funext fun d => futA_apply (iblk m c 2 t) s.sm s.sa p d
    show RowInv _ _ _ _ (futM s.sm (ix2 p (0 : Fin 1))) (futL s.sm s.sl (ix2 p (0 : Fin 1)))
      (fun d => futA (iblk m c 2 t) s.sm s.sa (ix2 p d))
    rw [futM_apply s.sm p, futL_apply s.sm s.sl p, e3]
    exact rowInv_of_eq_fut hS.symm hf

end Cert.KernelIdeal.Gen

end
-- ==== Proof.KernelIdealValue.lean ====
/- The kernel computes the specification. The invariant holds after every point, by induction along the grid (each point's control case is one of the steps); at a last key tile all 2048 keys have been met, so the output block accumulator / denominator is the specification's block (`RowInv.out`); and the blocks written back assemble to the whole result array. -/
import proofs.«425486_j403726926205_3_alg».proof.Proof.KernelIdealPieces
import proofs.«425486_j403726926205_3_alg».proof.Proof.KernelIdealInvAct
import proofs.«425486_j403726926205_3_alg».proof.Proof.KernelIdealInvFut

set_option maxRecDepth 16384

noncomputable section

namespace Cert.KernelIdeal.Gen

open Idealize.ShloMosaic Idealize.ShloMosaic.TcCoe Idealize.ShloMosaic.ValueIdx Idealize.SL.Sem
open Cert.Attn

variable (m : (ℓ : Loc nD τ sig) → Buf (Elt Ideal) ℓ)

/-- The last key tile's steps leave the same scratch as the plain ones. -/
theorem inv_stepD (c : Dev nD) (hfin : FiniteArgs m c) (t : Fin cfg0.N) (h0 : ¬t.val % 4 = 0) (h1 : t.val % 4 ≤ t.val / 4 % 4)
    (s : St Ideal) (hs : Inv m c (predPt t) s) :
    Inv m c t (stepD (grid0.coords t) (iblk m c 1 t) (iblk m c 2 t) (iblk m c 3 t) s) :=
  inv_stepB m c hfin t h0 h1 s hs

theorem inv_stepE (c : Dev nD) (hfin : FiniteArgs m c) (t : Fin cfg0.N) (h0 : ¬t.val % 4 = 0) (h1 : ¬t.val % 4 ≤ t.val / 4 % 4)
    (s : St Ideal) (hs : Inv m c (predPt t) s) :
    Inv m c t (stepE (iblk m c 2 t) s) :=
  inv_stepC m c hfin t h0 h1 s hs

/-- The state holds after every point: induction on the point's position, the control case read off the closed forms. -/
theorem inv_at (c : Dev nD) (hfin : FiniteArgs m c) :
    ∀ (n : ℕ) (t : Fin cfg0.N), t.val = n → Inv m c t (outsAt0 m c t.val t.isLt) := by
  intro n
  induction n with
  | zero =>
    intro t ht
    have h0 : t.val % 4 = 0 := by rw [ht]
    rw [outsAt0_A m c t h0, stA_eq m c t h0]
    exact inv_stepA m c hfin t h0
  | succ n ih =>
    intro t ht
    by_cases h0 : t.val % 4 = 0
    · rw [outsAt0_A m c t h0, stA_eq m c t h0]
      exact inv_stepA m c hfin t h0
    · have ihp : Inv m c (predPt t) (outsAt0 m c (t.val - 1) (Nat.lt_of_le_of_lt (Nat.sub_le _ _) t.isLt)) :=
        ih (predPt t) (by show t.val - 1 = n; omega)
      by_cases h1 : t.val % 4 ≤ t.val / 4 % 4
      · by_cases h3 : t.val % 4 = 3
        · rw [outsAt0_D m c t h0 h1 h3, stD_eq m c t h0 h1 h3]
          exact inv_stepD m c hfin t h0 h1 _ ihp
        · rw [outsAt0_B m c t h0 h1 h3, stB_eq m c t h0 h1 h3]
          exact inv_stepB m c hfin t h0 h1 _ ihp
      · by_cases h3 : t.val % 4 = 3
        · rw [outsAt0_E m c t h0 h1 h3, stE_eq m c t h0 h1 h3]
          exact inv_stepE m c hfin t h0 h1 _ ihp
        · rw [outsAt0_C m c t h0 h1 h3, stC_eq m c t h0 h1 h3]
          exact inv_stepC m c hfin t h0 h1 _ ihp

theorem inv_all (c : Dev nD) (hfin : FiniteArgs m c) : ∀ (n : ℕ) (hn : n < cfg0.N), Inv m c ⟨n, hn⟩ (outsAt0 m c n hn) :=
  fun n hn => inv_at m c hfin n ⟨n, hn⟩ rfl

/-- A row's state over a key set is its state over any equal key set. -/
theorem rowInv_castSet {sc : Fin 2048 → ℝ} {vc : Fin 64 → Fin 2048 → ℝ} {S S' : Finset (Fin 2048)} (h : S = S')
    {hS : S.Nonempty} {hS' : S'.Nonempty} {sm sl : EReal} {sa : Fin 64 → EReal} :
    RowInv sc vc S hS sm sl sa → RowInv sc vc S' hS' sm sl sa := by
  subst h; exact id

/-- At the last key tile all keys have been met: the quotient of a state's accumulator by its denominator is the
    specification's block. -/
theorem out_of_inv (c : Dev nD) (t : Fin cfg0.N) (h3 : t.val % 4 = 3) (s : St Ideal) (hs : Inv m c t s) (p : Fin 512) (d : Fin 64) :
    outO (F := Ideal) s.sa s.sl (ix3 (0 : Fin 1) p d) = G (Qa m c) (Ka m c) (Va m c) (Ma m c) (ix3 (bhOf t) (rowOf (qiOf t) p) d) := by
  have hk : (kiOf t).val = 3 := h3
  have hr := hs.2 p
  have hu : upto (kiOf t).val = Finset.univ := by rw [hk]; exact upto_three
  have hr' : RowInv (score (Qa m c) (Ka m c) (Ma m c) (bhOf t) (rowOf (qiOf t) p)) (fun d => valCol (Va m c) (bhOf t) d)
      Finset.univ Finset.univ_nonempty (s.sm (ix2 p (0 : Fin 1))) (s.sl (ix2 p (0 : Fin 1))) (fun d => s.sa (ix2 p d)) :=
    rowInv_castSet hu hr
  rw [outO_apply, G_ix3]
  exact hr'.out d

/-- The output block left at a last key tile is the specification's block. -/
theorem out_block (c : Dev nD) (hfin : FiniteArgs m c) (t : Fin cfg0.N) (h3 : t.val % 4 = 3) (p : Fin 512) (d : Fin 64) :
    (outsAt0 m c t.val t.isLt).o (ix3 (0 : Fin 1) p d) = G (Qa m c) (Ka m c) (Va m c) (Ma m c) (ix3 (bhOf t) (rowOf (qiOf t) p) d) := by
  have h0 : ¬t.val % 4 = 0 := by omega
  have ihp : Inv m c (predPt t) (outsAt0 m c (t.val - 1) (Nat.lt_of_le_of_lt (Nat.sub_le _ _) t.isLt)) :=
    inv_at m c hfin (t.val - 1) (predPt t) rfl
  by_cases h1 : t.val % 4 ≤ t.val / 4 % 4
  · rw [outsAt0_D m c t h0 h1 h3, stD_eq m c t h0 h1 h3]
    exact out_of_inv m c t h3 _ (inv_stepD m c hfin t h0 h1 _ ihp) p d
  · rw [outsAt0_E m c t h0 h1 h3, stE_eq m c t h0 h1 h3]
    exact out_of_inv m c t h3 _ (inv_stepE m c hfin t h0 h1 _ ihp) p d

/-- THE VALUE: the output array after the run is the specification of the argument arrays. -/
theorem final (c : Dev nD) (hfin : FiniteArgs m c) :
    (dats m 0 c).arrAt 4 cfg0.N = G (Qa m c) (Ka m c) (Va m c) (Ma m c) :=
  final4 m c (G (Qa m c) (Ka m c) (Va m c) (Ma m c)) (fun t h3 p d => out_block m c hfin t h3 p d)

end Cert.KernelIdeal.Gen

end
-- ==== Proof.RefValue.lean ====
/- The reference program computes the specification: read one operation at a time at the ideal instance, its
   result at head `b`, row `r`, feature `d` is the softmax of the row's scores — each exponential divided by the
   row's sum first — applied to the values' column, which is `Cert.Attn.attn` (`attn_eq_sum_div`). The inputs are
   finite, so every score, exponential and sum is a real number and the quotient by 8 is the product with 1/8.
   The stages, each read at explicit coordinates: the query–key product and its scaling; the key mask's term (head
   `b` reads mask row `b mod 4`); the causal triangle as a comparison of positions; the masked score, which is the
   specification's `score`; the row maximum, a fold of `max` from −∞ that is the supremum of the coerced scores;
   the exponentials, their sum and the weights; and the final product with the values. -/
import proofs.«425486_j403726926205_3_alg».proof.Proof.RefRead
import proofs.«425486_j403726926205_3_alg».proof.Proof.Spec
import proofs.«425486_j403726926205_3_alg».proof.Proof.Consts
import Idealize.ShloMosaic.Lib.StableHlo.Predicate

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.Attn Idealize.ShloMosaic.ValueIdx Cert.ReferenceIdeal.ReadP

/-- The masking constant's word, in the specification's name for it. -/
theorem cNeg : Ideal.ofBits .f32 0xCF800000#32 = ((negBig : ℝ) : EReal) := Cert.Consts.ofBits_negBig

variable (x0 x1 x2 : (⟨S32x2048x64, .f32⟩ : BufTy).Contents (Elt Ideal)) (x3 : (⟨S4x2048, .i32⟩ : BufTy).Contents (Elt Ideal))

/-- The first product: row `r` of the queries against row `k` of the keys, over the 64 features. -/
theorem v0_at (b : Fin 32) (r k : Fin 2048) :
    val_main_v0 (F := Ideal) x0 x1 (ix3 b r k) = ∑ e : Fin 64, x0 (ix3 b r e) * x1 (ix3 b k e) := by
  rw [val_main_v0_apply]
  refine Finset.sum_congr rfl fun e _ => ?_
  have el : lidx_main_v0 (ix3 b r k) e = ix3 b r e :=
    funext fun a => by match a with | ⟨0, _⟩ => rfl | ⟨1, _⟩ => rfl | ⟨2, _⟩ => rfl
  have er : ridx_main_v0 (ix3 b r k) e = ix3 b k e :=
    funext fun a => by match a with | ⟨0, _⟩ => rfl | ⟨1, _⟩ => rfl | ⟨2, _⟩ => rfl
  rw [el, er]

/-- The real number the first product is, on finite inputs. -/
def dotQK (b : Fin 32) (r k : Fin 2048) : ℝ := ∑ e : Fin 64, (x0 (ix3 b r e)).toReal * (x1 (ix3 b k e)).toReal

theorem v0_real (h0 : Cert.Attn.Finite x0) (h1 : Cert.Attn.Finite x1) (b : Fin 32) (r k : Fin 2048) :
    val_main_v0 (F := Ideal) x0 x1 (ix3 b r k) = ((dotQK x0 x1 b r k : ℝ) : EReal) := by
  rw [v0_at, dotQK, ← Cert.Attn.coe_sum]
  refine Finset.sum_congr rfl fun e _ => ?_
  rw [EReal.coe_mul, h0.coe_toReal, h1.coe_toReal]

/-- Divided by 8: the product with 1/8. -/
theorem v2_at (h0 : Cert.Attn.Finite x0) (h1 : Cert.Attn.Finite x1) (b : Fin 32) (r k : Fin 2048) :
    val_main_v2 (F := Ideal) x0 x1 (ix3 b r k) = ((dotQK x0 x1 b r k * (1 / 8 : ℝ) : ℝ) : EReal) := by
  rw [val_main_v2_apply, v0_real x0 x1 h0 h1, val_main_v1_apply, val_main_cst_apply, Ideal.ofBits_def, Cert.Consts.ofBits_eight]
  show Ideal.div _ _ = _
  rw [Ideal.div_coe (by norm_num : (8 : ℝ) ≠ 0), ← EReal.coe_mul]

/-- The key mask's term: head `b` reads mask row `b mod 4`, at key `k`, times −2³². -/
theorem v10_at (b : Fin 32) (r k : Fin 2048) :
    val_main_v10 (F := Ideal) x3 (ix3 b r k) = ((((x3 (ix2 (batchOf b) k)).toInt : ℝ) * negBig : ℝ) : EReal) := by
  rw [val_main_v10_apply, val_main_v9_apply, val_main_v7_apply, val_main_v6_apply, val_main_v5_apply, val_main_v4_apply,
    val_main_v3_apply, val_main_v8_apply, val_main_cst_0_apply, Ideal.ofBits_def, cNeg]
  have e : idx_main_v4 (idx_main_v5 (idx_main_v6 (idx_main_v7 (idx_main_v10 (ix3 b r k))))) = ix2 (batchOf b) k :=
    funext fun a => Fin.ext (by
      have hb := b.isLt
      have hk := k.isLt
      match a with
      | ⟨0, _⟩ =>
        show ((((0 * 4 + (b.val * 2048 + k.val) / 2048 % 4) * 1 + 0) * 2048 + (b.val * 2048 + k.val) % 2048) / 2048) = b.val % 4
        omega
      | ⟨1, _⟩ =>
        show ((((0 * 4 + (b.val * 2048 + k.val) / 2048 % 4) * 1 + 0) * 2048 + (b.val * 2048 + k.val) % 2048) % 2048) = k.val
        omega)
  rw [e, EReal.coe_mul]
  rfl

/-- The score before the causal mask. -/
theorem v11_at (h0 : Cert.Attn.Finite x0) (h1 : Cert.Attn.Finite x1) (b : Fin 32) (r k : Fin 2048) :
    val_main_v11 (F := Ideal) x0 x1 x3 (ix3 b r k)
      = ((dotQK x0 x1 b r k * (1 / 8 : ℝ) + ((x3 (ix2 (batchOf b) k)).toInt : ℝ) * negBig : ℝ) : EReal) := by
  rw [val_main_v11_apply, v2_at x0 x1 h0 h1, v10_at, EReal.coe_add]
  rfl

/-- The lower triangle as a comparison of positions: row at least column. -/
theorem tril_at (r k : Fin 2048) : val_main_call0_v4 (F := Ideal) (ix2 r k) = 1#1 ↔ k.val ≤ r.val := by
  rw [val_main_call0_v4_apply, val_main_call0_v2_apply, val_main_call0_v0_apply, val_main_call0_v1_apply,
    val_main_call0_c_apply, val_main_call0_v3_apply]
  show IntOp.cmpi .sge (BitVec.ofNat 32 r.val + 0#32) (BitVec.ofNat 32 k.val) = 1#1 ↔ _
  have hr : (BitVec.ofNat 32 r.val).toNat = r.val := by
    rw [BitVec.toNat_ofNat]; exact Nat.mod_eq_of_lt (by have := r.isLt; omega)
  have hk : (BitVec.ofNat 32 k.val).toNat = k.val := by
    rw [BitVec.toNat_ofNat]; exact Nat.mod_eq_of_lt (by have := k.isLt; omega)
  rw [BitVec.add_zero, Predicate.sge_iff_toNat (by rw [hr]; have := r.isLt; omega) (by rw [hk]; have := k.isLt; omega), hr, hk]

/-- The triangle as a float array: one on and below the diagonal, zero above. -/
theorem v13_at (r k : Fin 2048) :
    val_main_v13 (F := Ideal) (ix2 r k) = if k.val ≤ r.val then (1 : EReal) else 0 := by
  rw [val_main_v13_apply, val_main_v12_apply, val_main_cst_1_apply, val_main_call0_v5_apply, val_main_call0_cst_apply,
    Ideal.ofBits_def, Ideal.ofBits_def, Cert.Consts.ofBits_one, Cert.Consts.ofBits_zero]
  by_cases h : k.val ≤ r.val
  · rw [(tril_at r k).mpr h, select_one, if_pos h]
  · rw [eq_zero_of_ne_one (mt (tril_at r k).mp h), select_zero, if_neg h]

/-- The mask that is set where the key lies in the query's future. -/
theorem v15_at (r k : Fin 2048) :
    val_main_v15 (F := Ideal) (ix2 r k) = if k.val ≤ r.val then 0#1 else 1#1 := by
  rw [val_main_v15_apply, v13_at, val_main_v14_apply, val_main_cst_2_apply, Ideal.ofBits_def, Cert.Consts.ofBits_zero]
  show Ideal.cmp .oeq _ _ = _
  by_cases h : k.val ≤ r.val
  · rw [if_pos h, if_pos h]; simp [Ideal.cmp]
  · rw [if_neg h, if_neg h]; simp [Ideal.cmp]

/-- The masked score is the specification's score, a real number. -/
theorem v16_at (h0 : Cert.Attn.Finite x0) (h1 : Cert.Attn.Finite x1) (b : Fin 32) (r k : Fin 2048) :
    val_main_v16 (F := Ideal) x0 x1 x3 (ix3 b r k) = ((score x0 x1 x3 b r k : ℝ) : EReal) := by
  rw [val_main_v16_apply, val_main_call1_v0_apply, val_main_call1_v1_apply, val_main_cst_3_apply, Ideal.ofBits_def, cNeg,
    v11_at x0 x1 x3 h0 h1]
  have e : idx_main_call1_v0 (ix3 b r k) = ix2 r k :=
    funext fun a => by match a with | ⟨0, _⟩ => rfl | ⟨1, _⟩ => rfl
  rw [e, v15_at]
  unfold score dotQK
  by_cases h : k.val ≤ r.val
  · rw [if_pos h, if_pos h, select_zero]
  · rw [if_neg h, if_neg h, select_one]

/-- The row of real scores of head `b`, query `r`. -/
abbrev srow (b : Fin 32) (r : Fin 2048) : Fin 2048 → ℝ := score x0 x1 x3 b r

/-- The row's maximum. -/
abbrev smax (b : Fin 32) (r : Fin 2048) : ℝ := mx (srow x0 x1 x3 b r) Finset.univ Finset.univ_nonempty

/-- The reduced index `(b, r)` with key `k` put back on the dropped axis is `(b, r, k)`. -/
theorem lift_ix3 (h : S32x2048x2048.Reduces [2] S32x2048) (b : Fin 32) (r : Fin 2048) (k : Fin (S32x2048x2048.size 2)) :
    h.lift (ix2 b r) k = ix3 b r (⟨k.val, k.isLt⟩ : Fin 2048) := by
  funext c; apply Fin.ext
  match c with
  | ⟨0, _⟩ => rfl
  | ⟨1, _⟩ => rfl
  | ⟨2, _⟩ => rfl

/-- The row maximum: the fold of `max` from −∞ over the keys is the supremum of the coerced scores,
    which is the coercion of the real maximum. -/
theorem v17_at (h0 : Cert.Attn.Finite x0) (h1 : Cert.Attn.Finite x1) (b : Fin 32) (r : Fin 2048) :
    val_main_v17 (F := Ideal) x0 x1 x3 (ix2 b r) = ((smax x0 x1 x3 b r : ℝ) : EReal) := by
  unfold val_main_v17
  have hred : S32x2048x2048.Reduces [2] S32x2048 := by decide
  rw [Host.reduce_eq_fold_single FloatOps.maximumf _ _ reducesTo_S32x2048x2048_S32x2048_d2 hred h_S_]
  have hf : (val_main_v16 (F := Ideal) x0 x1 x3 ∘ hred.lift (ix2 b r))
      = fun k : Fin 2048 => ((srow x0 x1 x3 b r k : ℝ) : EReal) := funext fun k => by
    show val_main_v16 (F := Ideal) x0 x1 x3 (hred.lift (ix2 b r) k) = _
    rw [lift_ix3, v16_at x0 x1 x3 h0 h1]
    rfl
  rw [hf, val_main_cst_4_apply, Ideal.ofBits_def, Cert.Consts.ofBits_negInf]
  show (Finset.univ : Finset (Fin 2048)).sup (fun k => ((srow x0 x1 x3 b r k : ℝ) : EReal)) = _
  rw [Cert.Attn.coe_sup' Finset.univ Finset.univ_nonempty]
  rfl

theorem v19_at (h0 : Cert.Attn.Finite x0) (h1 : Cert.Attn.Finite x1) (b : Fin 32) (r : Fin 2048) :
    val_main_v19 (F := Ideal) x0 x1 x3 (ix2 b r) = ((smax x0 x1 x3 b r : ℝ) : EReal) := by
  rw [val_main_v19_apply, val_main_v18_apply, val_main_cst_5_apply, Ideal.ofBits_def, Cert.Consts.ofBits_negInf, v17_at x0 x1 x3 h0 h1]
  exact Cert.Attn.bot_max _

/-- The maximum broadcast back along the keys. -/
theorem v21_at (h0 : Cert.Attn.Finite x0) (h1 : Cert.Attn.Finite x1) (b : Fin 32) (r k : Fin 2048) :
    val_main_v21 (F := Ideal) x0 x1 x3 (ix3 b r k) = ((smax x0 x1 x3 b r : ℝ) : EReal) := by
  rw [val_main_v21_apply, val_main_v20_apply]
  have e : idx_main_v20 (idx_main_v21 (ix3 b r k)) = ix2 b r :=
    funext fun a => by match a with | ⟨0, _⟩ => rfl | ⟨1, _⟩ => rfl
  rw [e, v19_at x0 x1 x3 h0 h1]

/-- The exponential of the score below the maximum. -/
theorem v23_at (h0 : Cert.Attn.Finite x0) (h1 : Cert.Attn.Finite x1) (b : Fin 32) (r k : Fin 2048) :
    val_main_v23 (F := Ideal) x0 x1 x3 (ix3 b r k)
      = ((Real.exp (srow x0 x1 x3 b r k - smax x0 x1 x3 b r) : ℝ) : EReal) := by
  rw [val_main_v23_apply, val_main_v22_apply, v16_at x0 x1 x3 h0 h1, v21_at x0 x1 x3 h0 h1]
  rw [Ideal.hostUnary_exp_def, Ideal.subf_def, ← EReal.coe_sub, Ideal.exp_coe]

/-- The row's denominator. -/
abbrev sden (b : Fin 32) (r : Fin 2048) : ℝ := denAt (srow x0 x1 x3 b r) Finset.univ (smax x0 x1 x3 b r)

theorem v24_at (h0 : Cert.Attn.Finite x0) (h1 : Cert.Attn.Finite x1) (b : Fin 32) (r : Fin 2048) :
    val_main_v24 (F := Ideal) x0 x1 x3 (ix2 b r) = ((sden x0 x1 x3 b r : ℝ) : EReal) := by
  rw [val_main_v24_apply, val_main_cst_6_apply, Ideal.ofBits_def, Cert.Consts.ofBits_zero, zero_add]
  unfold sden denAt
  rw [← Cert.Attn.coe_sum]
  refine Finset.sum_congr rfl fun k _ => ?_
  have e : idx_main_v24 (ix2 b r) k = ix3 b r k :=
    funext fun a => by match a with | ⟨0, _⟩ => rfl | ⟨1, _⟩ => rfl | ⟨2, _⟩ => rfl
  rw [e, v23_at x0 x1 x3 h0 h1]

theorem v26_at (h0 : Cert.Attn.Finite x0) (h1 : Cert.Attn.Finite x1) (b : Fin 32) (r k : Fin 2048) :
    val_main_v26 (F := Ideal) x0 x1 x3 (ix3 b r k) = ((sden x0 x1 x3 b r : ℝ) : EReal) := by
  rw [val_main_v26_apply, val_main_v25_apply]
  have e : idx_main_v25 (idx_main_v26 (ix3 b r k)) = ix2 b r :=
    funext fun a => by match a with | ⟨0, _⟩ => rfl | ⟨1, _⟩ => rfl
  rw [e, v24_at x0 x1 x3 h0 h1]

/-- The softmax weight: the denominator is a positive real, so the quotient is a real quotient. -/
theorem v27_at (h0 : Cert.Attn.Finite x0) (h1 : Cert.Attn.Finite x1) (b : Fin 32) (r k : Fin 2048) :
    val_main_v27 (F := Ideal) x0 x1 x3 (ix3 b r k)
      = ((Real.exp (srow x0 x1 x3 b r k - smax x0 x1 x3 b r) / sden x0 x1 x3 b r : ℝ) : EReal) := by
  rw [val_main_v27_apply, v23_at x0 x1 x3 h0 h1, v26_at x0 x1 x3 h0 h1]
  show Ideal.div _ _ = _
  rw [Ideal.div_coe (ne_of_gt (denAt_pos _ _ Finset.univ_nonempty _)), ← EReal.coe_mul, mul_one_div]

/-- The reference's result stage is the specification, on finite queries, keys and values. -/
theorem ref_eq_G (x0 x1 x2 : (⟨S32x2048x64, .f32⟩ : BufTy).Contents (Elt Ideal)) (x3 : (⟨S4x2048, .i32⟩ : BufTy).Contents (Elt Ideal))
    (h0 : Cert.Attn.Finite x0) (h1 : Cert.Attn.Finite x1) (h2 : Cert.Attn.Finite x2) :
    Cert.ReferenceIdeal.ReadP.val_main_v28 (F := Ideal) x0 x1 x2 x3 = Cert.Attn.G x0 x1 x2 x3 := by
  funext i
  obtain ⟨b, r, d, rfl⟩ : ∃ (b : Fin 32) (r : Fin 2048) (d : Fin 64), i = ix3 b r d := ⟨i 0, i 1, i 2, eq_ix3 i⟩
  rw [G_ix3, val_main_v28_apply]
  unfold G3
  rw [attn_eq_sum_div, ← Cert.Attn.coe_sum]
  refine Finset.sum_congr rfl fun k _ => ?_
  have el : lidx_main_v28 (ix3 b r d) k = ix3 b r k :=
    funext fun a => by match a with | ⟨0, _⟩ => rfl | ⟨1, _⟩ => rfl | ⟨2, _⟩ => rfl
  have er : ridx_main_v28 (ix3 b r d) k = ix3 b k d :=
    funext fun a => by match a with | ⟨0, _⟩ => rfl | ⟨1, _⟩ => rfl | ⟨2, _⟩ => rfl
  rw [el, er, v27_at x0 x1 x3 h0 h1, EReal.coe_mul]
  unfold valCol
  rw [h2.coe_toReal]

end Cert.ReferenceIdeal.RefValue

end
-- ==== Proof.FinitePre.lean ====
/- From the stated precondition to finiteness. The precondition is the conjunction of three tests, one per float
   argument: every entry's absolute value is below +∞. Over the extended reals `max x (−x) < ⊤` excludes both
   infinities, so every entry of the queries, keys and values is a real number. -/
import proofs.«425486_j403726926205_3_alg».proof.Defs
import proofs.«425486_j403726926205_3_alg».proof.Proof.Gen.Pre_finite_inputs
import proofs.«425486_j403726926205_3_alg».proof.Proof.KernelIdealInv
import Idealize.ShloMosaic.Lib.ReduceAll

set_option maxRecDepth 16384

noncomputable section

namespace Cert.KernelIdeal.Gen

open Idealize.ShloMosaic Idealize.ShloMosaic.TcCoe Idealize.ShloMosaic.ValueIdx Idealize.SL.Sem
open Cert.Attn

/-- The rank-0 shape has one index. -/
instance : Subsingleton Cert.Pre_finite_inputs.S_.Idx := ⟨fun a b => funext fun d => d.elim0⟩

/-- An extended real whose absolute value lies below +∞ is a real number: at either infinity `max x (−x)` is +∞. -/
theorem real_of_abs_lt_top (x : EReal) (h : max x (-x) < ⊤) : x ≠ ⊤ ∧ x ≠ ⊥ := by
  induction x using EReal.rec with
  | bot => simp at h
  | top => simp at h
  | coe r => exact ⟨EReal.coe_ne_top r, EReal.coe_ne_bot r⟩

/-- The pattern the test compares against denotes +∞. -/
theorem inf_pattern : (Idealize.ShloMosaic.Ideal.ofBits .f32 0x7F800000#32 : EReal) = ⊤ := by
  simp [Idealize.ShloMosaic.Ideal.ofBits, Idealize.ShloMosaic.Ideal.ieee]

/-- One entry's test read back: `|x| < +∞` came out true, so the entry is a real number. -/
theorem real_of_test [hPre : Cert.Pre_finite_inputs.Facts] (X : FVec Idealize.ShloMosaic.Ideal Cert.Pre_finite_inputs.S32x2048x64 .f32)
    (i : Cert.Pre_finite_inputs.S32x2048x64.Idx)
    (h : cmpf CmpFPredicate.olt (Host.absf X)
        (broadcastInDim Cert.Pre_finite_inputs.S32x2048x64 ![] hPre.bcast_S_S32x2048x64 (constant Cert.Pre_finite_inputs.S_ FTy.f32 0x7F800000#32)) i = 1#1) :
    (X i : EReal) ≠ ⊤ ∧ (X i : EReal) ≠ ⊥ := by
  refine real_of_abs_lt_top (X i) ?_
  have h' : Idealize.ShloMosaic.Ideal.cmp CmpFPredicate.olt (max (X i) (-(X i))) (Idealize.ShloMosaic.Ideal.ofBits .f32 0x7F800000#32) = 1#1 := h
  rw [inf_pattern] at h'
  unfold Idealize.ShloMosaic.Ideal.cmp at h'
  by_contra hn
  simp [hn] at h'

/-- A whole argument's test read back: the reduction by `and` over all entries came out 1, so every entry is a real number. -/
theorem finite_of_all [hPre : Cert.Pre_finite_inputs.Facts] (X : FVec Idealize.ShloMosaic.Ideal Cert.Pre_finite_inputs.S32x2048x64 .f32)
    (h : Host.reduce IntOp.andi (cmpf CmpFPredicate.olt (Host.absf X)
        (broadcastInDim Cert.Pre_finite_inputs.S32x2048x64 ![] hPre.bcast_S_S32x2048x64 (constant Cert.Pre_finite_inputs.S_ FTy.f32 0x7F800000#32)))
        (constantI Cert.Pre_finite_inputs.S_ 1 1#1) hPre.reducesTo_S32x2048x64_S_d0_1_2 hPre.h_S_ ix0 = 1#1) :
    ∀ i, (X i : EReal) ≠ ⊤ ∧ (X i : EReal) ≠ ⊥ := fun i =>
  real_of_test X i (Host.reduce_andi_all _ _ _ _ ix0 h i)

/-- The precondition gives finiteness of the queries, keys and values on every core. -/
theorem finiteArgs_of_pre [hPre : Cert.Pre_finite_inputs.Facts] (m : (ℓ : Loc nD τ sig) → Buf (Elt Idealize.ShloMosaic.Ideal) ℓ) (h : Cert.Pre_KernelIdeal m) (c : Dev nD) : FiniteArgs m c := by
  have h1 := congrFun (h c) ValueIdx.ix0
  dsimp only [Cert.Pre_finite_inputs.fn] at h1
  obtain ⟨h01, h2⟩ := IntOp.andi_eq_one.1 h1
  obtain ⟨h0, h1'⟩ := IntOp.andi_eq_one.1 h01
  exact ⟨finite_of_all _ h0, finite_of_all _ h1', finite_of_all _ h2⟩

end Cert.KernelIdeal.Gen

end
-- ==== Proof.lean ====
/- The certificate's claim. The kernel computes causal attention with an additive key mask by the online softmax:
   for each query tile it walks the key tiles, carrying each row's running maximum, the denominator rescaled to that
   maximum and the accumulator of weighted value rows, and divides the accumulator by the denominator at the last
   key tile. The reference forms every row's scores, takes the plain softmax and multiplies by the values. On
   finite queries, keys and values both are the same function of the arguments, `Cert.Attn.G`: the rescaled running
   sums are the plain sums over the keys seen so far, so after the last key tile their quotient is the softmax
   average. Both programs leave their argument arrays as launched. -/
import proofs.«425486_j403726926205_3_alg».proof.Defs
import proofs.«425486_j403726926205_3_alg».proof.Proof.Gen.Kernel
import proofs.«425486_j403726926205_3_alg».proof.Proof.Gen.KernelIdeal
import proofs.«425486_j403726926205_3_alg».proof.Proof.Gen.ReferenceIdeal
import proofs.«425486_j403726926205_3_alg».proof.Proof.Gen.Pre_finite_inputs
import proofs.«425486_j403726926205_3_alg».proof.Proof.KernelFrame
import proofs.«425486_j403726926205_3_alg».proof.Proof.KernelIdealFrame
import proofs.«425486_j403726926205_3_alg».proof.Proof.KernelIdealValue
import proofs.«425486_j403726926205_3_alg».proof.Proof.RefRun
import proofs.«425486_j403726926205_3_alg».proof.Proof.RefRead
import proofs.«425486_j403726926205_3_alg».proof.Proof.RefValue
import proofs.«425486_j403726926205_3_alg».proof.Proof.FinitePre

noncomputable section

namespace Cert.KernelIdeal.Gen

open Idealize.ShloMosaic Idealize.ShloMosaic.TcCoe Idealize.ShloMosaic.ValueIdx Idealize.SL.Sem
open Cert.Attn

/-- The kernel's run with its value: on finite queries, keys and values the result array ends at the specification
    of the argument arrays, and the four argument arrays end as launched. -/
theorem value_run (m : (ℓ : Loc nD τ sig) → Buf (Elt Ideal) ℓ) (ρ : Dev nD → PrngReg) (hfin : ∀ c, FiniteArgs m c) :
    θ_run (defs (F := Ideal)) (onTc (τ := τ) (main (F := Ideal))) ⟨m, fun _ => 0, ρ⟩ (fun r => ∀ c : Dev nD,
      r.2.mem ((c.tc : Thread nD τ).loc main_v2) = G (Qa m c) (Ka m c) (Va m c) (Ma m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 4).trans (final m c (hfin c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c)⟩)
    (run_main m ρ)

end Cert.KernelIdeal.Gen

namespace Cert.Proof

open Idealize.ShloMosaic Idealize.SL.Sem

theorem frame_k [Cert.Pre_finite_inputs.Facts] : Cert.frame_Kernel (hKernel := Cert.Kernel.Gen.facts) :=
  fun m ρ _ => Cert.Kernel.Gen.frame m ρ

theorem frame_ki [Cert.Pre_finite_inputs.Facts] : Cert.frame_KernelIdeal (hKernelIdeal := Cert.KernelIdeal.Gen.facts) :=
  fun m ρ _ => Cert.KernelIdeal.Gen.frame m ρ

theorem frame_ri [Cert.Pre_finite_inputs.Facts] : Cert.frame_ReferenceIdeal (hReferenceIdeal := Cert.ReferenceIdeal.Gen.facts) :=
  fun m ρ _ => (θ_run Cert.ReferenceIdeal.defs _ _).mono (fun _ h c => (h c).2) (Cert.ReferenceIdeal.ValueP.run (F := Ideal) m ρ)

/-- From memories that agree on the arguments and meet the precondition, both programs end with the result array
    at `Cert.Attn.G` of the kernel's arguments: the kernel by its value run, the reference by its run, its result
    stage read as the specification on finite arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hfin := fun c => Cert.KernelIdeal.Gen.finiteArgs_of_pre m hpre c
  refine ⟨fun c => Cert.Attn.G (Cert.KernelIdeal.Gen.Qa m c) (Cert.KernelIdeal.Gen.Ka m c) (Cert.KernelIdeal.Gen.Va m c) (Cert.KernelIdeal.Gen.Ma m c),
    Cert.KernelIdeal.Gen.value_run m ρ hfin, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v28_eq, (hagree c).1, (hagree c).2.1, (hagree c).2.2.1, (hagree c).2.2.2]
  exact Cert.ReferenceIdeal.RefValue.ref_eq_G _ _ _ _ (hfin c).1 (hfin c).2.1 (hfin c).2.2

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
